-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1000000 : Shape := ⟨1, ![1000000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : FVec F S200000x128 .f32) (main_arg2 : FVec F S128x128 .f32) (main_arg3 : FVec F S128 .f32) (main_arg4 : FVec F S128x128 .f32) (main_arg5 : FVec F S128 .f32) (main_arg6 : FVec F S128x128 .f32) (main_arg7 : IVec S1000000 32) (main_arg8 : IVec S1000000 32) (main_arg9 : IVec S1000000 32) (main_arg10 : IVec S1000000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S200000 : Shape := ⟨1, ![200000]⟩
abbrev S50000x1 : Shape := ⟨2, ![50000, 1]⟩
abbrev S1000000x128 : Shape := ⟨2, ![1000000, 128]⟩
abbrev S200000x1 : Shape := ⟨2, ![200000, 1]⟩
abbrev S1x128 : Shape := ⟨2, ![1, 128]⟩
abbrev S8192x128 : Shape := ⟨2, ![8192, 128]⟩
abbrev S8192x1 : Shape := ⟨2, ![8192, 1]⟩

abbrev nBuf : Space → Nat
  | .hbm => 87
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S50000, .f32⟩
  | .hbm, ⟨15, _⟩ => ⟨S1000000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S200000, .f32⟩
  | .hbm, ⟨23, _⟩ => ⟨S1000000x1, .i32⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S_, .f32⟩
  | .hbm, ⟨43, _⟩ => ⟨S200000x128, .f32⟩
  | .hbm, ⟨44, _⟩ => ⟨S1000000x1, .i32⟩
  | .hbm, ⟨45, _⟩ => ⟨S200000x128, .f32⟩
  | .hbm, ⟨46, _⟩ => ⟨S_, .f32⟩
  | .hbm, ⟨47, _⟩ => ⟨S1000000, .f32⟩
  | .hbm, ⟨48, _⟩ => ⟨S_, .f32⟩
  | .hbm, ⟨49, _⟩ => ⟨S200000, .f32⟩
  | .hbm, ⟨50, _⟩ => ⟨S1000000x1, .i32⟩
  | .hbm, ⟨51, _⟩ => ⟨S200000, .f32⟩
  | .hbm, ⟨52, _⟩ => ⟨S_, .f32⟩
  | .hbm, ⟨53, _⟩ => ⟨S_, .f32⟩
  | .hbm, ⟨54, _⟩ => ⟨S200000, .f32⟩
  | .hbm, ⟨55, _⟩ => ⟨S200000, .f32⟩
  | .hbm, ⟨56, _⟩ => ⟨S_, .f32⟩
  | .hbm, ⟨57, _⟩ => ⟨S50000, .f32⟩
  | .hbm, ⟨58, _⟩ => ⟨S1000000x1, .i32⟩
  | .hbm, ⟨59, _⟩ => ⟨S50000, .f32⟩
  | .hbm, ⟨60, _⟩ => ⟨S_, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S200000, .f32⟩
  | .hbm, ⟨65, _⟩ => ⟨S200000x1, .f32⟩
  | .hbm, ⟨66, _⟩ => ⟨S200000x128, .f32⟩
  | .hbm, ⟨67, _⟩ => ⟨S200000x128, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x128, .f32⟩
  | .hbm, ⟨77, _⟩ => ⟨S_, .f32⟩
  | .hbm, ⟨78, _⟩ => ⟨S50000x128, .f32⟩
  | .hbm, ⟨79, _⟩ => ⟨S1000000x1, .i32⟩
  | .hbm, ⟨80, _⟩ => ⟨S50000x128, .f32⟩
  | .hbm, ⟨81, _⟩ => ⟨S200000x1, .f32⟩
  | .hbm, ⟨82, _⟩ => ⟨S1x128, .f32⟩
  | .hbm, ⟨83, _⟩ => ⟨S200000x128, .f32⟩
  | .hbm, ⟨84, _⟩ => ⟨S50000x1, .f32⟩
  | .hbm, ⟨85, _⟩ => ⟨S1x128, .f32⟩
  | .hbm, ⟨86, _⟩ => ⟨S50000x128, .f32⟩
  | .local _ .vmem, ⟨0, _⟩ => ⟨S8192x128, .f32⟩
  | .local _ .vmem, ⟨1, _⟩ => ⟨S8192x128, .f32⟩
  | .local _ .vmem, ⟨2, _⟩ => ⟨S8192x1, .f32⟩
  | .local _ .vmem, ⟨3, _⟩ => ⟨S8192x1, .f32⟩
  | .local _ .vmem, ⟨4, _⟩ => ⟨S8192x128, .f32⟩
  | .local _ .vmem, ⟨5, _⟩ => ⟨S8192x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x1, .f32⟩
  | .local _ .vmem, ⟨14, _⟩ => ⟨S8192x1, .f32⟩
  | .local _ .vmem, ⟨15, _⟩ => ⟨S8192x128, .f32⟩
  | .local _ .vmem, ⟨16, _⟩ => ⟨S8192x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S8192x128, .f32⟩
  | .local _ .vmem, ⟨21, _⟩ => ⟨S8192x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_8 : Ref sig .tc := ⟨.hbm, 52, rfl⟩
abbrev main_call2_v0 : Ref sig .tc := ⟨.hbm, 53, rfl⟩
abbrev main_call2_v1 : Ref sig .tc := ⟨.hbm, 54, rfl⟩
abbrev main_v27 : Ref sig .tc := ⟨.hbm, 55, rfl⟩
abbrev main_cst_9 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_call3_v0 : Ref sig .tc := ⟨.hbm, 61, rfl⟩
abbrev main_call3_v1 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_11 : Ref sig .tc := ⟨.hbm, 68, rfl⟩
abbrev main_v36 : Ref sig .tc := ⟨.hbm, 69, rfl⟩
abbrev main_v37 : Ref sig .tc := ⟨.hbm, 70, rfl⟩
abbrev main_c_12 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S200000 : S_.BroadcastsInDim S200000 (![] : Fin 0 → Fin S200000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S50000x128 : S_.BroadcastsInDim S50000x128 (![] : Fin 0 → Fin S50000x128.rank)
  shapeCasts_S200000_S200000x1 : S200000.ShapeCasts S200000x1
  shapeCasts_S128_S1x128 : S128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S8192x1_S8192x128 : S8192x1.Broadcasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S50000_S50000x1 : S50000.ShapeCasts S50000x1
  scatter_S50000_S1000000x1_S1000000_n_0_0_1_wf : ScatterDims.WF S50000 S1000000x1 S1000000 [] [0] [0] 1
  scatter_S200000_S1000000x1_S1000000_n_0_0_1_wf : ScatterDims.WF S200000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S200000x128.size a
  hwx0_0 : ∀ i : grid0.Coords, EltTy.bits .f32 = 32 ∨ (Rect.unit (s := S200000x128) (fun a => cc0_transform_0 i a * S8192x128.size a) (fun a => (Pipeline.Clip.of (cc0_transform_0 i a) (S8192x128.size a) (S200000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S200000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x1.size a < S200000x1.size a
  hwx0_1 : ∀ i : grid0.Coords, EltTy.bits .f32 = 32 ∨ (Rect.unit (s := S200000x1) (fun a => cc0_transform_1 i a * S8192x1.size a) (fun a => (Pipeline.Clip.of (cc0_transform_1 i a) (S8192x1.size a) (S200000x1.size a)).extent (S8192x1.size a)) fun a => Pipeline.Clip.inb (Pipeline.Clip.ok_of (hstart0_1 i a))).WholeWords (EltTy.packing .f32)
  hwxs0_1 : ∀ i : grid0.Coords, EltTy.bits .f32 = 32 ∨ (Rect.unit (s := S8192x1) (fun _ => 0) (fun a => (Pipeline.Clip.of (cc0_transform_1 i a) (S8192x1.size a) (S200000x1.size a)).extent (S8192x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S200000x128.size a
  hwx0_2 : ∀ i : grid0.Coords, EltTy.bits .f32 = 32 ∨ (Rect.unit (s := S200000x128) (fun a => cc0_transform_2 i a * S8192x128.size a) (fun a => (Pipeline.Clip.of (cc0_transform_2 i a) (S8192x128.size a) (S200000x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S200000x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S8192x128.size a < S200000x128.size a
  hwx0_6 : ∀ i : grid0.Coords, EltTy.bits .f32 = 32 ∨ (Rect.unit (s := S200000x128) (fun a => cc0_transform_6 i a * S8192x128.size a) (fun a => (Pipeline.Clip.of (cc0_transform_6 i a) (S8192x128.size a) (S200000x128.size a)).extent (S8192x128.size a)) fun a => Pipeline.Clip.inb (Pipeline.Clip.ok_of (hstart0_6 i a))).WholeWords (EltTy.packing .f32)
  hwxs0_6 : ∀ i : grid0.Coords, EltTy.bits .f32 = 32 ∨ (Rect.unit (s := S8192x128) (fun _ => 0) (fun a => (Pipeline.Clip.of (cc0_transform_6 i a) (S8192x128.size a) (S200000x128.size a)).extent (S8192x128.size a)) fun a => (Nat.zero_add _).trans_le (Pipeline.Clip.extent_le (Pipeline.Clip.ok_of (hstart0_6 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x128.size a < S50000x128.size a
  hwx1_0 : ∀ i : grid1.Coords, EltTy.bits .f32 = 32 ∨ (Rect.unit (s := S50000x128) (fun a => cc1_transform_0 i a * S8192x128.size a) (fun a => (Pipeline.Clip.of (cc1_transform_0 i a) (S8192x128.size a) (S50000x128.size a)).extent (S8192x128.size a)) fun a => Pipeline.Clip.inb (Pipeline.Clip.ok_of (hstart1_0 i a))).WholeWords (EltTy.packing .f32)
  hwxs1_0 : ∀ i : grid1.Coords, EltTy.bits .f32 = 32 ∨ (Rect.unit (s := S8192x128) (fun _ => 0) (fun a => (Pipeline.Clip.of (cc1_transform_0 i a) (S8192x128.size a) (S50000x128.size a)).extent (S8192x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S50000x1.size a
  hwx1_1 : ∀ i : grid1.Coords, EltTy.bits .f32 = 32 ∨ (Rect.unit (s := S50000x1) (fun a => cc1_transform_1 i a * S8192x1.size a) (fun a => (Pipeline.Clip.of (cc1_transform_1 i a) (S8192x1.size a) (S50000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S50000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x128.size a < S50000x128.size a
  hwx1_2 : ∀ i : grid1.Coords, EltTy.bits .f32 = 32 ∨ (Rect.unit (s := S50000x128) (fun a => cc1_transform_2 i a * S8192x128.size a) (fun a => (Pipeline.Clip.of (cc1_transform_2 i a) (S8192x128.size a) (S50000x128.size a)).extent (S8192x128.size a)) fun a => Pipeline.Clip.inb (Pipeline.Clip.ok_of (hstart1_2 i a))).WholeWords (EltTy.packing .f32)
  hwxs1_2 : ∀ i : grid1.Coords, EltTy.bits .f32 = 32 ∨ (Rect.unit (s := S8192x128) (fun _ => 0) (fun a => (Pipeline.Clip.of (cc1_transform_2 i a) (S8192x128.size a) (S50000x128.size a)).extent (S8192x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S8192x128.size a < S50000x128.size a
  hwx1_6 : ∀ i : grid1.Coords, EltTy.bits .f32 = 32 ∨ (Rect.unit (s := S50000x128) (fun a => cc1_transform_6 i a * S8192x128.size a) (fun a => (Pipeline.Clip.of (cc1_transform_6 i a) (S8192x128.size a) (S50000x128.size a)).extent (S8192x128.size a)) fun a => Pipeline.Clip.inb (Pipeline.Clip.ok_of (hstart1_6 i a))).WholeWords (EltTy.packing .f32)
  hwxs1_6 : ∀ i : grid1.Coords, EltTy.bits .f32 = 32 ∨ (Rect.unit (s := S8192x128) (fun _ => 0) (fun a => (Pipeline.Clip.of (cc1_transform_6 i a) (S8192x128.size a) (S50000x128.size a)).extent (S8192x128.size a)) fun a => (Nat.zero_add _).trans_le (Pipeline.Clip.extent_le (Pipeline.Clip.ok_of (hstart1_6 i a)))).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpecClip (Memref.whole main_v22) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v46) S8192x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v48) S8192x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpecClip (Memref.whole main_v45) S8192x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v49) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg0) S8192x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_v51) S8192x128.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S200000 : Shape := ⟨1, ![200000]⟩
abbrev S50000x1 : Shape := ⟨2, ![50000, 1]⟩
abbrev S1000000x128 : Shape := ⟨2, ![1000000, 128]⟩
abbrev S200000x1 : Shape := ⟨2, ![200000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S50000, .f32⟩
  | .hbm, ⟨15, _⟩ => ⟨S1000000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S200000, .f32⟩
  | .hbm, ⟨23, _⟩ => ⟨S1000000x1, .i32⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S_, .f32⟩
  | .hbm, ⟨43, _⟩ => ⟨S200000x128, .f32⟩
  | .hbm, ⟨44, _⟩ => ⟨S1000000x1, .i32⟩
  | .hbm, ⟨45, _⟩ => ⟨S200000x128, .f32⟩
  | .hbm, ⟨46, _⟩ => ⟨S200000, .f32⟩
  | .hbm, ⟨47, _⟩ => ⟨S200000x1, .f32⟩
  | .hbm, ⟨48, _⟩ => ⟨S200000x128, .f32⟩
  | .hbm, ⟨49, _⟩ => ⟨S200000x128, .f32⟩
  | .hbm, ⟨50, _⟩ => ⟨S200000x128, .f32⟩
  | .hbm, ⟨51, _⟩ => ⟨S1x128, .f32⟩
  | .hbm, ⟨52, _⟩ => ⟨S200000x128, .f32⟩
  | .hbm, ⟨53, _⟩ => ⟨S200000x128, .f32⟩
  | .hbm, ⟨54, _⟩ => ⟨S_, .f32⟩
  | .hbm, ⟨55, _⟩ => ⟨S1000000, .f32⟩
  | .hbm, ⟨56, _⟩ => ⟨S_, .f32⟩
  | .hbm, ⟨57, _⟩ => ⟨S200000, .f32⟩
  | .hbm, ⟨58, _⟩ => ⟨S1000000x1, .i32⟩
  | .hbm, ⟨59, _⟩ => ⟨S200000, .f32⟩
  | .hbm, ⟨60, _⟩ => ⟨S_, .f32⟩
  | .hbm, ⟨61, _⟩ => ⟨S_, .f32⟩
  | .hbm, ⟨62, _⟩ => ⟨S200000, .f32⟩
  | .hbm, ⟨63, _⟩ => ⟨S200000, .f32⟩
  | .hbm, ⟨64, _⟩ => ⟨S_, .f32⟩
  | .hbm, ⟨65, _⟩ => ⟨S50000, .f32⟩
  | .hbm, ⟨66, _⟩ => ⟨S1000000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S200000, .f32⟩
  | .hbm, ⟨73, _⟩ => ⟨S200000x1, .f32⟩
  | .hbm, ⟨74, _⟩ => ⟨S200000x128, .f32⟩
  | .hbm, ⟨75, _⟩ => ⟨S200000x128, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x128, .f32⟩
  | .hbm, ⟨85, _⟩ => ⟨S_, .f32⟩
  | .hbm, ⟨86, _⟩ => ⟨S50000x128, .f32⟩
  | .hbm, ⟨87, _⟩ => ⟨S1000000x1, .i32⟩
  | .hbm, ⟨88, _⟩ => ⟨S50000x128, .f32⟩
  | .hbm, ⟨89, _⟩ => ⟨S50000, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S200000x128, .f32⟩
  | .hbm, ⟨98, _⟩ => ⟨S200000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_call2_v0 : Ref sig .tc := ⟨.hbm, 61, rfl⟩
abbrev main_call2_v1 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_10 : Ref sig .tc := ⟨.hbm, 68, rfl⟩
abbrev main_call3_v0 : Ref sig .tc := ⟨.hbm, 69, rfl⟩
abbrev main_call3_v1 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_c_12 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S200000 : S_.BroadcastsInDim S200000 (![] : Fin 0 → Fin S200000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  scatter_S50000_S1000000x1_S1000000_n_0_0_1_wf : ScatterDims.WF S50000 S1000000x1 S1000000 [] [0] [0] 1
  scatter_S200000_S1000000x1_S1000000_n_0_0_1_wf : ScatterDims.WF S200000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KBody.lean ====
/-
  The fused combine body as a Hoare triple, at either launch: on whole staging buffers holding the aggregate block
  `a`, the in-degree column `g`, the self-loop block `x`, the two weight matrices `w`, `ws` and the bias row `b`,
  the body reads all six, leaves them as they were, and overwrites the result buffer (whatever it held) with ONE
  value: the body's arithmetic `(a · rsqrt g) ⬝ w + x ⬝ ws + b` as the program's own pure term of the six loads.
  Stated for any float instance, so that it serves the word-level and the real-number reading alike.
-/
import proofs.«135838_j85152021611242_1_alg».proof.Proof.Gen.Kernel.Skeleton
import proofs.«135838_j85152021611242_1_alg».proof.Proof.Gen.Kernel.Points
import Idealize.ShloMosaic.Lib.Pipeline.FrameBody
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole-buffer rectangle of the result's staging buffer. -/
abbrev rOut : Rect S8192x128 := Rect.unit (s := S8192x128) ![0, 0] S8192x128.size inb_S8192x128_S8192x128_0_0

/-- The whole-buffer rectangles of the other staging buffers. -/
abbrev rDeg : Rect S8192x1 := Rect.unit (s := S8192x1) ![0, 0] S8192x1.size inb_S8192x1_S8192x1_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- What the body of launch 0 leaves in the result buffer: its single whole-buffer store, as a one-piece overlay
    whose payload is the body's arithmetic of the six whole-buffer loads. -/
def out0 (a : Vec F S8192x128 .f32) (g : Vec F S8192x1 .f32) (x : Vec F S8192x128 .f32) (w : Vec F S128x128 .f32)
    (b : Vec F S1x128 .f32) (ws : Vec F S128x128 .f32) : Vec F S8192x128 .f32 :=
  View.canon [⟨rOut, k0_pay1 (View.ld g rDeg) (View.ld a rOut) (View.ld w rMat) (View.ld x rOut) (View.ld ws rMat) (View.ld b rRow)⟩]

/-- The same for launch 1 (the same function text at the other grid). -/
def out1 (a : Vec F S8192x128 .f32) (g : Vec F S8192x1 .f32) (x : Vec F S8192x128 .f32) (w : Vec F S128x128 .f32)
    (b : Vec F S1x128 .f32) (ws : Vec F S128x128 .f32) : Vec F S8192x128 .f32 :=
  View.canon [⟨rOut, k1_pay1 (View.ld g rDeg) (View.ld a rOut) (View.ld w rMat) (View.ld x rOut) (View.ld ws rMat) (View.ld b rRow)⟩]

/-- One whole-buffer piece covers the buffer. -/
theorem coverOut (p0 : Vec F S8192x128 .f32) (y : S8192x128.Idx) :
    ∃ pc ∈ ([⟨rOut, p0⟩] : List (View.Piece (Elt F) S8192x128 .f32)), y ∈ pc.1.set :=
  View.cover_of_tiled [⟨rOut, p0⟩] S8192x128.size (by rfl) y

set_option maxHeartbeats 4000000 in
/-- Launch 0's body: six reads, one dead read of the result buffer, one whole store. -/
theorem sound_kernel0 (c : Dev nD) (E : Set ℕ) (i : grid0.Coords)
    (arg1 : Memref sig .tc .vmem S8192x128 .f32) (harg1 : arg1.IsWhole) (arg2 : Memref sig .tc .vmem S8192x1 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S8192x128 .f32) (harg7 : arg7.IsWhole)
    (a : Vec F S8192x128 .f32) (g : Vec F S8192x1 .f32) (x : Vec F S8192x128 .f32) (w : Vec F S128x128 .f32)
    (b : Vec F S1x128 .f32) (ws : Vec F S128x128 .f32) (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare w ∗ owns (c : Thread nD τ) arg5 fullShare b ∗ owns (c : Thread nD τ) arg6 fullShare ws
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare w ∗ owns (c : Thread nD τ) arg5 fullShare b ∗ owns (c : Thread nD τ) arg6 fullShare ws
            ∗ owns (c : Thread nD τ) arg7 fullShare (out0 a g x w b ws)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

set_option maxHeartbeats 4000000 in
/-- Launch 1's body: six reads, one dead read of the result buffer, one whole store. -/
theorem sound_kernel1 (c : Dev nD) (E : Set ℕ) (i : grid1.Coords)
    (arg1 : Memref sig .tc .vmem S8192x128 .f32) (harg1 : arg1.IsWhole) (arg2 : Memref sig .tc .vmem S8192x1 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S8192x128 .f32) (harg7 : arg7.IsWhole)
    (a : Vec F S8192x128 .f32) (g : Vec F S8192x1 .f32) (x : Vec F S8192x128 .f32) (w : Vec F S128x128 .f32)
    (b : Vec F S1x128 .f32) (ws : Vec F S128x128 .f32) (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare w ∗ owns (c : Thread nD τ) arg5 fullShare b ∗ owns (c : Thread nD τ) arg6 fullShare ws
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare w ∗ owns (c : Thread nD τ) arg5 fullShare b ∗ owns (c : Thread nD τ) arg6 fullShare ws
            ∗ owns (c : Thread nD τ) arg7 fullShare (out1 a g x w b ws)) -∗ K ⟨⟩))
      ⊢ wp frame (wpE (defs₀ (F := F)) Variants.none c none) E
          (cc1__fused_kernel i arg1 harg1 arg2 harg2 arg3 harg3 arg4 harg4 arg5 harg5 arg6 harg6 arg7 harg7) K := by
  simp only [cc1__fused_kernel_eq_skeleton]; unfold cc1__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

end Cert.Kernel.Body

end
-- ==== Proof.KDat.lean ====
/-
  The proof data of the two launches for the frame of the word-level program, and the body's obligation over them.

  A frame reads no window's contents: it needs the launches to run and the argument arrays to end as they began.  An
  input window's array is never written back, whatever the body leaves in its staging buffer, so nothing has to be said
  of any staging buffer: every window is handed to the body at whatever it then holds and taken back at whatever the
  body leaves.  The body's triple holds for arbitrary contents of its six inputs, so the obligation is that triple.
-/
import proofs.«135838_j85152021611242_1_alg».proof.Proof.KBody
import proofs.«135838_j85152021611242_1_alg».proof.Proof.Gen.Kernel.Launch
import Idealize.ShloMosaic.Lib.Pipeline.Frame
import Idealize.ShloMosaic.Lib.Pipeline.Regions

noncomputable section

namespace Cert.Kernel.BitsFrame

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

-- the TensorCore's buffer contents when a launch is entered
variable (V : (c : Dev nD) → (b : Ref sig .tc) → Buf (Elt F) ((c : Thread nD τ).loc b))

/-- Launch 0's proof data on core `c`: the arrays as the launch finds them; no staging contents named; the invariant
    the scoped rest and the generator register; nothing owed; full shares. -/
def dat0 (c : Dev nD) : Dat τ (Elt F) Unit ℕ (UR sig nD τ) ℕ cfg0 c where
  A w := V c (Pipeline.arrRef spec0 w)
  after w t := Dat.unnamed w t
  Φ _ := Pipeline.ΦA spec0 c
  q _ := fullShare
  owed _ := 0

/-- Launch 1's proof data, likewise. -/
def dat1 (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

theorem A_eq0 (c : Dev nD) (w : Fin cfg0.W) : (dat0 V c).A w = V c (Pipeline.arrRef spec0 w) := by
  dsimp only [dat0]
theorem A_eq1 (c : Dev nD) (w : Fin cfg1.W) : (dat1 V c).A w = V c (Pipeline.arrRef spec1 w) := by
  dsimp only [dat1]

/-- What the body of launch 0 is called with at point `t`, -/
def bodyPre0 (c : Dev nD) (t : Fin cfg0.N) : sProp 𝕄 :=
  iprop((dat0 V c).Φ t.castSucc ∗ (dat0 V c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- and what it returns: the same, each staging buffer at some contents. -/
def bodyPost0 (c : Dev nD) (t : Fin cfg0.N) : sProp 𝕄 :=
  iprop((dat0 V c).Φ t.succ ∗ (dat0 V c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- The body at any point of launch 0: whatever the six input buffers hold, the body's triple applies at those
    contents; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%a, H0⟩, ⟨%g, H1⟩, ⟨%x, H2⟩, ⟨%w, H3⟩, ⟨%b, H4⟩, ⟨%ws, H5⟩, H6⟩
  iapply (sound_kernel0 c Set.univ _ _ _ _ _ _ _ _ _ _ _ _ _ _ _ a g x w b ws _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The body's obligation at every point of launch 0, every window forgotten. -/
theorem body_obligation0 (c : Dev nD) :
    BodyObligationLoose (dat0 (F := F) V c) (defs₀ (F := F)) Variants.none () Set.univ (fun _ => true) := fun t => by
  dsimp only []
  rw [bigSep_W0]
  exact sound_body0 V c t

/-- What the body of launch 1 is called with at point `t`, -/
def bodyPre1 (c : Dev nD) (t : Fin cfg1.N) : sProp 𝕄 :=
  iprop((dat1 V c).Φ t.castSucc ∗ (dat1 V c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X)
    ∗ (∃ X, owns (c : Thread nD τ) (st1_4 t) fullShare X)
    ∗ (∃ X, owns (c : Thread nD τ) (st1_5 t) fullShare X)
    ∗ (∃ X, owns (c : Thread nD τ) (st1_6 t) fullShare X))

/-- and what it returns: the same, each staging buffer at some contents. -/
def bodyPost1 (c : Dev nD) (t : Fin cfg1.N) : sProp 𝕄 :=
  iprop((dat1 V c).Φ t.succ ∗ (dat1 V c).owesAt () t.succ
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X)
    ∗ (∃ X, owns (c : Thread nD τ) (st1_4 t) fullShare X)
    ∗ (∃ X, owns (c : Thread nD τ) (st1_5 t) fullShare X)
    ∗ (∃ X, owns (c : Thread nD τ) (st1_6 t) fullShare X))

/-- The body at any point of launch 1: whatever the six input buffers hold, the body's triple applies at those
    contents; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%a, H0⟩, ⟨%g, H1⟩, ⟨%x, H2⟩, ⟨%w, H3⟩, ⟨%b, H4⟩, ⟨%ws, H5⟩, H6⟩
  iapply (sound_kernel1 c Set.univ _ _ _ _ _ _ _ _ _ _ _ _ _ _ _ a g x w b ws _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The body's obligation at every point of launch 1, every window forgotten. -/
theorem body_obligation1 (c : Dev nD) :
    BodyObligationLoose (dat1 (F := F) V c) (defs₀ (F := F)) Variants.none () Set.univ (fun _ => true) := fun t => by
  dsimp only []
  rw [bigSep_W1]
  exact sound_body1 V c t

end Cert.Kernel.BitsFrame

end
-- ==== Proof.KRegions.lean ====
/-
  The two launches of the word-level program as segments of its run, for the frame.

  Between two items of @main a core holds its unscoped buffers whole.  What launch 0 writes into its result array
  `main_v48` at the clipped last grid point is not named by any closed form, so from launch 0's exit on that one
  buffer is carried at SOME contents, apart from the others, which stay at named contents: the two reshapes that follow
  and launch 1 read none of it.  Launch 1's result array `main_v51` is carried the same way from its exit.  Every
  argument array stays among the named ones to the end.
-/
import proofs.«135838_j85152021611242_1_alg».proof.Proof.KDat
import proofs.«135838_j85152021611242_1_alg».proof.Proof.Gen.Kernel.Regions
import Idealize.ShloMosaic.Lib.Pipeline.Cells
import Idealize.ShloMosaic.Lib.Pipeline.Kit
import Idealize.ShloMosaic.Lib.Pipeline.RegionsLoop

noncomputable section

namespace Cert.Kernel.BitsFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-! ## One buffer in and out of a held set -/

/-- One buffer split out of a set of whole buffers. -/
theorem held_take (c : Thread nD τ) {S : Finset (DevRef τ sig)} {b : DevRef τ sig} (hb : b ∈ S) (V : Valuation τ sig (Elt F)) :
    (StableHlo.held c S V : sProp 𝕄) = iprop(((c.1, b) ↦{fullShare} V b) ∗ StableHlo.held c (S \ {b}) V) := by
  rw [StableHlo.held_sub_split c (Finset.singleton_subset_iff.mpr hb) V]
  unfold StableHlo.held
  rw [bigSep_singleton]

/-- A set of whole buffers at a valuation changed at one of them: that one at the new contents, the others as they were. -/
theorem held_update (c : Thread nD τ) {S : Finset (DevRef τ sig)} {b : DevRef τ sig} (hb : b ∈ S) (V : Valuation τ sig (Elt F))
    (G : b.ty.Contents (Elt F)) :
    (StableHlo.held c S (Function.update V b G) : sProp 𝕄) = iprop(((c.1, b) ↦{fullShare} G) ∗ StableHlo.held c (S \ {b}) V) := by
  rw [held_take c hb, Function.update_self,
    StableHlo.held_congr c (V := Function.update V b G) (V' := V) fun x hx =>
      Function.update_of_ne (fun e => (Finset.mem_sdiff.mp hx).2 (Finset.mem_singleton.mpr e)) _ _]

/-! ## The buffers' contents, and the two result buffers carried apart -/

variable (m : (ℓ : Loc nD τ sig) → Buf (Elt F) ℓ)

/-- Launch 0's result array and launch 1's, as device buffers. -/
abbrev b48 : DevRef τ sig := Proc.devRef .tc main_v48
abbrev b51 : DevRef τ sig := Proc.devRef .tc main_v51

/-- An unscoped TensorCore reference is among the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers but launch 0's result array: what stays at named contents after launch 0. -/
abbrev S1 : Finset (DevRef τ sig) := Pipeline.ucRefs τ sig \ {b48}
/-- Those but launch 1's result array too: what stays at named contents to the end. -/
abbrev S2 : Finset (DevRef τ sig) := (Pipeline.ucRefs τ sig \ {b51}) \ {b48}

theorem mem_S1 (b : Ref sig .tc) (h : ¬ (Proc.devRef .tc b : DevRef τ sig).isScoped) (hne : b ≠ main_v48) :
    Proc.devRef .tc b ∈ (S1 : Finset (DevRef τ sig)) :=
  Finset.mem_sdiff.mpr ⟨mem_uc b h, fun e => StableHlo.devRef_ne_of_ne hne (Finset.mem_singleton.mp e)⟩

theorem mem_S2 (b : Ref sig .tc) (h : ¬ (Proc.devRef .tc b : DevRef τ sig).isScoped) (hne : b ≠ main_v48) (hne' : b ≠ main_v51) :
    Proc.devRef .tc b ∈ (S2 : Finset (DevRef τ sig)) :=
  Finset.mem_sdiff.mpr ⟨Finset.mem_sdiff.mpr ⟨mem_uc b h, fun e => StableHlo.devRef_ne_of_ne hne' (Finset.mem_singleton.mp e)⟩,
    fun e => StableHlo.devRef_ne_of_ne hne (Finset.mem_singleton.mp e)⟩

/-- Core `c`'s unscoped buffers when launch 0 is entered: the launch memory after the nine host stretches. -/
abbrev VA (c : Dev nD) : Valuation τ sig (Elt F) := V9 m c
/-- The same after the two reshapes between the launches (which read and write none of the result arrays). -/
abbrev VB (c : Dev nD) : Valuation τ sig (Elt F) := StableHlo.after hostOps1 (V9 m c)
/-- Both read at the TensorCore's references (what the launches' proof data take). -/
abbrev vA : (c : Dev nD) → (b : Ref sig .tc) → Buf (Elt F) ((c : Thread nD τ).loc b) := fun c b => VA m c b
abbrev vB : (c : Dev nD) → (b : Ref sig .tc) → Buf (Elt F) ((c : Thread nD τ).loc b) := fun c b => VB m c b

/-- Launch 0's result array at some contents; launch 1's. -/
abbrev P48 (c : Dev nD) : sProp 𝕄 := iprop(∃ G : (b48 : DevRef τ sig).ty.Contents (Elt F), (((c : Thread nD τ).1, b48) ↦{fullShare} G))
abbrev P51 (c : Dev nD) : sProp 𝕄 := iprop(∃ G : (b51 : DevRef τ sig).ty.Contents (Elt F), (((c : Thread nD τ).1, b51) ↦{fullShare} G))

/-! ## The proof data family -/

/-- Every launch's exact proof data, each at its entry contents (a literal `match` on the launch). -/
def pdats : (p : Fin 2) → (c : Dev nD) → Dat τ (Elt F) Unit ℕ (UR sig nD τ) ℕ (Pipeline.pin (pcfgs (F := F)) adm p) c
  | ⟨0, _⟩ => fun c => dat0 (vA m) c
  | ⟨1, _⟩ => fun c => dat1 (vB m) c

/-- The same read relationally, every window forgotten. -/
def rdats : (p : Fin 2) → (c : Dev nD) → RDat τ (Elt F) Unit ℕ (UR sig nD τ) ℕ (Pipeline.pin (pcfgs (F := F)) adm p) c
  | ⟨0, _⟩ => fun c => (dat0 (vA m) c).toRForget fun _ => true
  | ⟨1, _⟩ => fun c => (dat1 (vB m) c).toRForget fun _ => true

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## What a launch leaves in its arrays -/

/-- No window of launch 1 is on launch 0's result array, and no input window of either launch is on its own result array. -/
theorem arr0_ne : ∀ w : Fin 7, w ≠ 6 → Pipeline.arrRef spec0 w ≠ main_v48 := by decide
theorem arr1_ne : ∀ w : Fin 7, w ≠ 6 → Pipeline.arrRef spec1 w ≠ main_v51 := by decide
theorem arr1_ne48 : ∀ w : Fin 7, Pipeline.arrRef spec1 w ≠ main_v48 := by decide

/-- An input window's array is as entered after any number of write-backs: only the result window writes back. -/
theorem isIn0 : ∀ w : Fin 7, w ≠ 6 → (cfg0.win w).isOut = false := by decide
theorem isIn1 : ∀ w : Fin 7, w ≠ 6 → (cfg1.win w).isOut = false := by decide
theorem arrAt0_in (c : Dev nD) (w : Fin 7) (hw : w ≠ 6) (G) (h : (rdats m 0 c).ArrAt w cfg0.N G) : G = (rdats m 0 c).A w := by
  rw [(rdats m 0 c).ArrAt_in w (isIn0 w hw)] at h; exact h
theorem arrAt1_in (c : Dev nD) (w : Fin 7) (hw : w ≠ 6) (G) (h : (rdats m 1 c).ArrAt w cfg1.N G) : G = (rdats m 1 c).A w := by
  rw [(rdats m 1 c).ArrAt_in w (isIn1 w hw)] at h; exact h

/-- Launch 0's arrays after every write-back: each input array as entered (it is never written), the result array at
    some contents — the arrays at a valuation `W` that has the inputs' entry contents, changed at the result array. -/
theorem arraysAt0_elim (c : Dev nD) (W : Valuation τ sig (Elt F))
    (hW : ∀ w : Fin 7, w ≠ 6 → (rdats m 0 c).A w = W (Proc.devRef .tc (Pipeline.arrRef spec0 w))) :
    ((rdats m 0 c).arraysAt cfg0.N : sProp 𝕄)
      ⊢ iprop(∃ G : (b48 : DevRef τ sig).ty.Contents (Elt F),
          (pdats m 0 c).arrays fun w => Function.update W b48 G (Proc.devRef .tc (Pipeline.arrRef spec0 w))) := by
  unfold Pipeline.RDat.arraysAt Pipeline.Dat.arrays
  rw [bigSep_W0]
  iintro ⟨⟨%F0, %h0, H0⟩, ⟨%F1, %h1, H1⟩, ⟨%F2, %h2, H2⟩, ⟨%F3, %h3, H3⟩, ⟨%F4, %h4, H4⟩, ⟨%F5, %h5, H5⟩, ⟨%F6, -, H6⟩⟩
  have e0 := arrAt0_in m c 0 (by decide) F0 h0
  have e1 := arrAt0_in m c 1 (by decide) F1 h1
  have e2 := arrAt0_in m c 2 (by decide) F2 h2
  have e3 := arrAt0_in m c 3 (by decide) F3 h3
  have e4 := arrAt0_in m c 4 (by decide) F4 h4
  have e5 := arrAt0_in m c 5 (by decide) F5 h5
  iexists F6
  rw [bigSep_W0]
  beta_reduce
  isplitl [H0]
  · rw [Function.update_of_ne (StableHlo.devRef_ne_of_ne (arr0_ne 0 (by decide))), ← hW 0 (by decide), ← e0]; iexact H0
  isplitl [H1]
  · rw [Function.update_of_ne (StableHlo.devRef_ne_of_ne (arr0_ne 1 (by decide))), ← hW 1 (by decide), ← e1]; iexact H1
  isplitl [H2]
  · rw [Function.update_of_ne (StableHlo.devRef_ne_of_ne (arr0_ne 2 (by decide))), ← hW 2 (by decide), ← e2]; iexact H2
  isplitl [H3]
  · rw [Function.update_of_ne (StableHlo.devRef_ne_of_ne (arr0_ne 3 (by decide))), ← hW 3 (by decide), ← e3]; iexact H3
  isplitl [H4]
  · rw [Function.update_of_ne (StableHlo.devRef_ne_of_ne (arr0_ne 4 (by decide))), ← hW 4 (by decide), ← e4]; iexact H4
  isplitl [H5]
  · rw [Function.update_of_ne (StableHlo.devRef_ne_of_ne (arr0_ne 5 (by decide))), ← hW 5 (by decide), ← e5]; iexact H5
  have e6 : Function.update W b48 F6 (Proc.devRef .tc (Pipeline.arrRef spec0 6)) = F6 :=
    Function.update_self (β := fun b : DevRef τ sig => b.ty.Contents (Elt F)) b48 F6 W
  rw [e6]; iexact H6

/-- Launch 1's, likewise. -/
theorem arraysAt1_elim (c : Dev nD) (W : Valuation τ sig (Elt F))
    (hW : ∀ w : Fin 7, w ≠ 6 → (rdats m 1 c).A w = W (Proc.devRef .tc (Pipeline.arrRef spec1 w))) :
    ((rdats m 1 c).arraysAt cfg1.N : sProp 𝕄)
      ⊢ iprop(∃ G : (b51 : DevRef τ sig).ty.Contents (Elt F),
          (pdats m 1 c).arrays fun w => Function.update W b51 G (Proc.devRef .tc (Pipeline.arrRef spec1 w))) := by
  unfold Pipeline.RDat.arraysAt Pipeline.Dat.arrays
  rw [bigSep_W1]
  iintro ⟨⟨%F0, %h0, H0⟩, ⟨%F1, %h1, H1⟩, ⟨%F2, %h2, H2⟩, ⟨%F3, %h3, H3⟩, ⟨%F4, %h4, H4⟩, ⟨%F5, %h5, H5⟩, ⟨%F6, -, H6⟩⟩
  have e0 := arrAt1_in m c 0 (by decide) F0 h0
  have e1 := arrAt1_in m c 1 (by decide) F1 h1
  have e2 := arrAt1_in m c 2 (by decide) F2 h2
  have e3 := arrAt1_in m c 3 (by decide) F3 h3
  have e4 := arrAt1_in m c 4 (by decide) F4 h4
  have e5 := arrAt1_in m c 5 (by decide) F5 h5
  iexists F6
  rw [bigSep_W1]
  beta_reduce
  isplitl [H0]
  · rw [Function.update_of_ne (StableHlo.devRef_ne_of_ne (arr1_ne 0 (by decide))), ← hW 0 (by decide), ← e0]; iexact H0
  isplitl [H1]
  · rw [Function.update_of_ne (StableHlo.devRef_ne_of_ne (arr1_ne 1 (by decide))), ← hW 1 (by decide), ← e1]; iexact H1
  isplitl [H2]
  · rw [Function.update_of_ne (StableHlo.devRef_ne_of_ne (arr1_ne 2 (by decide))), ← hW 2 (by decide), ← e2]; iexact H2
  isplitl [H3]
  · rw [Function.update_of_ne (StableHlo.devRef_ne_of_ne (arr1_ne 3 (by decide))), ← hW 3 (by decide), ← e3]; iexact H3
  isplitl [H4]
  · rw [Function.update_of_ne (StableHlo.devRef_ne_of_ne (arr1_ne 4 (by decide))), ← hW 4 (by decide), ← e4]; iexact H4
  isplitl [H5]
  · rw [Function.update_of_ne (StableHlo.devRef_ne_of_ne (arr1_ne 5 (by decide))), ← hW 5 (by decide), ← e5]; iexact H5
  have e6 : Function.update W b51 F6 (Proc.devRef .tc (Pipeline.arrRef spec1 6)) = F6 :=
    Function.update_self (β := fun b : DevRef τ sig => b.ty.Contents (Elt F)) b51 F6 W
  rw [e6]; iexact H6

end Cert.Kernel.BitsFrame

end
-- ==== Proof.KSegs.lean ====
/-
  The two launches and the stretch between them as segments of the word-level program's run.

  Launch 0 is entered from every unscoped buffer at named contents; it leaves its result array at some contents, the
  rest as named.  The two reshapes run over the named rest.  Launch 1 is entered from that, its own arrays all among
  the named buffers (none is launch 0's result array), and leaves its result array at some contents too.
-/
import proofs.«135838_j85152021611242_1_alg».proof.Proof.KRegions

noncomputable section

namespace Cert.Kernel.BitsFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

/-! ## The arrays out of the unscoped buffers and back -/

theorem b48_mem : (b48 : DevRef τ sig) ∈ Pipeline.ucRefs τ sig := mem_uc main_v48 (by decide)
theorem b51_mem : (b51 : DevRef τ sig) ∈ Pipeline.ucRefs τ sig := mem_uc main_v51 (by decide)
theorem b48_mem' : (b48 : DevRef τ sig) ∈ Pipeline.ucRefs τ sig \ {b51} :=
  Finset.mem_sdiff.mpr ⟨b48_mem, fun e => StableHlo.devRef_ne_of_ne (by decide : main_v48 ≠ main_v51) (Finset.mem_singleton.mp e)⟩

/-- Launch 0's exit: its arrays after every write-back and the unscoped rest are the unscoped buffers but the result
    array at their entry contents, and the result array at some contents. -/
theorem exit0 (c : Dev nD) :
    iprop((rdats m 0 c).arraysAt cfg0.N ∗ Pipeline.unscopedRest (Ix := Unit) (Name := ℕ) (U := UR sig nD τ) (Lvl := ℕ) spec0 c (vA m c))
      ⊢ (iprop(StableHlo.held (c : Thread nD τ) S1 (VA m c) ∗ P48 c) : sProp 𝕄) := by
  iintro ⟨Ha, Hrest⟩
  ihave Ha' := (arraysAt0_elim m c (VA m c) fun _ _ => rfl) $$ Ha
  icases Ha' with ⟨%G, Ha⟩
  have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (vA m c) (fun b => Function.update (VA m c) b48 G b) (fun w => Function.update (VA m c) b48 G (Pipeline.arrRef spec0 w)) (fun _ => rfl)
      (fun b hb => Function.update_of_ne (StableHlo.devRef_ne_of_ne
        (fun e => hb (by rw [e]; exact Finset.mem_image.mpr ⟨6, Finset.mem_univ _, rfl⟩))) _ _)
  rw [Pipeline.unscopedBufs_held, held_update (c : Thread nD τ) b48_mem (VA m c) G] at hjoin
  ihave H := hjoin $$ [Ha Hrest]
  · isplitl [Ha] <;> iassumption
  icases H with ⟨H48, Hh⟩
  isplitl [Hh]; · iexact Hh
  iexists G; iexact H48

/-- Launch 1's arrays at entry are read off the named contents, at which launch 0's result array is none of them. -/
theorem A1_eq (c : Dev nD) (w : Fin 7) : (rdats m 1 c).A w = VB m c (Proc.devRef .tc (Pipeline.arrRef spec1 w)) := rfl
theorem A1_upd (c : Dev nD) (G : (b48 : DevRef τ sig).ty.Contents (Elt F)) (w : Fin 7) :
    (rdats m 1 c).A w = Function.update (VB m c) b48 G (Proc.devRef .tc (Pipeline.arrRef spec1 w)) :=
  (A1_eq m c w).trans (Function.update_of_ne (StableHlo.devRef_ne_of_ne (arr1_ne48 w)) G (VB m c)).symm

/-- What bypasses launch 1: the unscoped buffers that are none of its arrays, launch 0's result array among them at
    some contents. -/
abbrev Z1 (c : Dev nD) : sProp 𝕄 :=
  iprop(∃ G : (b48 : DevRef τ sig).ty.Contents (Elt F),
    Pipeline.unscopedRest (Ix := Unit) (Name := ℕ) (U := UR sig nD τ) (Lvl := ℕ) spec1 c (fun b => Function.update (VB m c) b48 G b))

/-- Launch 1's entry: its arrays at their entry contents out of the named buffers (none of them is launch 0's result array). -/
theorem entry1 (c : Dev nD) :
    (iprop(StableHlo.held (c : Thread nD τ) S1 (VB m c) ∗ P48 c) : sProp 𝕄)
      ⊢ iprop((rdats m 1 c).arrays (rdats m 1 c).A ∗ Z1 m c) := by
  iintro ⟨Hh, ⟨%G, H48⟩⟩
  have hsplit := Pipeline.RDat.arrays_of_unscopedBufs (p := 1) (pcfgs (F := F)) adm (rdats m) launch1.win launch1.arr_whole c
      ((pdats m 1 c).share_full fun _ => rfl) (fun b => Function.update (VB m c) b48 G b)
      (A1_upd m c G)
  rw [Pipeline.unscopedBufs_held, held_update (c : Thread nD τ) b48_mem (VB m c) G] at hsplit
  ihave H := hsplit $$ [H48 Hh]
  · isplitl [H48] <;> iassumption
  icases H with ⟨Ha, Hrest⟩
  isplitl [Ha]; · iexact Ha
  iexists G; iexact Hrest

/-- Launch 1's exit: the named buffers but both result arrays, and each result array at some contents. -/
theorem exit1 (c : Dev nD) :
    iprop((rdats m 1 c).arraysAt cfg1.N ∗ Z1 m c)
      ⊢ (iprop(StableHlo.held (c : Thread nD τ) S2 (VB m c) ∗ P48 c ∗ P51 c) : sProp 𝕄) := by
  iintro ⟨Ha, ⟨%G, Hrest⟩⟩
  ihave Ha' := (arraysAt1_elim m c (Function.update (VB m c) b48 G) fun w _ => A1_upd m c G w) $$ Ha
  icases Ha' with ⟨%G', Ha⟩
  have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Function.update (VB m c) b48 G b) (fun b => Function.update (Function.update (VB m c) b48 G) b51 G' b)
      (fun w => Function.update (Function.update (VB m c) b48 G) b51 G' (Pipeline.arrRef spec1 w)) (fun _ => rfl)
      (fun b hb => Function.update_of_ne (StableHlo.devRef_ne_of_ne
        (fun e => hb (by rw [e]; exact Finset.mem_image.mpr ⟨6, Finset.mem_univ _, rfl⟩))) _ _)
  rw [Pipeline.unscopedBufs_held, held_update (c : Thread nD τ) b51_mem (Function.update (VB m c) b48 G) G',
    held_update (c : Thread nD τ) b48_mem' (VB m c) G] at hjoin
  ihave H := hjoin $$ [Ha Hrest]
  · isplitl [Ha] <;> iassumption
  icases H with ⟨H51, H48, Hh⟩
  isplitl [Hh]; · iexact Hh
  isplitl [H48]; · iexists G; iexact H48
  iexists G'; iexact H51

/-! ## The segments -/

/-- The two reshapes touch named buffers only: none is launch 0's result array. -/
theorem hostOps1_S1 : (hostOps1 : List (HloOp τ sig (Elt F))).Forall fun op => op.bufs ⊆ (S1 : Finset (DevRef τ sig)) :=
  ⟨Finset.insert_subset_iff.mpr ⟨mem_S1 main_v31 (by decide) (by decide), Finset.singleton_subset_iff.mpr (mem_S1 main_v49 (by decide) (by decide))⟩,
   Finset.insert_subset_iff.mpr ⟨mem_S1 main_arg5 (by decide) (by decide), Finset.singleton_subset_iff.mpr (mem_S1 main_v50 (by decide) (by decide))⟩⟩

/-- The stretch between the launches: the two reshapes over the named buffers, launch 0's result array (at some
    contents), the generator register and the core's dues riding along. -/
def seg10 : Pipeline.HostSeg (Ix := Unit) (Name := ℕ) (U := UR sig nD τ) (Lvl := ℕ) (pcfgs (F := F)) defs₀ 𝒱₀ L lv :=
  Pipeline.HostSeg.ofOps _ _ _ _ _ S1 hostOps1
    (fun op h => (List.forall_iff_forall_mem.mp hostOps1_S1) op h)
    (fun op h => (List.forall_iff_forall_mem.mp hostOps1_fresh) op h) (VA m) (fun c => iprop(P48 c ∗ R c))

/-- The last thread state without the dues: the named buffers but both result arrays, each result array at some
    contents, the generator register at some state. -/
abbrev Tₙ (c : Dev nD) : sProp 𝕄 :=
  iprop(StableHlo.held (c : Thread nD τ) S2 (VB m c) ∗ P48 c ∗ P51 c ∗ ∃ r, prngReg c r)

-- a library lemma stated over the pinned configuration unifies with the printed one only when unification may unfold
-- plain definitions in a metavariable's type
set_option backward.isDefEq.respectTransparency.types false in
/-- LAUNCH 0 over the thread state. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (vA m) c).toRForget
  hwaits := Pipeline.RDat.hwaits_of_owed_zero _ _ _ _ L lv 0 fun _ _ => rfl
  pre c := iprop(StableHlo.held (c : Thread nD τ) (Pipeline.ucRefs τ sig) (VA m c) ∗ R c)
  post c := iprop(StableHlo.held (c : Thread nD τ) S1 (VA m c) ∗ (P48 c ∗ R c))
  X c := iprop(∃ r, prngReg c r)
  Y c := iprop(∃ r, prngReg c r)
  Z c := Pipeline.unscopedRest (Ix := Unit) (Name := ℕ) (U := UR sig nD τ) (Lvl := ℕ) spec0 c (vA m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (vA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    ihave H := (exit0 m c) $$ [Ha Hrest]
    · isplitl [Ha] <;> iassumption
    icases H with ⟨Hh, H48⟩
    isplitl [Hh]; · iexact Hh
    isplitl [H48]; · iexact H48
    isplitl [HY]; · iexact HY
    unfold Pipeline.RDat.owesAt Pipeline.owesWithin
    icases HO with ⟨%W, -, HO⟩; iexists W; iexact HO

set_option backward.isDefEq.respectTransparency.types false in
/-- LAUNCH 1 over the thread state. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (vB m) c).toRForget
  hwaits := Pipeline.RDat.hwaits_of_owed_zero _ _ _ _ L lv 1 fun _ _ => rfl
  pre c := iprop(StableHlo.held (c : Thread nD τ) S1 (VB m c) ∗ (P48 c ∗ R c))
  post c := iprop(Tₙ m c ∗ ∃ W, owes (c : Thread nD τ) (0 : CellTallies nD τ sig Unit) W)
  X c := iprop(∃ r, prngReg c r)
  Y c := iprop(∃ r, prngReg c r)
  Z c := Z1 m c
  hentry c := by
    rw [Pipeline.ownSems0_none]
    iintro ⟨⟨Hh, H48, Hp, HO⟩, -, -⟩
    ihave H := (entry1 m c) $$ [Hh H48]
    · isplitl [Hh] <;> iassumption
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    ihave H := (exit1 m c) $$ [Ha Hrest]
    · isplitl [Ha] <;> iassumption
    icases H with ⟨Hh, H48, H51⟩
    isplitl [Hh H48 H51 HY]
    · isplitl [Hh]; · iexact Hh
      isplitl [H48]; · iexact H48
      isplitl [H51]; · iexact H51
      iexact HY
    unfold Pipeline.RDat.owesAt Pipeline.owesWithin
    icases HO with ⟨%W, -, HO⟩; iexists W; iexact HO

end Cert.Kernel.BitsFrame

end
-- ==== Proof.KFrame.lean ====
/-
  THE FRAME of the word-level program: from any memory with zero counters every weakly fair execution of @main on the
  TensorCores terminates, nothing faulting, and every final memory holds the eleven argument arrays as launched.

  @main is nine host stretches, launch 0, two reshapes, launch 1.  The thread state between two items is "every unscoped
  buffer whole at named contents" until launch 0's exit, after which launch 0's result array (and from launch 1's exit
  launch 1's) is carried at some contents beside the named rest.  No item writes an argument array: each is among the
  named buffers at the end, at its launch contents.
-/
import proofs.«135838_j85152021611242_1_alg».proof.Proof.KSegs
import proofs.«135838_j85152021611242_1_alg».proof.Defs
import proofs.«135838_j85152021611242_1_alg».proof.Proof.Gen.Pre_finite_inputs
import Idealize.ShloMosaic.Lib.Tactic

noncomputable section

namespace Cert.Kernel.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host stretch writes holds its launch contents when the reshapes between the launches have run. -/
theorem VB_of (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps1_W) : VB m c r = m ((c : Thread nD τ).loc r) :=
  (StableHlo.after_of_writes_sub hostOps1 _ hostOps1_writes h9).trans <| (V9_of m c r h8).trans <| (V8_of m c r h7).trans <|
    (V7_of m c r h6).trans <| (V6_of m c r h5).trans <| (V5_of m c r h4).trans <| (V4_of m c r h3).trans <|
    (V3_of m c r h2).trans <| (V2_of m c r h1).trans <| (V1_of m c r h0).trans rfl

/-- What rides beside the named buffers through the first nine host stretches (the generated segments' rest, the same
    at each of its three indices). -/
abbrev E : Fin 3 → Dev nD → sProp 𝕄 := fun _ => R

/-- @main's twelve items as segments, in order. -/
abbrev segs : List (Pipeline.RDat.Seg (pcfgs (F := F)) adm (rdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .host (seg8 m 𝒱₀ L lv E), .region (reg0 m), .host (seg10 m), .region (reg1 m) ]

-- the launch theorem's implicit arguments are found by unifying its conclusion with this one, which takes unfolding
-- plain definitions in a metavariable's type
set_option backward.isDefEq.respectTransparency.types false in
/-- The frame at any float instance. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (S2 : Finset (DevRef τ sig)), s.mem (((c : Thread nD τ)).1, b) = VB m c b)
    (hfin := fun c s' => by
      iintro ⟨⟨Hh, -⟩, HSI⟩
      unfold StableHlo.held
      imodintro
      iapply (pointsTo_read_all S2 (fun b => (((c : Thread nD τ)).1, b)) (VB m c) s')
      isplitl [Hh] <;> iassumption)
    (hQ := fun s h c =>
      ⟨(h c _ (mem_S2 main_arg0 (by decide) (by decide) (by decide))).trans (VB_of m c main_arg0 (by decide) (by decide) (by decide) (by decide) (by decide) (by decide) (by decide) (by decide) (by decide) (by decide)),
       (h c _ (mem_S2 main_arg1 (by decide) (by decide) (by decide))).trans (VB_of m c main_arg1 (by decide) (by decide) (by decide) (by decide) (by decide) (by decide) (by decide) (by decide) (by decide) (by decide)),
       (h c _ (mem_S2 main_arg2 (by decide) (by decide) (by decide))).trans (VB_of m c main_arg2 (by decide) (by decide) (by decide) (by decide) (by decide) (by decide) (by decide) (by decide) (by decide) (by decide)),
       (h c _ (mem_S2 main_arg3 (by decide) (by decide) (by decide))).trans (VB_of m c main_arg3 (by decide) (by decide) (by decide) (by decide) (by decide) (by decide) (by decide) (by decide) (by decide) (by decide)),
       (h c _ (mem_S2 main_arg4 (by decide) (by decide) (by decide))).trans (VB_of m c main_arg4 (by decide) (by decide) (by decide) (by decide) (by decide) (by decide) (by decide) (by decide) (by decide) (by decide)),
       (h c _ (mem_S2 main_arg5 (by decide) (by decide) (by decide))).trans (VB_of m c main_arg5 (by decide) (by decide) (by decide) (by decide) (by decide) (by decide) (by decide) (by decide) (by decide) (by decide)),
       (h c _ (mem_S2 main_arg6 (by decide) (by decide) (by decide))).trans (VB_of m c main_arg6 (by decide) (by decide) (by decide) (by decide) (by decide) (by decide) (by decide) (by decide) (by decide) (by decide)),
       (h c _ (mem_S2 main_arg7 (by decide) (by decide) (by decide))).trans (VB_of m c main_arg7 (by decide) (by decide) (by decide) (by decide) (by decide) (by decide) (by decide) (by decide) (by decide) (by decide)),
       (h c _ (mem_S2 main_arg8 (by decide) (by decide) (by decide))).trans (VB_of m c main_arg8 (by decide) (by decide) (by decide) (by decide) (by decide) (by decide) (by decide) (by decide) (by decide) (by decide)),
       (h c _ (mem_S2 main_arg9 (by decide) (by decide) (by decide))).trans (VB_of m c main_arg9 (by decide) (by decide) (by decide) (by decide) (by decide) (by decide) (by decide) (by decide) (by decide) (by decide)),
       (h c _ (mem_S2 main_arg10 (by decide) (by decide) (by decide))).trans (VB_of m c main_arg10 (by decide) (by decide) (by decide) (by decide) (by decide) (by decide) (by decide) (by decide) (by decide) (by decide))⟩)

/-- THE FRAME of the word-level program, as the certificate's claim states it. -/
theorem frame : Cert.frame_Kernel (hKernel := Cert.Kernel.Gen.facts) (hPre_finite_inputs := Cert.Pre_finite_inputs.Gen.facts) :=
  fun m g _ => frameF m g

end Cert.Kernel.BitsFrame

end
-- ==== Proof.KIBody.lean ====
/-
  The fused combine body as a Hoare triple, at either launch: on whole staging buffers holding the aggregate block
  `a`, the in-degree column `g`, the self-loop block `x`, the two weight matrices `w`, `ws` and the bias row `b`,
  the body reads all six, leaves them as they were, and overwrites the result buffer (whatever it held) with ONE
  value: the body's arithmetic `(a · rsqrt g) ⬝ w + x ⬝ ws + b` as the program's own pure term of the six loads.
  Stated for any float instance, so that it serves the word-level and the real-number reading alike.
-/
import proofs.«135838_j85152021611242_1_alg».proof.Proof.Gen.KernelIdeal.Skeleton
import proofs.«135838_j85152021611242_1_alg».proof.Proof.Gen.KernelIdeal.Points
import Idealize.ShloMosaic.Lib.Pipeline.FrameBody
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole-buffer rectangle of the result's staging buffer. -/
abbrev rOut : Rect S8192x128 := Rect.unit (s := S8192x128) ![0, 0] S8192x128.size inb_S8192x128_S8192x128_0_0

/-- The whole-buffer rectangles of the other staging buffers. -/
abbrev rDeg : Rect S8192x1 := Rect.unit (s := S8192x1) ![0, 0] S8192x1.size inb_S8192x1_S8192x1_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- What the body of launch 0 leaves in the result buffer: its single whole-buffer store, as a one-piece overlay
    whose payload is the body's arithmetic of the six whole-buffer loads. -/
def out0 (a : Vec F S8192x128 .f32) (g : Vec F S8192x1 .f32) (x : Vec F S8192x128 .f32) (w : Vec F S128x128 .f32)
    (b : Vec F S1x128 .f32) (ws : Vec F S128x128 .f32) : Vec F S8192x128 .f32 :=
  View.canon [⟨rOut, k0_pay1 (View.ld g rDeg) (View.ld a rOut) (View.ld w rMat) (View.ld x rOut) (View.ld ws rMat) (View.ld b rRow)⟩]

/-- The same for launch 1 (the same function text at the other grid). -/
def out1 (a : Vec F S8192x128 .f32) (g : Vec F S8192x1 .f32) (x : Vec F S8192x128 .f32) (w : Vec F S128x128 .f32)
    (b : Vec F S1x128 .f32) (ws : Vec F S128x128 .f32) : Vec F S8192x128 .f32 :=
  View.canon [⟨rOut, k1_pay1 (View.ld g rDeg) (View.ld a rOut) (View.ld w rMat) (View.ld x rOut) (View.ld ws rMat) (View.ld b rRow)⟩]

/-- One whole-buffer piece covers the buffer. -/
theorem coverOut (p0 : Vec F S8192x128 .f32) (y : S8192x128.Idx) :
    ∃ pc ∈ ([⟨rOut, p0⟩] : List (View.Piece (Elt F) S8192x128 .f32)), y ∈ pc.1.set :=
  View.cover_of_tiled [⟨rOut, p0⟩] S8192x128.size (by rfl) y

set_option maxHeartbeats 4000000 in
/-- Launch 0's body: six reads, one dead read of the result buffer, one whole store. -/
theorem sound_kernel0 (c : Dev nD) (E : Set ℕ) (i : grid0.Coords)
    (arg1 : Memref sig .tc .vmem S8192x128 .f32) (harg1 : arg1.IsWhole) (arg2 : Memref sig .tc .vmem S8192x1 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S8192x128 .f32) (harg7 : arg7.IsWhole)
    (a : Vec F S8192x128 .f32) (g : Vec F S8192x1 .f32) (x : Vec F S8192x128 .f32) (w : Vec F S128x128 .f32)
    (b : Vec F S1x128 .f32) (ws : Vec F S128x128 .f32) (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare w ∗ owns (c : Thread nD τ) arg5 fullShare b ∗ owns (c : Thread nD τ) arg6 fullShare ws
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare w ∗ owns (c : Thread nD τ) arg5 fullShare b ∗ owns (c : Thread nD τ) arg6 fullShare ws
            ∗ owns (c : Thread nD τ) arg7 fullShare (out0 a g x w b ws)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

set_option maxHeartbeats 4000000 in
/-- Launch 1's body: six reads, one dead read of the result buffer, one whole store. -/
theorem sound_kernel1 (c : Dev nD) (E : Set ℕ) (i : grid1.Coords)
    (arg1 : Memref sig .tc .vmem S8192x128 .f32) (harg1 : arg1.IsWhole) (arg2 : Memref sig .tc .vmem S8192x1 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S8192x128 .f32) (harg7 : arg7.IsWhole)
    (a : Vec F S8192x128 .f32) (g : Vec F S8192x1 .f32) (x : Vec F S8192x128 .f32) (w : Vec F S128x128 .f32)
    (b : Vec F S1x128 .f32) (ws : Vec F S128x128 .f32) (K : PUnit → sProp 𝕄) :
    iprop(owns (c : Thread nD τ) arg1 fullShare a ∗ owns (c : Thread nD τ) arg2 fullShare g ∗ owns (c : Thread nD τ) arg3 fullShare x
        ∗ owns (c : Thread nD τ) arg4 fullShare w ∗ owns (c : Thread nD τ) arg5 fullShare b ∗ owns (c : Thread nD τ) arg6 fullShare ws
        ∗ (∃ d, owns (c : Thread nD τ) arg7 fullShare d)
        ∗ (iprop(owns (c : Thread nD τ) arg1 fullShare a ∗ owns (c : Thread nD τ) arg2 fullShare g ∗ owns (c : Thread nD τ) arg3 fullShare x
            ∗ owns (c : Thread nD τ) arg4 fullShare w ∗ owns (c : Thread nD τ) arg5 fullShare b ∗ owns (c : Thread nD τ) arg6 fullShare ws
            ∗ owns (c : Thread nD τ) arg7 fullShare (out1 a g x w b ws)) -∗ K ⟨⟩))
      ⊢ wp frame (wpE (defs₀ (F := F)) Variants.none c none) E
          (cc1__fused_kernel i arg1 harg1 arg2 harg2 arg3 harg3 arg4 harg4 arg5 harg5 arg6 harg6 arg7 harg7) K := by
  simp only [cc1__fused_kernel_eq_skeleton]; unfold cc1__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

end Cert.KernelIdeal.Body

end
-- ==== Proof.KIDat.lean ====
/-
  The proof data of the two launches, read at any float instance: which block of which array each staging buffer
  holds when the body runs, what the body leaves there, and the body's obligation at every grid point. The row-blocked
  windows are clipped at the array's end: their last block holds unnamed words past the last row, the obligation speaks
  of the rows inside the array only, and the ONE arithmetic fact it needs — an output row depends on its own input
  rows only — is taken as a hypothesis here (it holds over the reals, where the matrix product is a plain sum).
-/
import proofs.«135838_j85152021611242_1_alg».proof.Proof.KIBody
import proofs.«135838_j85152021611242_1_alg».proof.Proof.Gen.KernelIdeal.Launch
import Idealize.ShloMosaic.Lib.Pipeline.Frame
import Idealize.ShloMosaic.Lib.Pipeline.FrameBody

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero word, the filler past an array's end. -/
abbrev z32 : Elt F .f32 := Scalar.ofBits .f32 0#32

-- the buffers' contents when a launch is entered: the parameter both launches' data are stated at
variable (V : (c : Dev nD) → (b : Ref sig .tc) → Buf (Elt F) ((c : Thread nD τ).loc b))

/-! # Launch 0: the blocks, the proof data, the body obligation -/

/-- Window `w`'s block at point `t`, the part inside the array, read off the array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three row-blocked inputs' blocks filled out to the full 8192 rows: past the array's end the zero word, which
    nothing below reads (an output row depends on its own input row only). -/
def ablk0 (c : Dev nD) (t : Fin cfg0.N) : Vec F S8192x128 .f32 := win0_0.fill (grid0.coords t) (fun _ => z32) (iblk0 V c 0 t)
def gblk0 (c : Dev nD) (t : Fin cfg0.N) : Vec F S8192x1 .f32 := win0_1.fill (grid0.coords t) (fun _ => z32) (iblk0 V c 1 t)
def xblk0 (c : Dev nD) (t : Fin cfg0.N) : Vec F S8192x128 .f32 := win0_2.fill (grid0.coords t) (fun _ => z32) (iblk0 V c 2 t)
/-- The weight matrices and the bias row: whole arrays, one block each. -/
def wblk0 (c : Dev nD) (t : Fin cfg0.N) : Vec F S128x128 .f32 := iblk0 V c 3 t
def bblk0 (c : Dev nD) (t : Fin cfg0.N) : Vec F S1x128 .f32 := iblk0 V c 4 t
def sblk0 (c : Dev nD) (t : Fin cfg0.N) : Vec F S128x128 .f32 := iblk0 V c 5 t
/-- The result block the body computes from those. -/
def oblk0 (c : Dev nD) (t : Fin cfg0.N) : Vec F S8192x128 .f32 :=
  out0 (ablk0 V c t) (gblk0 V c t) (xblk0 V c t) (wblk0 V c t) (bblk0 V c t) (sblk0 V c t)

/-- The proof data of launch 0 on core `c`: the arrays as the launch finds them; after the body each input buffer at
    its (filled-out) block, the result's at the computed block; the class invariant; nothing owed; full shares. -/
def dat0 (c : Dev nD) : Dat τ (Elt F) Unit ℕ (UR sig nD τ) ℕ cfg0 c where
  A w := V c (Pipeline.arrRef spec0 w)
  after w t := match w with
    | ⟨0, _⟩ => ablk0 V c t
    | ⟨1, _⟩ => gblk0 V c t
    | ⟨2, _⟩ => xblk0 V c t
    | ⟨3, _⟩ => wblk0 V c t
    | ⟨4, _⟩ => bblk0 V c t
    | ⟨5, _⟩ => sblk0 V c t
    | ⟨6, _⟩ => oblk0 V c t
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = ablk0 V c t := by dsimp only [dat0]
theorem after0_1 (c : Dev nD) (t : Fin cfg0.N) : (dat0 V c).after 1 t = gblk0 V c t := by dsimp only [dat0]
theorem after0_2 (c : Dev nD) (t : Fin cfg0.N) : (dat0 V c).after 2 t = xblk0 V c t := by dsimp only [dat0]
theorem after0_3 (c : Dev nD) (t : Fin cfg0.N) : (dat0 V c).after 3 t = wblk0 V c t := by dsimp only [dat0]
theorem after0_4 (c : Dev nD) (t : Fin cfg0.N) : (dat0 V c).after 4 t = bblk0 V c t := by dsimp only [dat0]
theorem after0_5 (c : Dev nD) (t : Fin cfg0.N) : (dat0 V c).after 5 t = sblk0 V c t := by dsimp only [dat0]
theorem after0_6 (c : Dev nD) (t : Fin cfg0.N) : (dat0 V c).after 6 t = oblk0 V c t := by dsimp only [dat0]

/-- The row-blocked inputs are fetched at every point: the buffer holds the block on the rows inside the array and
    whatever it held (`d`) past the array's end. -/
theorem before0_0 (c : Dev nD) (t : Fin cfg0.N) (d) :
    (dat0 V c).before 0 t d = win0_0.fill (grid0.coords t) d (iblk0 V c 0 t) := by
  rw [(dat0 V c).before_fetched 0 t (fetch0_0 t) d]; rfl
theorem before0_1 (c : Dev nD) (t : Fin cfg0.N) (d) :
    (dat0 V c).before 1 t d = win0_1.fill (grid0.coords t) d (iblk0 V c 1 t) := by
  rw [(dat0 V c).before_fetched 1 t (fetch0_1 t) d]; rfl
theorem before0_2 (c : Dev nD) (t : Fin cfg0.N) (d) :
    (dat0 V c).before 2 t d = win0_2.fill (grid0.coords t) d (iblk0 V c 2 t) := by
  rw [(dat0 V c).before_fetched 2 t (fetch0_2 t) d]; rfl
/-- The whole-array inputs are fetched once; at every later point the buffer still holds the array (the body only
    reads it, and the block index never moves). -/
theorem before0_3 (c : Dev nD) (t : Fin cfg0.N) (d) : (dat0 V c).before 3 t d = wblk0 V c t :=
  ((dat0 V c).before_in_eq_fetched 3 rfl (fun _ => rfl) (fun _ _ _ => rfl) (fun t => by rw [after0_3]; unfold Dat.blockOf wblk0 iblk0; rw [A_eq0]; try rfl) t d).trans
    (by unfold Dat.fetched Dat.blockOf wblk0 iblk0; rw [A_eq0]; try rfl)
theorem before0_4 (c : Dev nD) (t : Fin cfg0.N) (d) : (dat0 V c).before 4 t d = bblk0 V c t :=
  ((dat0 V c).before_in_eq_fetched 4 rfl (fun _ => rfl) (fun _ _ _ => rfl) (fun t => by rw [after0_4]; unfold Dat.blockOf bblk0 iblk0; rw [A_eq0]; try rfl) t d).trans
    (by unfold Dat.fetched Dat.blockOf bblk0 iblk0; rw [A_eq0]; try rfl)
theorem before0_5 (c : Dev nD) (t : Fin cfg0.N) (d) : (dat0 V c).before 5 t d = sblk0 V c t :=
  ((dat0 V c).before_in_eq_fetched 5 rfl (fun _ => rfl) (fun _ _ _ => rfl) (fun t => by rw [after0_5]; unfold Dat.blockOf sblk0 iblk0; rw [A_eq0]; try rfl) t d).trans
    (by unfold Dat.fetched Dat.blockOf sblk0 iblk0; rw [A_eq0]; try rfl)

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the clipped windows' buffers stated on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t))))
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (∃ d, owns (c : Thread nD τ) (st0_6 t) fullShare (win0_6.fill (grid0.coords t) d (win0_6.cut (grid0.coords t) ((dat0 V c).after 6 t)))))

/-- ROW LOCALITY, as the one fact the obligation needs of the arithmetic: on the rows inside the array the result block
    computed from input blocks filled out with ANY words agrees with the one computed from the zero-filled blocks. -/
def Local0 (c : Dev nD) : Prop :=
  ∀ (t : Fin cfg0.N) (d0 : S8192x128.Idx → Elt F .f32) (d1 : S8192x1.Idx → Elt F .f32) (d2 : S8192x128.Idx → Elt F .f32),
    win0_6.cut (grid0.coords t)
        (out0 (win0_0.fill (grid0.coords t) d0 (iblk0 V c 0 t)) (win0_1.fill (grid0.coords t) d1 (iblk0 V c 1 t))
          (win0_2.fill (grid0.coords t) d2 (iblk0 V c 2 t)) (wblk0 V c t) (bblk0 V c t) (sblk0 V c t))
      = win0_6.cut (grid0.coords t) (oblk0 V c t)

/-- The body at any point. -/
theorem sound_body0 (c : Dev nD) (hloc : Local0 V c) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (win0_0.fill (grid0.coords t) d0 (iblk0 V c 0 t)) (win0_1.fill (grid0.coords t) d1 (iblk0 V c 1 t))
    (win0_2.fill (grid0.coords t) d2 (iblk0 V c 2 t)) (wblk0 V c t) (bblk0 V c t) (sblk0 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; unfold ablk0; rw [win0_0.cut_fill]; iexact H0
  isplitl [H1]
  · iexists d1; unfold gblk0; rw [win0_1.cut_fill]; iexact H1
  isplitl [H2]
  · iexists d2; unfold xblk0; rw [win0_2.cut_fill]; iexact H2
  isplitl [H3]; · iexact H3
  isplitl [H4]; · iexact H4
  isplitl [H5]; · iexact H5
  iexists _
  rw [← hloc t d0 d1 d2, win0_6.fill_cut]
  iexact H6

/-- The library's body obligation, at every point. -/
theorem body_obligation0 (c : Dev nD) (hloc : Local0 V c) :
    BodyObligationLoose (dat0 (F := F) V c) (defs₀ (F := F)) Variants.none () Set.univ := fun t => by
  rw [bigSep_W0, bigSep_W0]
  exact sound_body0 V c hloc t

/-! # Launch 1: the blocks, the proof data, the body obligation -/

/-- Window `w`'s block at point `t`, the part inside the array, read off the array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three row-blocked inputs' blocks filled out to the full 8192 rows: past the array's end the zero word, which
    nothing below reads (an output row depends on its own input row only). -/
def ablk1 (c : Dev nD) (t : Fin cfg1.N) : Vec F S8192x128 .f32 := win1_0.fill (grid1.coords t) (fun _ => z32) (iblk1 V c 0 t)
def gblk1 (c : Dev nD) (t : Fin cfg1.N) : Vec F S8192x1 .f32 := win1_1.fill (grid1.coords t) (fun _ => z32) (iblk1 V c 1 t)
def xblk1 (c : Dev nD) (t : Fin cfg1.N) : Vec F S8192x128 .f32 := win1_2.fill (grid1.coords t) (fun _ => z32) (iblk1 V c 2 t)
/-- The weight matrices and the bias row: whole arrays, one block each. -/
def wblk1 (c : Dev nD) (t : Fin cfg1.N) : Vec F S128x128 .f32 := iblk1 V c 3 t
def bblk1 (c : Dev nD) (t : Fin cfg1.N) : Vec F S1x128 .f32 := iblk1 V c 4 t
def sblk1 (c : Dev nD) (t : Fin cfg1.N) : Vec F S128x128 .f32 := iblk1 V c 5 t
/-- The result block the body computes from those. -/
def oblk1 (c : Dev nD) (t : Fin cfg1.N) : Vec F S8192x128 .f32 :=
  out1 (ablk1 V c t) (gblk1 V c t) (xblk1 V c t) (wblk1 V c t) (bblk1 V c t) (sblk1 V c t)

/-- The proof data of launch 1 on core `c`: the arrays as the launch finds them; after the body each input buffer at
    its (filled-out) block, the result's at the computed block; the class invariant; nothing owed; full shares. -/
def dat1 (c : Dev nD) : Dat τ (Elt F) Unit ℕ (UR sig nD τ) ℕ cfg1 c where
  A w := V c (Pipeline.arrRef spec1 w)
  after w t := match w with
    | ⟨0, _⟩ => ablk1 V c t
    | ⟨1, _⟩ => gblk1 V c t
    | ⟨2, _⟩ => xblk1 V c t
    | ⟨3, _⟩ => wblk1 V c t
    | ⟨4, _⟩ => bblk1 V c t
    | ⟨5, _⟩ => sblk1 V c t
    | ⟨6, _⟩ => oblk1 V c t
  Φ _ := Pipeline.ΦA spec1 c
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = ablk1 V c t := by dsimp only [dat1]
theorem after1_1 (c : Dev nD) (t : Fin cfg1.N) : (dat1 V c).after 1 t = gblk1 V c t := by dsimp only [dat1]
theorem after1_2 (c : Dev nD) (t : Fin cfg1.N) : (dat1 V c).after 2 t = xblk1 V c t := by dsimp only [dat1]
theorem after1_3 (c : Dev nD) (t : Fin cfg1.N) : (dat1 V c).after 3 t = wblk1 V c t := by dsimp only [dat1]
theorem after1_4 (c : Dev nD) (t : Fin cfg1.N) : (dat1 V c).after 4 t = bblk1 V c t := by dsimp only [dat1]
theorem after1_5 (c : Dev nD) (t : Fin cfg1.N) : (dat1 V c).after 5 t = sblk1 V c t := by dsimp only [dat1]
theorem after1_6 (c : Dev nD) (t : Fin cfg1.N) : (dat1 V c).after 6 t = oblk1 V c t := by dsimp only [dat1]

/-- The row-blocked inputs are fetched at every point: the buffer holds the block on the rows inside the array and
    whatever it held (`d`) past the array's end. -/
theorem before1_0 (c : Dev nD) (t : Fin cfg1.N) (d) :
    (dat1 V c).before 0 t d = win1_0.fill (grid1.coords t) d (iblk1 V c 0 t) := by
  rw [(dat1 V c).before_fetched 0 t (fetch1_0 t) d]; rfl
theorem before1_1 (c : Dev nD) (t : Fin cfg1.N) (d) :
    (dat1 V c).before 1 t d = win1_1.fill (grid1.coords t) d (iblk1 V c 1 t) := by
  rw [(dat1 V c).before_fetched 1 t (fetch1_1 t) d]; rfl
theorem before1_2 (c : Dev nD) (t : Fin cfg1.N) (d) :
    (dat1 V c).before 2 t d = win1_2.fill (grid1.coords t) d (iblk1 V c 2 t) := by
  rw [(dat1 V c).before_fetched 2 t (fetch1_2 t) d]; rfl
/-- The whole-array inputs are fetched once; at every later point the buffer still holds the array (the body only
    reads it, and the block index never moves). -/
theorem before1_3 (c : Dev nD) (t : Fin cfg1.N) (d) : (dat1 V c).before 3 t d = wblk1 V c t :=
  ((dat1 V c).before_in_eq_fetched 3 rfl (fun _ => rfl) (fun _ _ _ => rfl) (fun t => by rw [after1_3]; unfold Dat.blockOf wblk1 iblk1; rw [A_eq1]; try rfl) t d).trans
    (by unfold Dat.fetched Dat.blockOf wblk1 iblk1; rw [A_eq1]; try rfl)
theorem before1_4 (c : Dev nD) (t : Fin cfg1.N) (d) : (dat1 V c).before 4 t d = bblk1 V c t :=
  ((dat1 V c).before_in_eq_fetched 4 rfl (fun _ => rfl) (fun _ _ _ => rfl) (fun t => by rw [after1_4]; unfold Dat.blockOf bblk1 iblk1; rw [A_eq1]; try rfl) t d).trans
    (by unfold Dat.fetched Dat.blockOf bblk1 iblk1; rw [A_eq1]; try rfl)
theorem before1_5 (c : Dev nD) (t : Fin cfg1.N) (d) : (dat1 V c).before 5 t d = sblk1 V c t :=
  ((dat1 V c).before_in_eq_fetched 5 rfl (fun _ => rfl) (fun _ _ _ => rfl) (fun t => by rw [after1_5]; unfold Dat.blockOf sblk1 iblk1; rw [A_eq1]; try rfl) t d).trans
    (by unfold Dat.fetched Dat.blockOf sblk1 iblk1; rw [A_eq1]; try rfl)

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the clipped windows' buffers stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (∃ d, owns (c : Thread nD τ) (st1_6 t) fullShare (win1_6.fill (grid1.coords t) d (win1_6.cut (grid1.coords t) ((dat1 V c).after 6 t)))))

/-- ROW LOCALITY, as the one fact the obligation needs of the arithmetic: on the rows inside the array the result block
    computed from input blocks filled out with ANY words agrees with the one computed from the zero-filled blocks. -/
def Local1 (c : Dev nD) : Prop :=
  ∀ (t : Fin cfg1.N) (d0 : S8192x128.Idx → Elt F .f32) (d1 : S8192x1.Idx → Elt F .f32) (d2 : S8192x128.Idx → Elt F .f32),
    win1_6.cut (grid1.coords t)
        (out1 (win1_0.fill (grid1.coords t) d0 (iblk1 V c 0 t)) (win1_1.fill (grid1.coords t) d1 (iblk1 V c 1 t))
          (win1_2.fill (grid1.coords t) d2 (iblk1 V c 2 t)) (wblk1 V c t) (bblk1 V c t) (sblk1 V c t))
      = win1_6.cut (grid1.coords t) (oblk1 V c t)

/-- The body at any point. -/
theorem sound_body1 (c : Dev nD) (hloc : Local1 V c) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (wblk1 V c t) (bblk1 V c t) (sblk1 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; unfold ablk1; rw [win1_0.cut_fill]; iexact H0
  isplitl [H1]
  · iexists d1; unfold gblk1; rw [win1_1.cut_fill]; iexact H1
  isplitl [H2]
  · iexists d2; unfold xblk1; rw [win1_2.cut_fill]; iexact H2
  isplitl [H3]; · iexact H3
  isplitl [H4]; · iexact H4
  isplitl [H5]; · iexact H5
  iexists _
  rw [← hloc t d0 d1 d2, win1_6.fill_cut]
  iexact H6

/-- The library's body obligation, at every point. -/
theorem body_obligation1 (c : Dev nD) (hloc : Local1 V c) :
    BodyObligationLoose (dat1 (F := F) V c) (defs₀ (F := F)) Variants.none () Set.univ := fun t => by
  rw [bigSep_W1, bigSep_W1]
  exact sound_body1 V c hloc t

end Cert.KernelIdeal.Data

end
-- ==== Proof.KIRun.lean ====
/-
  The idealized kernel's run, at any float instance for which an output row depends on its own input rows only
  (`hloc0`, `hloc1`): @main as twelve segments — nine host stretches, the first launch, one host stretch, the second
  launch — under the regions launch theorem, and what the final memory holds: each result array at what its launch's
  write-backs leave, every argument as it was launched.
-/
import proofs.«135838_j85152021611242_1_alg».proof.Proof.KIDat
import proofs.«135838_j85152021611242_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Body Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents at the launches' boundaries -/

/-- The first launch's entry contents (after the nine host stretches), read at the core's references. -/
abbrev E0 : (c : Dev nD) → (b : Ref sig .tc) → Buf (Elt F) ((c : Thread nD τ).loc b) := fun c b => V9 m c b
/-- At the first launch's exit: its arrays at what the pipeline leaves, every other buffer as entered. -/
def W10 (c : Dev nD) : Valuation τ sig (Elt F) :=
  Pipeline.withArrays spec0 c (V9 m c) fun w => (dat0 (E0 m) c).arrAt w cfg0.N
theorem W10_arr (c : Dev nD) (w : Fin cfg0.W) :
    W10 m c (Proc.devRef .tc (Pipeline.arrRef spec0 w)) = (dat0 (E0 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = V9 m c (Proc.devRef .tc b) := by
  unfold W10; exact Pipeline.withArrays_of_ne spec0 c _ _ b hb
abbrev X10 : (c : Dev nD) → (b : Ref sig .tc) → Buf (Elt F) ((c : Thread nD τ).loc b) := fun c b => W10 m c b
theorem hF0 (c : Dev nD) (w : Fin cfg0.W) : (dat0 (E0 m) c).arrAt w cfg0.N = X10 m c (Pipeline.arrRef spec0 w) :=
  (W10_arr m c w).symm
theorem hrest0 (c : Dev nD) : ∀ b, b ∉ Finset.univ.image (Pipeline.arrRef spec0) → X10 m c b = E0 m c b :=
  fun b hb => W10_of_ne m c b fun w e => hb (Finset.mem_image.mpr ⟨w, Finset.mem_univ _, e⟩)

/-- After the two reshapes (the second launch's entry). -/
abbrev W11 : Dev nD → Valuation τ sig (Elt F) := fun c => StableHlo.after hostOps1 (W10 m c)
abbrev E1 : (c : Dev nD) → (b : Ref sig .tc) → Buf (Elt F) ((c : Thread nD τ).loc b) := fun c b => W11 m c b
/-- At the second launch's exit. -/
def W12 (c : Dev nD) : Valuation τ sig (Elt F) :=
  Pipeline.withArrays spec1 c (W11 m c) fun w => (dat1 (E1 m) c).arrAt w cfg1.N
theorem W12_arr (c : Dev nD) (w : Fin cfg1.W) :
    W12 m c (Proc.devRef .tc (Pipeline.arrRef spec1 w)) = (dat1 (E1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev X12 : (c : Dev nD) → (b : Ref sig .tc) → Buf (Elt F) ((c : Thread nD τ).loc b) := fun c b => W12 m c b
theorem hF1 (c : Dev nD) (w : Fin cfg1.W) : (dat1 (E1 m) c).arrAt w cfg1.N = X12 m c (Pipeline.arrRef spec1 w) :=
  (W12_arr m c w).symm
theorem hrest1 (c : Dev nD) : ∀ b, b ∉ Finset.univ.image (Pipeline.arrRef spec1) → X12 m c b = E1 m c b :=
  fun b hb => W12_of_ne m c b fun w e => hb (Finset.mem_image.mpr ⟨w, Finset.mem_univ _, e⟩)

/-! ## A buffer no launch writes back and no host operation writes keeps its launch contents -/

/-- A launch leaves every buffer but its result array as it found it: an input window's array is never written. -/
theorem W10_keep (c : Dev nD) (b : Ref sig .tc) (hb : b ≠ main_v48) : W10 m c (Proc.devRef .tc b) = V9 m c (Proc.devRef .tc b) := by
  by_cases h : ∃ w, Pipeline.arrRef spec0 w = b
  · obtain ⟨w, rfl⟩ := h
    rw [W10_arr]
    have hin : (cfg0.win w).isOut = false := by
      match w with
      | ⟨0, _⟩ => rfl | ⟨1, _⟩ => rfl | ⟨2, _⟩ => rfl | ⟨3, _⟩ => rfl | ⟨4, _⟩ => rfl | ⟨5, _⟩ => rfl
      | ⟨6, _⟩ => exact absurd rfl hb
    exact ((dat0 (E0 m) c).arrAt_in w hin _).trans (A_eq0 (E0 m) c w)
  · exact W10_of_ne m c b fun w e => h ⟨w, e⟩
theorem W12_keep (c : Dev nD) (b : Ref sig .tc) (hb : b ≠ main_v51) : W12 m c (Proc.devRef .tc b) = W11 m c (Proc.devRef .tc b) := by
  by_cases h : ∃ w, Pipeline.arrRef spec1 w = b
  · obtain ⟨w, rfl⟩ := h
    rw [W12_arr]
    have hin : (cfg1.win w).isOut = false := by
      match w with
      | ⟨0, _⟩ => rfl | ⟨1, _⟩ => rfl | ⟨2, _⟩ => rfl | ⟨3, _⟩ => rfl | ⟨4, _⟩ => rfl | ⟨5, _⟩ => rfl
      | ⟨6, _⟩ => exact absurd rfl hb
    exact ((dat1 (E1 m) c).arrAt_in w hin _).trans (A_eq1 (E1 m) c w)
  · exact W12_of_ne m c b fun w e => h ⟨w, e⟩
/-- The two reshapes write `main_v49` and `main_v50` only. -/
theorem W11_keep (c : Dev nD) (r : Ref sig .tc) (h : r ∉ hostOps1_W) : W11 m c r = W10 m c r :=
  StableHlo.after_of_writes_sub hostOps1 _ hostOps1_writes h
/-- Through the nine host stretches. -/
theorem V9_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) :
    V9 m c r = m ((c : Thread nD τ).loc r) :=
  (V9_of m c r h8).trans <| (V8_of m c r h7).trans <| (V7_of m c r h6).trans <| (V6_of m c r h5).trans <| (V5_of m c r h4).trans <|
    (V4_of m c r h3).trans <| (V3_of m c r h2).trans <| (V2_of m c r h1).trans <| (V1_of m c r h0).trans rfl
/-- Through everything: a reference that is neither result array and that no host operation writes. -/
theorem W12_host (c : Dev nD) (r : Ref sig .tc) (h48 : r ≠ main_v48) (h51 : r ≠ main_v51) (hh : r ∉ hostOps1_W)
    (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) :
    W12 m c r = m ((c : Thread nD τ).loc r) :=
  (W12_keep m c r h51).trans <| (W11_keep m c r hh).trans <| (W10_keep m c r h48).trans (V9_keep m c r h0 h1 h2 h3 h4 h5 h6 h7 h8)
/-- The first result array is not touched after its launch. -/
theorem W12_main_v48 (c : Dev nD) : W12 m c main_v48 = (dat0 (E0 m) c).arrAt 6 cfg0.N :=
  (W12_keep m c main_v48 (by decide)).trans <| (W11_keep m c main_v48 (by decide)).trans (W10_arr m c 6)
theorem W12_main_v51 (c : Dev nD) : W12 m c main_v51 = (dat1 (E1 m) c).arrAt 6 cfg1.N := W12_arr m c 6

/-! ## The proof data family and the thread state -/

/-- Both launches' proof data, each at its entry contents: a literal match on the launch's number. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev Rs : Fin 3 → Dev nD → sProp 𝕄 := fun _ => R
/-- The two reshapes as a segment, from the first launch's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W10 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W12 m c) ∗ ∃ r, prngReg c r)

-- the one arithmetic fact the launches' body obligations take (Data.Local0 / Local1), at the entry contents
variable (hloc0 : ∀ c, Local0 (E0 m) c) (hloc1 : ∀ c, Local1 (E1 m) c)

/-! ## The launches as segments -/

-- a library lemma stated over `pin pcs a p` unifies with the pinned configuration only when unification may unfold plain
-- definitions in a metavariable's type
set_option backward.isDefEq.respectTransparency.types false in
/-- LAUNCH 0 over the thread state: entered with every unscoped buffer at `V9`, left with them at `W10`. Its arrays
    are split out of the buffers and put back at what the write-backs leave; the generator register goes into the class
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E0 m) c (hloc0 c)
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- LAUNCH 1 over the thread state: entered with every unscoped buffer at `W11`, left with them at `W12`. Its arrays
    are split out of the buffers and put back at what the write-backs leave; the generator register goes into the class
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E1 m) c (hloc1 c)
  hwaits := Pipeline.hwaits_of_owed_zero _ _ _ _ L lv 1 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X12 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m) () defs₀ 𝒱₀ L lv) :=
  [ .host (seg0 m 𝒱₀ L lv Rs), .host (seg1 m 𝒱₀ L lv Rs), .host (seg2 m 𝒱₀ L lv Rs), .host (seg3 m 𝒱₀ L lv Rs),
    .host (seg4 m 𝒱₀ L lv Rs), .host (seg5 m 𝒱₀ L lv Rs), .host (seg6 m 𝒱₀ L lv Rs), .host (seg7 m 𝒱₀ L lv Rs),
    .host (seg8 m 𝒱₀ L lv Rs), .region (reg0 m hloc0), .host (hseg1 m), .region (reg1 m hloc1) ]

variable (ρ : Dev nD → PrngReg)

-- the launch theorem's implicit arguments are found by unifying its conclusion with this one, which takes unfolding plain
-- definitions in a metavariable's type
include hloc0 hloc1 in
set_option backward.isDefEq.respectTransparency.types false in
/-- THE RUN: from any memory with zero counters every weakly fair execution of @main terminates, nothing faulting, and
    the final memory holds each result array at what its launch's write-backs leave and each argument as launched. -/
theorem run : θ_run defs (onTc (τ := τ) (main (F := F))) ⟨m, fun _ => 0, ρ⟩ (fun r => ∀ c : Dev nD,
      r.2.mem ((c.tc : Thread nD τ).loc main_v48) = (dat0 (E0 m) c).arrAt 6 cfg0.N
      ∧ r.2.mem ((c.tc : Thread nD τ).loc main_v51) = (dat1 (E1 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m) () cellOf_inj emb₁ defs₀ 𝒱₀ L lv m ρ main (segs m hloc0 hloc1)
    (fun c Q => by
      rewrite [main_chain c, Pipeline.Seg.run_eq_chain,
        show (segs m hloc0 hloc1).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c =>
      ⟨(h c _ (mem_uc main_v48 (by decide))).trans (W12_main_v48 m c),
       (h c _ (mem_uc main_v51 (by decide))).trans (W12_main_v51 m c),
       (h c _ (mem_uc main_arg0 (by decide))).trans (W12_host m c main_arg0 (by decide) (by decide) (by decide) (by decide) (by decide) (by decide) (by decide) (by decide) (by decide) (by decide) (by decide) (by decide)),
       (h c _ (mem_uc main_arg1 (by decide))).trans (W12_host m c main_arg1 (by decide) (by decide) (by decide) (by decide) (by decide) (by decide) (by decide) (by decide) (by decide) (by decide) (by decide) (by decide)),
       (h c _ (mem_uc main_arg2 (by decide))).trans (W12_host m c main_arg2 (by decide) (by decide) (by decide) (by decide) (by decide) (by decide) (by decide) (by decide) (by decide) (by decide) (by decide) (by decide)),
       (h c _ (mem_uc main_arg3 (by decide))).trans (W12_host m c main_arg3 (by decide) (by decide) (by decide) (by decide) (by decide) (by decide) (by decide) (by decide) (by decide) (by decide) (by decide) (by decide)),
       (h c _ (mem_uc main_arg4 (by decide))).trans (W12_host m c main_arg4 (by decide) (by decide) (by decide) (by decide) (by decide) (by decide) (by decide) (by decide) (by decide) (by decide) (by decide) (by decide)),
       (h c _ (mem_uc main_arg5 (by decide))).trans (W12_host m c main_arg5 (by decide) (by decide) (by decide) (by decide) (by decide) (by decide) (by decide) (by decide) (by decide) (by decide) (by decide) (by decide)),
       (h c _ (mem_uc main_arg6 (by decide))).trans (W12_host m c main_arg6 (by decide) (by decide) (by decide) (by decide) (by decide) (by decide) (by decide) (by decide) (by decide) (by decide) (by decide) (by decide)),
       (h c _ (mem_uc main_arg7 (by decide))).trans (W12_host m c main_arg7 (by decide) (by decide) (by decide) (by decide) (by decide) (by decide) (by decide) (by decide) (by decide) (by decide) (by decide) (by decide)),
       (h c _ (mem_uc main_arg8 (by decide))).trans (W12_host m c main_arg8 (by decide) (by decide) (by decide) (by decide) (by decide) (by decide) (by decide) (by decide) (by decide) (by decide) (by decide) (by decide)),
       (h c _ (mem_uc main_arg9 (by decide))).trans (W12_host m c main_arg9 (by decide) (by decide) (by decide) (by decide) (by decide) (by decide) (by decide) (by decide) (by decide) (by decide) (by decide) (by decide)),
       (h c _ (mem_uc main_arg10 (by decide))).trans (W12_host m c main_arg10 (by decide) (by decide) (by decide) (by decide) (by decide) (by decide) (by decide) (by decide) (by decide) (by decide) (by decide) (by decide))⟩)

end Cert.KernelIdeal.Run

end
-- ==== Proof.Spec.lean ====
/-
  The mathematics of one relation's fused combine, over the extended reals, with no program in sight.
  For a node `r` and an output feature `j`:
      out r j = Σₖ (agg r k · rsqrt (deg r)) · W k j  +  Σₖ x r k · Ws k j  +  b j.
  An entry depends on row `r` of the aggregate, of the degree column and of the self-loop input, and on nothing of
  any other row: this is what lets a block whose trailing rows hold unnamed words still be right on its named rows.
-/
import Idealize.ShloMosaic.PureOps.Ideal
import Idealize.ShloMosaic.Lib.ValueIdx

noncomputable section

namespace Cert.Spec

open Idealize.ShloMosaic

/-- One output entry from one row of the three per-node operands, the two weight matrices and the bias. -/
def rowOut (a : Fin 128 → EReal) (g : EReal) (x : Fin 128 → EReal) (w ws : Fin 128 → Fin 128 → EReal)
    (b : Fin 128 → EReal) (j : Fin 128) : EReal :=
  (∑ k : Fin 128, (a k * Ideal.rsqrt g) * w k j) + (∑ k : Fin 128, x k * ws k j) + b j

/-- The same entry with the bias added before the self-loop term, as a reference that adds the self-loop last
    computes it: addition of extended reals is commutative and associative, so the two agree (no finiteness needed). -/
theorem rowOut_bias_first (a : Fin 128 → EReal) (g : EReal) (x : Fin 128 → EReal) (w ws : Fin 128 → Fin 128 → EReal)
    (b : Fin 128 → EReal) (j : Fin 128) :
    ((∑ k : Fin 128, (a k * Ideal.rsqrt g) * w k j) + b j) + (∑ k : Fin 128, x k * ws k j) = rowOut a g x w ws b j := by
  unfold rowOut; exact add_right_comm _ _ _

/-- An index of an `n × 128` array from a row and a column. -/
abbrev at2 {n m : Nat} (r : Fin n) (j : Fin m) : (⟨2, ![n, m]⟩ : Shape).Idx := ValueIdx.ix2 r j

/-- A whole relation: every entry of the `n × 128` result from the `n × 128` aggregate, the `n × 1` degree column,
    the `n × 128` self-loop input, the two `128 × 128` matrices and the `1 × 128` bias row. -/
def combine (n : Nat) (agg : (⟨2, ![n, 128]⟩ : Shape).Idx → EReal) (deg : (⟨2, ![n, 1]⟩ : Shape).Idx → EReal)
    (x : (⟨2, ![n, 128]⟩ : Shape).Idx → EReal) (w : (⟨2, ![128, 128]⟩ : Shape).Idx → EReal)
    (b : (⟨2, ![1, 128]⟩ : Shape).Idx → EReal) (ws : (⟨2, ![128, 128]⟩ : Shape).Idx → EReal) :
    (⟨2, ![n, 128]⟩ : Shape).Idx → EReal :=
  fun i =>
    let r : Fin n := ⟨(i 0).val, (i 0).isLt⟩
    let j : Fin 128 := ⟨(i 1).val, (i 1).isLt⟩
    rowOut (fun k => agg (at2 r k)) (deg (at2 r (0 : Fin 1))) (fun k => x (at2 r k)) (fun k c => w (at2 k c))
      (fun k c => ws (at2 k c)) (fun c => b (at2 (0 : Fin 1) c)) j

theorem combine_apply (n : Nat) (agg deg x w b ws) (r : Fin n) (j : Fin 128) :
    combine n agg deg x w b ws (at2 r j)
      = rowOut (fun k => agg (at2 r k)) (deg (at2 r (0 : Fin 1))) (fun k => x (at2 r k)) (fun k c => w (at2 k c))
          (fun k c => ws (at2 k c)) (fun c => b (at2 (0 : Fin 1) c)) j := rfl

end Cert.Spec

end
-- ==== Proof.KIPay.lean ====
/-
  The arithmetic of the fused combine body at the extended reals, entry by entry.
  The body's one stored value is  (a · rsqrt g) ⬝ w + x ⬝ ws + b  with the degree column g broadcast along the
  features and the bias row b broadcast along the nodes. Read at the entry (p, q) this is
      Σₖ (a p k · rsqrt (g p)) · w k q  +  Σₖ x p k · ws k q  +  b q,
  the specification's entry: the two products into a zero accumulator are plain sums over the one contracted axis,
  the column broadcast reads row p of the column, the row broadcast reads column q of the row.
-/
import proofs.«135838_j85152021611242_1_alg».proof.Proof.Gen.KernelIdeal.Skeleton
import proofs.«135838_j85152021611242_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen
open Idealize.ShloMosaic Idealize.ShloMosaic.ValueIdx
open Facts₀ Facts

/-! ## The contraction's operand indices, axis by axis -/

theorem lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A block times a square matrix into the zero accumulator: at (p, c) the sum over k of y p k · m k c. -/
theorem matmul_zero_apply (y : FVec Ideal S8192x128 .f32) (m : FVec Ideal S128x128 .f32) (p : Fin 8192) (c : Fin 128) :
    matmul dot_S8192x128_S128x128_S8192x128_1_0_0_1_n_n none y m (constant (F := Ideal) S8192x128 .f32 0x00000000#32) (ix2 p c)
      = ∑ k : Fin 128, y (ix2 p k) * m (ix2 k c) := by
  show FloatOps.matmul dot_S8192x128_S128x128_S8192x128_1_0_0_1_n_n none y m (constant (F := Ideal) S8192x128 .f32 0x00000000#32) (ix2 p c) = _
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p c) ((ValueIdx.contrEquiv1 dot_S8192x128_S128x128_S8192x128_1_0_0_1_n_n 128 rfl rfl).symm k) = ix2 p k := funext fun a => Fin.ext (by
    match a with
    | ⟨0, _⟩ => exact lhs_0 _ _
    | ⟨1, _⟩ => exact (lhs_1 _ _).trans hk)
  have er : dot_S8192x128_S128x128_S8192x128_1_0_0_1_n_n.rhsIdx (ix2 p c) ((ValueIdx.contrEquiv1 dot_S8192x128_S128x128_S8192x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-! ## The two broadcasts -/

/-- A column [a, 1] broadcast to [a, b] reads, at (p, c), the column's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value -/

/-- The one pure term both launches store, over the six loaded values. -/
theorem pay_apply (g : Vec Ideal S8192x1 .f32) (a : Vec Ideal S8192x128 .f32) (w : Vec Ideal S128x128 .f32)
    (x : Vec Ideal S8192x128 .f32) (ws : Vec Ideal S128x128 .f32) (b : Vec Ideal S1x128 .f32) (p : Fin 8192) (q : Fin 128) :
    Cert.KernelIdeal.Gen.k0_pay1 (F := Ideal) g a w x ws b (ix2 p q)
      = (∑ k : Fin 128, (a (ix2 p k) * Ideal.rsqrt (g (ix2 p (0 : Fin 1)))) * w (ix2 k q))
        + (∑ k : Fin 128, x (ix2 p k) * ws (ix2 k q)) + b (ix2 (0 : Fin 1) q) := by
  unfold k0_pay1
  simp only [shapeCast_self]
  rw [addf_apply, addf_apply, matmul_zero_apply, matmul_zero_apply, broadcastTo_1b_ab_apply]
  congr 2
  refine Finset.sum_congr rfl fun k _ => ?_
  rw [mulf_apply, broadcastTo_a1_ab_apply]
  rfl

theorem k0_pay1_eq_combine (g : Vec Ideal S8192x1 .f32) (a : Vec Ideal S8192x128 .f32) (w : Vec Ideal S128x128 .f32)
    (x : Vec Ideal S8192x128 .f32) (ws : Vec Ideal S128x128 .f32) (b : Vec Ideal S1x128 .f32) :
    Cert.KernelIdeal.Gen.k0_pay1 (F := Ideal) g a w x ws b = Cert.Spec.combine 8192 a g x w b ws := by
  funext i
  obtain ⟨p, q, rfl⟩ : ∃ (p : Fin 8192) (q : Fin 128), i = ValueIdx.ix2 p q := ⟨i 0, i 1, ValueIdx.eq_ix2 i⟩
  rw [pay_apply]
  rfl

theorem k1_pay1_eq_combine (g : Vec Ideal S8192x1 .f32) (a : Vec Ideal S8192x128 .f32) (w : Vec Ideal S128x128 .f32)
    (x : Vec Ideal S8192x128 .f32) (ws : Vec Ideal S128x128 .f32) (b : Vec Ideal S1x128 .f32) :
    Cert.KernelIdeal.Gen.k1_pay1 (F := Ideal) g a w x ws b = Cert.Spec.combine 8192 a g x w b ws :=
  k0_pay1_eq_combine g a w x ws b

end Cert.KernelIdeal.Pay

end
-- ==== Proof.KILocal.lean ====
/-
  The two geometric facts about the row-blocked windows' edge blocks, over the extended reals.
  First: what the body stores into its result buffer is the specification's combine of its six whole buffers.
-/
import proofs.«135838_j85152021611242_1_alg».proof.Proof.KIDat
import proofs.«135838_j85152021611242_1_alg».proof.Proof.KIPay
import Idealize.ShloMosaic.Lib.Pipeline.Value
import Idealize.ShloMosaic.Lib.ValueIdx

set_option maxRecDepth 16384

noncomputable section

namespace Cert.KernelIdeal.Local

open Cert.KernelIdeal Cert.KernelIdeal.Gen Cert.KernelIdeal.Body Cert.KernelIdeal.Data
open Idealize.ShloMosaic Idealize.ShloMosaic.TcCoe
open Facts₀ Facts

theorem hz : (![0, 0] : Fin 2 → Nat) = fun _ => 0 := funext fun a => by fin_cases a <;> rfl

/-- The body's one whole-buffer store of its arithmetic over six whole-buffer loads is the combine of the buffers. -/
theorem out0_eq (a : Vec Ideal S8192x128 .f32) (g : Vec Ideal S8192x1 .f32) (x : Vec Ideal S8192x128 .f32)
    (w : Vec Ideal S128x128 .f32) (b : Vec Ideal S1x128 .f32) (ws : Vec Ideal S128x128 .f32) :
    out0 (F := Ideal) a g x w b ws = Cert.Spec.combine 8192 a g x w b ws := by
  unfold out0
  rw [View.canon_unit_zero hz]
  simp only [View.ld_unit_zero (S := S8192x128) hz, View.ld_unit_zero (S := S8192x1) hz, View.ld_unit_zero (S := S128x128) hz,
    View.ld_unit_zero (S := S1x128) hz]
  exact Pay.k0_pay1_eq_combine ..

theorem out1_eq (a : Vec Ideal S8192x128 .f32) (g : Vec Ideal S8192x1 .f32) (x : Vec Ideal S8192x128 .f32)
    (w : Vec Ideal S128x128 .f32) (b : Vec Ideal S1x128 .f32) (ws : Vec Ideal S128x128 .f32) :
    out1 (F := Ideal) a g x w b ws = Cert.Spec.combine 8192 a g x w b ws := by
  unfold out1
  rw [View.canon_unit_zero hz]
  simp only [View.ld_unit_zero (S := S8192x128) hz, View.ld_unit_zero (S := S8192x1) hz, View.ld_unit_zero (S := S128x128) hz,
    View.ld_unit_zero (S := S1x128) hz]
  exact Pay.k1_pay1_eq_combine ..

/-! ## Row locality on the rows inside the array

An entry of a combine reads the three per-node operands at its own row and nowhere else. A row-blocked input's buffer
is its block on the rows inside the array and a filler past them; all four row-blocked windows of a launch have one
index map and one row cut, so on a row the result's window moves every filled input is its block, whatever the filler. -/

open Idealize.ShloMosaic.Pipeline (Window)

/-- A combine's entry at row `r` is the same for operands that agree on row `r`. -/
theorem combine_row_congr (n : Nat) (agg agg' : (⟨2, ![n, 128]⟩ : Shape).Idx → EReal)
    (deg deg' : (⟨2, ![n, 1]⟩ : Shape).Idx → EReal) (x x' : (⟨2, ![n, 128]⟩ : Shape).Idx → EReal)
    (w : (⟨2, ![128, 128]⟩ : Shape).Idx → EReal) (b : (⟨2, ![1, 128]⟩ : Shape).Idx → EReal)
    (ws : (⟨2, ![128, 128]⟩ : Shape).Idx → EReal) (r : Fin n) (q : Fin 128)
    (ha : ∀ k : Fin 128, agg (Cert.Spec.at2 r k) = agg' (Cert.Spec.at2 r k))
    (hd : deg (Cert.Spec.at2 r (0 : Fin 1)) = deg' (Cert.Spec.at2 r (0 : Fin 1)))
    (hx : ∀ k : Fin 128, x (Cert.Spec.at2 r k) = x' (Cert.Spec.at2 r k)) :
    Cert.Spec.combine n agg deg x w b ws (Cert.Spec.at2 r q) = Cert.Spec.combine n agg' deg' x' w b ws (Cert.Spec.at2 r q) := by
  rw [Cert.Spec.combine_apply, Cert.Spec.combine_apply, funext ha, hd, funext hx]

/-- Two fillings of one block with different fillers agree wherever the transfer moves the index. -/
theorem fill_agree {G : Pipeline.Grid} (w : Window sig G) {α : Type} (i : G.Coords) (d d' : w.block.Idx → α)
    (g : (w.xblock i).Idx → α) (y : w.block.Idx) (h : ∀ a, (y a).val < w.xsize i a) :
    w.fill i d g y = w.fill i d' g y := by
  have hm : w.moved i y = true := (w.moved_iff i y).mpr h
  unfold Pipeline.Window.fill
  rw [dif_pos hm, dif_pos hm]

/-- Launch 0, at one index of the result block whose row the result's window moves: the fillers do not matter. -/
theorem combine_fill0 (i : grid0.Coords) (y : S8192x128.Idx) (hy : (y 0).val < win0_6.xsize i 0)
    (d0 d0' : S8192x128.Idx → Elt Ideal .f32) (d1 d1' : S8192x1.Idx → Elt Ideal .f32) (d2 d2' : S8192x128.Idx → Elt Ideal .f32)
    (g0 : (win0_0.xblock i).Idx → Elt Ideal .f32) (g1 : (win0_1.xblock i).Idx → Elt Ideal .f32)
    (g2 : (win0_2.xblock i).Idx → Elt Ideal .f32)
    (w : Vec Ideal S128x128 .f32) (b : Vec Ideal S1x128 .f32) (ws : Vec Ideal S128x128 .f32) :
    Cert.Spec.combine 8192 (win0_0.fill i d0 g0) (win0_1.fill i d1 g1) (win0_2.fill i d2 g2) w b ws y
      = Cert.Spec.combine 8192 (win0_0.fill i d0' g0) (win0_1.fill i d1' g1) (win0_2.fill i d2' g2) w b ws y := by
  rw [ValueIdx.eq_ix2 y]
  refine combine_row_congr 8192 _ _ _ _ _ _ w b ws (y 0) (y 1) (fun k => ?_) ?_ (fun k => ?_)
  · refine fill_agree win0_0 i d0 d0' g0 _ fun a => ?_
    match a with
    | ⟨0, _⟩ => exact hy
    | ⟨1, _⟩ => exact k.isLt
  · refine fill_agree win0_1 i d1 d1' g1 _ fun a => ?_
    match a with
    | ⟨0, _⟩ => exact hy
    | ⟨1, _⟩ => exact Nat.zero_lt_one
  · refine fill_agree win0_2 i d2 d2' g2 _ fun a => ?_
    match a with
    | ⟨0, _⟩ => exact hy
    | ⟨1, _⟩ => exact k.isLt

/-- Launch 0's row locality: on the rows inside the array the result block does not see the fillers. -/
theorem local0 (V : (c : Dev nD) → (b : Ref sig .tc) → Buf (Elt Ideal) ((c : Thread nD τ).loc b)) (c : Dev nD) :
    Data.Local0 (F := Ideal) V c := by
  intro t d0 d1 d2
  unfold oblk0 ablk0 gblk0 xblk0
  rw [out0_eq, out0_eq]
  funext j
  exact combine_fill0 (grid0.coords t) (win0_6.xinj (grid0.coords t) j) (j 0).isLt _ _ _ _ _ _ _ _ _ _ _ _

/-- Launch 1, at one index of the result block whose row the result's window moves: the fillers do not matter. -/
theorem combine_fill1 (i : grid1.Coords) (y : S8192x128.Idx) (hy : (y 0).val < win1_6.xsize i 0)
    (d0 d0' : S8192x128.Idx → Elt Ideal .f32) (d1 d1' : S8192x1.Idx → Elt Ideal .f32) (d2 d2' : S8192x128.Idx → Elt Ideal .f32)
    (g0 : (win1_0.xblock i).Idx → Elt Ideal .f32) (g1 : (win1_1.xblock i).Idx → Elt Ideal .f32)
    (g2 : (win1_2.xblock i).Idx → Elt Ideal .f32)
    (w : Vec Ideal S128x128 .f32) (b : Vec Ideal S1x128 .f32) (ws : Vec Ideal S128x128 .f32) :
    Cert.Spec.combine 8192 (win1_0.fill i d0 g0) (win1_1.fill i d1 g1) (win1_2.fill i d2 g2) w b ws y
      = Cert.Spec.combine 8192 (win1_0.fill i d0' g0) (win1_1.fill i d1' g1) (win1_2.fill i d2' g2) w b ws y := by
  rw [ValueIdx.eq_ix2 y]
  refine combine_row_congr 8192 _ _ _ _ _ _ w b ws (y 0) (y 1) (fun k => ?_) ?_ (fun k => ?_)
  · refine fill_agree win1_0 i d0 d0' g0 _ fun a => ?_
    match a with
    | ⟨0, _⟩ => exact hy
    | ⟨1, _⟩ => exact k.isLt
  · refine fill_agree win1_1 i d1 d1' g1 _ fun a => ?_
    match a with
    | ⟨0, _⟩ => exact hy
    | ⟨1, _⟩ => exact Nat.zero_lt_one
  · refine fill_agree win1_2 i d2 d2' g2 _ fun a => ?_
    match a with
    | ⟨0, _⟩ => exact hy
    | ⟨1, _⟩ => exact k.isLt

/-- Launch 1's row locality. -/
theorem local1 (V : (c : Dev nD) → (b : Ref sig .tc) → Buf (Elt Ideal) ((c : Thread nD τ).loc b)) (c : Dev nD) :
    Data.Local1 (F := Ideal) V c := by
  intro t d0 d1 d2
  unfold oblk1 ablk1 gblk1 xblk1
  rw [out1_eq, out1_eq]
  funext j
  exact combine_fill1 (grid1.coords t) (win1_6.xinj (grid1.coords t) j) (j 0).isLt _ _ _ _ _ _ _ _ _ _ _ _

end Cert.KernelIdeal.Local

end
-- ==== Proof.KIFinal.lean ====
/-
  What the result array of each launch holds after the run, over the extended reals: the combine of the whole arrays.
  Every point writes back the rows inside the array of its result block; that block is the combine of the input
  blocks; on a row inside the array an input block is the array's own rows at the block's offset; so the write-back is
  the point's block of the whole-array combine. The blocks' rows together are all the rows of the array.
-/
import proofs.«135838_j85152021611242_1_alg».proof.Proof.KILocal
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body Cert.KernelIdeal.Data
open Idealize.ShloMosaic Idealize.ShloMosaic.TcCoe
open Idealize.ShloMosaic.Pipeline (Window Dat)
open Facts₀ Facts

/-- A filled block read at an index the transfer moves is the block's own element there. -/
theorem fill_read {G : Pipeline.Grid} (w : Window sig G) {α : Type} (i : G.Coords) (d : w.block.Idx → α)
    (g : (w.xblock i).Idx → α) (y : w.block.Idx) (h : ∀ a, (y a).val < w.xsize i a) :
    w.fill i d g y = g fun a => ⟨(y a).val, h a⟩ := by
  have hm : w.moved i y = true := (w.moved_iff i y).mpr h
  unfold Pipeline.Window.fill
  rw [dif_pos hm]

/-- A combine over 8192-row blocks at row `r` is the combine over whole arrays at row `R`, when the blocks' row `r` is
    the arrays' row `R` and the matrices and the bias are the same. -/
theorem combine_block (n : Nat) (A : (⟨2, ![n, 128]⟩ : Shape).Idx → EReal) (D : (⟨2, ![n, 1]⟩ : Shape).Idx → EReal)
    (X : (⟨2, ![n, 128]⟩ : Shape).Idx → EReal) (W : (⟨2, ![128, 128]⟩ : Shape).Idx → EReal)
    (B : (⟨2, ![1, 128]⟩ : Shape).Idx → EReal) (Ws : (⟨2, ![128, 128]⟩ : Shape).Idx → EReal)
    (a : (⟨2, ![8192, 128]⟩ : Shape).Idx → EReal) (g : (⟨2, ![8192, 1]⟩ : Shape).Idx → EReal)
    (x : (⟨2, ![8192, 128]⟩ : Shape).Idx → EReal) (w : (⟨2, ![128, 128]⟩ : Shape).Idx → EReal)
    (b : (⟨2, ![1, 128]⟩ : Shape).Idx → EReal) (ws : (⟨2, ![128, 128]⟩ : Shape).Idx → EReal)
    (r : Fin 8192) (R : Fin n) (q : Fin 128)
    (ha : ∀ k : Fin 128, a (Cert.Spec.at2 r k) = A (Cert.Spec.at2 R k))
    (hg : g (Cert.Spec.at2 r (0 : Fin 1)) = D (Cert.Spec.at2 R (0 : Fin 1)))
    (hx : ∀ k : Fin 128, x (Cert.Spec.at2 r k) = X (Cert.Spec.at2 R k))
    (hw : ∀ (k c : Fin 128), w (Cert.Spec.at2 k c) = W (Cert.Spec.at2 k c))
    (hb : ∀ c : Fin 128, b (Cert.Spec.at2 (0 : Fin 1) c) = B (Cert.Spec.at2 (0 : Fin 1) c))
    (hws : ∀ (k c : Fin 128), ws (Cert.Spec.at2 k c) = Ws (Cert.Spec.at2 k c)) :
    Cert.Spec.combine 8192 a g x w b ws (Cert.Spec.at2 r q) = Cert.Spec.combine n A D X W B Ws (Cert.Spec.at2 R q) := by
  rw [Cert.Spec.combine_apply, Cert.Spec.combine_apply, funext ha, hg, funext hx,
    (funext fun k => funext (hw k) : (fun k c => w (Cert.Spec.at2 k c)) = fun k c => W (Cert.Spec.at2 k c)),
    (funext hb : (fun c => b (Cert.Spec.at2 (0 : Fin 1) c)) = fun c => B (Cert.Spec.at2 (0 : Fin 1) c)),
    (funext fun k => funext (hws k) : (fun k c => ws (Cert.Spec.at2 k c)) = fun k c => Ws (Cert.Spec.at2 k c))]

/-! ## Launch 0 -/

variable (V : (c : Dev nD) → (b : Ref sig .tc) → Buf (Elt Ideal) ((c : Thread nD τ).loc b))

/-- The whole-array combine of launch 0's six operands as the launch finds them. -/
def G0 (c : Dev nD) : S200000x128.Idx → EReal :=
  Cert.Spec.combine 200000 (V c main_v22) (V c main_v46) (V c main_arg1) (V c main_arg2) (V c main_v47) (V c main_arg6)

/-- The printed index maps and cuts, decided over the grid: the row-blocked windows' block index is the point on the
    rows and zero on the columns, the whole-array windows' is zero, and a block's rows end at the array's end. -/
theorem idx0 : ∀ t : Fin grid0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ t.val * 8192 + win0_6.xsize (grid0.coords t) (0 : Fin 2) = min ((t.val + 1) * 8192) 200000
    ∧ win0_6.xsize (grid0.coords t) (1 : Fin 2) = 128 := by
  decide +kernel

/-- A row-blocked input's filled block, on a row inside the array, is the array's row at the block's offset. -/
theorem ablk0_at (c : Dev nD) (t : Fin cfg0.N) (r : Fin 8192) (k : Fin 128)
    (hr : r.val < win0_6.xsize (grid0.coords t) 0) (R : Fin 200000) (hR : R.val = t.val * 8192 + r.val) :
    ablk0 V c t (Cert.Spec.at2 r k) = V c main_v22 (Cert.Spec.at2 R k) := by
  obtain ⟨-, -, e00, e01, -⟩ := idx0 t
  unfold ablk0
  rw [fill_read win0_0 (grid0.coords t) _ _ (Cert.Spec.at2 r k) (fun a => by
    match a with
    | ⟨0, _⟩ => exact hr
    | ⟨1, _⟩ => exact k.isLt)]
  unfold iblk0
  rw [View.read_apply]
  show V c main_v22 _ = V c main_v22 _
  congr 1
  funext a; apply Fin.ext
  match a with
  | ⟨0, _⟩ =>
    show win0_0.index t (0 : Fin 2) * 8192 + 1 * r.val = R.val
    omega
  | ⟨1, _⟩ =>
    show win0_0.index t (1 : Fin 2) * 128 + 1 * k.val = k.val
    omega

theorem gblk0_at (c : Dev nD) (t : Fin cfg0.N) (r : Fin 8192)
    (hr : r.val < win0_6.xsize (grid0.coords t) 0) (R : Fin 200000) (hR : R.val = t.val * 8192 + r.val) :
    gblk0 V c t (Cert.Spec.at2 r (0 : Fin 1)) = V c main_v46 (Cert.Spec.at2 R (0 : Fin 1)) := by
  obtain ⟨-, -, -, -, e10, e11, -⟩ := idx0 t
  unfold gblk0
  rw [fill_read win0_1 (grid0.coords t) _ _ (Cert.Spec.at2 r (0 : Fin 1)) (fun a => by
    match a with
    | ⟨0, _⟩ => exact hr
    | ⟨1, _⟩ => exact Nat.zero_lt_one)]
  unfold iblk0
  rw [View.read_apply]
  show V c main_v46 _ = V c main_v46 _
  congr 1
  funext a; apply Fin.ext
  match a with
  | ⟨0, _⟩ =>
    show win0_1.index t (0 : Fin 2) * 8192 + 1 * r.val = R.val
    omega
  | ⟨1, _⟩ =>
    show win0_1.index t (1 : Fin 2) * 1 + 1 * 0 = 0
    omega

theorem xblk0_at (c : Dev nD) (t : Fin cfg0.N) (r : Fin 8192) (k : Fin 128)
    (hr : r.val < win0_6.xsize (grid0.coords t) 0) (R : Fin 200000) (hR : R.val = t.val * 8192 + r.val) :
    xblk0 V c t (Cert.Spec.at2 r k) = V c main_arg1 (Cert.Spec.at2 R k) := by
  obtain ⟨-, -, -, -, -, -, e20, e21, -⟩ := idx0 t
  unfold xblk0
  rw [fill_read win0_2 (grid0.coords t) _ _ (Cert.Spec.at2 r k) (fun a => by
    match a with
    | ⟨0, _⟩ => exact hr
    | ⟨1, _⟩ => exact k.isLt)]
  unfold iblk0
  rw [View.read_apply]
  show V c main_arg1 _ = V c main_arg1 _
  congr 1
  funext a; apply Fin.ext
  match a with
  | ⟨0, _⟩ =>
    show win0_2.index t (0 : Fin 2) * 8192 + 1 * r.val = R.val
    omega
  | ⟨1, _⟩ =>
    show win0_2.index t (1 : Fin 2) * 128 + 1 * k.val = k.val
    omega

/-- The whole-array inputs' one block is the array. -/
theorem wblk0_at (c : Dev nD) (t : Fin cfg0.N) (k q : Fin 128) :
    wblk0 V c t (Cert.Spec.at2 k q) = V c main_arg2 (Cert.Spec.at2 k q) := by
  obtain ⟨-, -, -, -, -, -, -, -, e30, e31, -⟩ := idx0 t
  unfold wblk0 iblk0
  rw [View.read_apply]
  show V c main_arg2 _ = V c main_arg2 _
  congr 1
  funext a; apply Fin.ext
  match a with
  | ⟨0, _⟩ =>
    show win0_3.index t (0 : Fin 2) * 128 + 1 * k.val = k.val
    omega
  | ⟨1, _⟩ =>
    show win0_3.index t (1 : Fin 2) * 128 + 1 * q.val = q.val
    omega

theorem bblk0_at (c : Dev nD) (t : Fin cfg0.N) (q : Fin 128) :
    bblk0 V c t (Cert.Spec.at2 (0 : Fin 1) q) = V c main_v47 (Cert.Spec.at2 (0 : Fin 1) q) := by
  obtain ⟨-, -, -, -, -, -, -, -, -, -, e40, e41, -⟩ := idx0 t
  unfold bblk0 iblk0
  rw [View.read_apply]
  show V c main_v47 _ = V c main_v47 _
  congr 1
  funext a; apply Fin.ext
  match a with
  | ⟨0, _⟩ =>
    show win0_4.index t (0 : Fin 2) * 1 + 1 * 0 = 0
    omega
  | ⟨1, _⟩ =>
    show win0_4.index t (1 : Fin 2) * 128 + 1 * q.val = q.val
    omega

theorem sblk0_at (c : Dev nD) (t : Fin cfg0.N) (k q : Fin 128) :
    sblk0 V c t (Cert.Spec.at2 k q) = V c main_arg6 (Cert.Spec.at2 k q) := by
  obtain ⟨-, -, -, -, -, -, -, -, -, -, -, -, e50, e51, -⟩ := idx0 t
  unfold sblk0 iblk0
  rw [View.read_apply]
  show V c main_arg6 _ = V c main_arg6 _
  congr 1
  funext a; apply Fin.ext
  match a with
  | ⟨0, _⟩ =>
    show win0_5.index t (0 : Fin 2) * 128 + 1 * k.val = k.val
    omega
  | ⟨1, _⟩ =>
    show win0_5.index t (1 : Fin 2) * 128 + 1 * q.val = q.val
    omega

/-- WHAT POINT `t` WRITES BACK is its block of the whole-array combine. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold oblk0
  rw [Local.out0_eq]
  obtain ⟨e60, e61, -, -, -, -, -, -, -, -, -, -, -, -, ex0, ex1⟩ := idx0 t
  funext j
  have hj0 : (j 0).val < win0_6.xsize (grid0.coords t) 0 := (j 0).isLt
  have hj1 : (j 1).val < win0_6.xsize (grid0.coords t) 1 := (j 1).isLt
  have hr : (j 0).val < 8192 := by omega
  have hq : (j 1).val < 128 := by omega
  have hR : t.val * 8192 + (j 0).val < 200000 := by omega
  have ey : win0_6.xinj (grid0.coords t) j = Cert.Spec.at2 (⟨(j 0).val, hr⟩ : Fin 8192) (⟨(j 1).val, hq⟩ : Fin 128) := by
    funext a
    match a with
    | ⟨0, _⟩ => rfl
    | ⟨1, _⟩ => rfl
  have eI : ((cfg0.win 6).blk t).view.emb j
      = Cert.Spec.at2 (⟨t.val * 8192 + (j 0).val, hR⟩ : Fin 200000) (⟨(j 1).val, hq⟩ : Fin 128) := by
    funext a; apply Fin.ext
    match a with
    | ⟨0, _⟩ =>
      show win0_6.index t (0 : Fin 2) * 8192 + 1 * (j 0).val = t.val * 8192 + (j 0).val
      rw [e60, Nat.one_mul]
    | ⟨1, _⟩ =>
      show win0_6.index t (1 : Fin 2) * 128 + 1 * (j 1).val = (j 1).val
      omega
  show Cert.Spec.combine 8192 (ablk0 V c t) (gblk0 V c t) (xblk0 V c t) (wblk0 V c t) (bblk0 V c t) (sblk0 V c t)
      (win0_6.xinj (grid0.coords t) j) = G0 V c (((cfg0.win 6).blk t).view.emb j)
  rw [ey, eI]
  unfold G0
  exact combine_block 200000 _ _ _ _ _ _ _ _ _ _ _ _ _ _ _
    (fun k => ablk0_at V c t _ k hj0 _ rfl) (gblk0_at V c t _ hj0 _ rfl) (fun k => xblk0_at V c t _ k hj0 _ rfl)
    (fun k q => wblk0_at V c t k q) (fun q => bblk0_at V c t q) (fun k q => sblk0_at V c t k q)

/-- An index of the result array is in point `t`'s block iff its row is one of the block's rows inside the array. -/
theorem mem_blk0 (t : Fin cfg0.N) (i : S200000x128.Idx) :
    i ∈ ((cfg0.win 6).blk t).view.set ↔ t.val * 8192 ≤ (i 0).val ∧ (i 0).val < min ((t.val + 1) * 8192) 200000 := by
  obtain ⟨e60, e61, -, -, -, -, -, -, -, -, -, -, -, -, ex0, ex1⟩ := idx0 t
  show i ∈ ((View.whole main_v48).slice (win0_6.rect t)).set ↔ _
  rw [View.set_slice_whole, Rect.mem_set_unit]
  have h1 : (i 1).val < 128 := (i 1).isLt
  constructor
  · intro h
    have h0 : win0_6.index t (0 : Fin 2) * 8192 ≤ (i 0).val
        ∧ (i 0).val < win0_6.index t (0 : Fin 2) * 8192 + win0_6.xsize (grid0.coords t) 0 := h 0
    rw [e60, ex0] at h0
    exact h0
  · intro h a
    match a with
    | ⟨0, _⟩ =>
      show win0_6.index t (0 : Fin 2) * 8192 ≤ (i 0).val
        ∧ (i 0).val < win0_6.index t (0 : Fin 2) * 8192 + win0_6.xsize (grid0.coords t) 0
      rw [e60, ex0]
      exact h
    | ⟨1, _⟩ =>
      show win0_6.index t (1 : Fin 2) * 128 ≤ (i 1).val
        ∧ (i 1).val < win0_6.index t (1 : Fin 2) * 128 + win0_6.xsize (grid0.coords t) 1
      omega

/-- THE RESULT ARRAY after launch 0: the whole-array combine of the six operands as the launch finds them. -/
theorem final0 (c : Dev nD) :
    (dat0 (F := Ideal) V c).arrAt 6 cfg0.N
      = Cert.Spec.combine 200000 (V c main_v22) (V c main_v46) (V c main_arg1) (V c main_arg2) (V c main_v47) (V c main_arg6) := by
  refine (dat0 (F := Ideal) V c).arrAt_eq_of_cover 6 (G0 V c) (fun t _ => flushed0_eq V c t) fun i => ?_
  have hi : (i 0).val < 200000 := (i 0).isLt
  refine ⟨⟨(i 0).val / 8192, by show (i 0).val / 8192 < 25; omega⟩, flush0_6 _, ?_⟩
  rw [mem_blk0]
  show (i 0).val / 8192 * 8192 ≤ (i 0).val ∧ (i 0).val < min (((i 0).val / 8192 + 1) * 8192) 200000
  omega

/-! ## Launch 1 -/

/-- The whole-array combine of launch 1's six operands as the launch finds them. -/
def G1 (c : Dev nD) : S50000x128.Idx → EReal :=
  Cert.Spec.combine 50000 (V c main_v45) (V c main_v49) (V c main_arg0) (V c main_arg4) (V c main_v50) (V c main_arg6)

/-- The printed index maps and cuts, decided over the grid: the row-blocked windows' block index is the point on the
    rows and zero on the columns, the whole-array windows' is zero, and a block's rows end at the array's end. -/
theorem idx1 : ∀ t : Fin grid1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ t.val * 8192 + win1_6.xsize (grid1.coords t) (0 : Fin 2) = min ((t.val + 1) * 8192) 50000
    ∧ win1_6.xsize (grid1.coords t) (1 : Fin 2) = 128 := by
  decide +kernel

/-- A row-blocked input's filled block, on a row inside the array, is the array's row at the block's offset. -/
theorem ablk1_at (c : Dev nD) (t : Fin cfg1.N) (r : Fin 8192) (k : Fin 128)
    (hr : r.val < win1_6.xsize (grid1.coords t) 0) (R : Fin 50000) (hR : R.val = t.val * 8192 + r.val) :
    ablk1 V c t (Cert.Spec.at2 r k) = V c main_v45 (Cert.Spec.at2 R k) := by
  obtain ⟨-, -, e00, e01, -⟩ := idx1 t
  unfold ablk1
  rw [fill_read win1_0 (grid1.coords t) _ _ (Cert.Spec.at2 r k) (fun a => by
    match a with
    | ⟨0, _⟩ => exact hr
    | ⟨1, _⟩ => exact k.isLt)]
  unfold iblk1
  rw [View.read_apply]
  show V c main_v45 _ = V c main_v45 _
  congr 1
  funext a; apply Fin.ext
  match a with
  | ⟨0, _⟩ =>
    show win1_0.index t (0 : Fin 2) * 8192 + 1 * r.val = R.val
    omega
  | ⟨1, _⟩ =>
    show win1_0.index t (1 : Fin 2) * 128 + 1 * k.val = k.val
    omega

theorem gblk1_at (c : Dev nD) (t : Fin cfg1.N) (r : Fin 8192)
    (hr : r.val < win1_6.xsize (grid1.coords t) 0) (R : Fin 50000) (hR : R.val = t.val * 8192 + r.val) :
    gblk1 V c t (Cert.Spec.at2 r (0 : Fin 1)) = V c main_v49 (Cert.Spec.at2 R (0 : Fin 1)) := by
  obtain ⟨-, -, -, -, e10, e11, -⟩ := idx1 t
  unfold gblk1
  rw [fill_read win1_1 (grid1.coords t) _ _ (Cert.Spec.at2 r (0 : Fin 1)) (fun a => by
    match a with
    | ⟨0, _⟩ => exact hr
    | ⟨1, _⟩ => exact Nat.zero_lt_one)]
  unfold iblk1
  rw [View.read_apply]
  show V c main_v49 _ = V c main_v49 _
  congr 1
  funext a; apply Fin.ext
  match a with
  | ⟨0, _⟩ =>
    show win1_1.index t (0 : Fin 2) * 8192 + 1 * r.val = R.val
    omega
  | ⟨1, _⟩ =>
    show win1_1.index t (1 : Fin 2) * 1 + 1 * 0 = 0
    omega

theorem xblk1_at (c : Dev nD) (t : Fin cfg1.N) (r : Fin 8192) (k : Fin 128)
    (hr : r.val < win1_6.xsize (grid1.coords t) 0) (R : Fin 50000) (hR : R.val = t.val * 8192 + r.val) :
    xblk1 V c t (Cert.Spec.at2 r k) = V c main_arg0 (Cert.Spec.at2 R k) := by
  obtain ⟨-, -, -, -, -, -, e20, e21, -⟩ := idx1 t
  unfold xblk1
  rw [fill_read win1_2 (grid1.coords t) _ _ (Cert.Spec.at2 r k) (fun a => by
    match a with
    | ⟨0, _⟩ => exact hr
    | ⟨1, _⟩ => exact k.isLt)]
  unfold iblk1
  rw [View.read_apply]
  show V c main_arg0 _ = V c main_arg0 _
  congr 1
  funext a; apply Fin.ext
  match a with
  | ⟨0, _⟩ =>
    show win1_2.index t (0 : Fin 2) * 8192 + 1 * r.val = R.val
    omega
  | ⟨1, _⟩ =>
    show win1_2.index t (1 : Fin 2) * 128 + 1 * k.val = k.val
    omega

/-- The whole-array inputs' one block is the array. -/
theorem wblk1_at (c : Dev nD) (t : Fin cfg1.N) (k q : Fin 128) :
    wblk1 V c t (Cert.Spec.at2 k q) = V c main_arg4 (Cert.Spec.at2 k q) := by
  obtain ⟨-, -, -, -, -, -, -, -, e30, e31, -⟩ := idx1 t
  unfold wblk1 iblk1
  rw [View.read_apply]
  show V c main_arg4 _ = V c main_arg4 _
  congr 1
  funext a; apply Fin.ext
  match a with
  | ⟨0, _⟩ =>
    show win1_3.index t (0 : Fin 2) * 128 + 1 * k.val = k.val
    omega
  | ⟨1, _⟩ =>
    show win1_3.index t (1 : Fin 2) * 128 + 1 * q.val = q.val
    omega

theorem bblk1_at (c : Dev nD) (t : Fin cfg1.N) (q : Fin 128) :
    bblk1 V c t (Cert.Spec.at2 (0 : Fin 1) q) = V c main_v50 (Cert.Spec.at2 (0 : Fin 1) q) := by
  obtain ⟨-, -, -, -, -, -, -, -, -, -, e40, e41, -⟩ := idx1 t
  unfold bblk1 iblk1
  rw [View.read_apply]
  show V c main_v50 _ = V c main_v50 _
  congr 1
  funext a; apply Fin.ext
  match a with
  | ⟨0, _⟩ =>
    show win1_4.index t (0 : Fin 2) * 1 + 1 * 0 = 0
    omega
  | ⟨1, _⟩ =>
    show win1_4.index t (1 : Fin 2) * 128 + 1 * q.val = q.val
    omega

theorem sblk1_at (c : Dev nD) (t : Fin cfg1.N) (k q : Fin 128) :
    sblk1 V c t (Cert.Spec.at2 k q) = V c main_arg6 (Cert.Spec.at2 k q) := by
  obtain ⟨-, -, -, -, -, -, -, -, -, -, -, -, e50, e51, -⟩ := idx1 t
  unfold sblk1 iblk1
  rw [View.read_apply]
  show V c main_arg6 _ = V c main_arg6 _
  congr 1
  funext a; apply Fin.ext
  match a with
  | ⟨0, _⟩ =>
    show win1_5.index t (0 : Fin 2) * 128 + 1 * k.val = k.val
    omega
  | ⟨1, _⟩ =>
    show win1_5.index t (1 : Fin 2) * 128 + 1 * q.val = q.val
    omega

/-- WHAT POINT `t` WRITES BACK is its block of the whole-array combine. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold oblk1
  rw [Local.out1_eq]
  obtain ⟨e60, e61, -, -, -, -, -, -, -, -, -, -, -, -, ex0, ex1⟩ := idx1 t
  funext j
  have hj0 : (j 0).val < win1_6.xsize (grid1.coords t) 0 := (j 0).isLt
  have hj1 : (j 1).val < win1_6.xsize (grid1.coords t) 1 := (j 1).isLt
  have hr : (j 0).val < 8192 := by omega
  have hq : (j 1).val < 128 := by omega
  have hR : t.val * 8192 + (j 0).val < 50000 := by omega
  have ey : win1_6.xinj (grid1.coords t) j = Cert.Spec.at2 (⟨(j 0).val, hr⟩ : Fin 8192) (⟨(j 1).val, hq⟩ : Fin 128) := by
    funext a
    match a with
    | ⟨0, _⟩ => rfl
    | ⟨1, _⟩ => rfl
  have eI : ((cfg1.win 6).blk t).view.emb j
      = Cert.Spec.at2 (⟨t.val * 8192 + (j 0).val, hR⟩ : Fin 50000) (⟨(j 1).val, hq⟩ : Fin 128) := by
    funext a; apply Fin.ext
    match a with
    | ⟨0, _⟩ =>
      show win1_6.index t (0 : Fin 2) * 8192 + 1 * (j 0).val = t.val * 8192 + (j 0).val
      rw [e60, Nat.one_mul]
    | ⟨1, _⟩ =>
      show win1_6.index t (1 : Fin 2) * 128 + 1 * (j 1).val = (j 1).val
      omega
  show Cert.Spec.combine 8192 (ablk1 V c t) (gblk1 V c t) (xblk1 V c t) (wblk1 V c t) (bblk1 V c t) (sblk1 V c t)
      (win1_6.xinj (grid1.coords t) j) = G1 V c (((cfg1.win 6).blk t).view.emb j)
  rw [ey, eI]
  unfold G1
  exact combine_block 50000 _ _ _ _ _ _ _ _ _ _ _ _ _ _ _
    (fun k => ablk1_at V c t _ k hj0 _ rfl) (gblk1_at V c t _ hj0 _ rfl) (fun k => xblk1_at V c t _ k hj0 _ rfl)
    (fun k q => wblk1_at V c t k q) (fun q => bblk1_at V c t q) (fun k q => sblk1_at V c t k q)

/-- An index of the result array is in point `t`'s block iff its row is one of the block's rows inside the array. -/
theorem mem_blk1 (t : Fin cfg1.N) (i : S50000x128.Idx) :
    i ∈ ((cfg1.win 6).blk t).view.set ↔ t.val * 8192 ≤ (i 0).val ∧ (i 0).val < min ((t.val + 1) * 8192) 50000 := by
  obtain ⟨e60, e61, -, -, -, -, -, -, -, -, -, -, -, -, ex0, ex1⟩ := idx1 t
  show i ∈ ((View.whole main_v51).slice (win1_6.rect t)).set ↔ _
  rw [View.set_slice_whole, Rect.mem_set_unit]
  have h1 : (i 1).val < 128 := (i 1).isLt
  constructor
  · intro h
    have h0 : win1_6.index t (0 : Fin 2) * 8192 ≤ (i 0).val
        ∧ (i 0).val < win1_6.index t (0 : Fin 2) * 8192 + win1_6.xsize (grid1.coords t) 0 := h 0
    rw [e60, ex0] at h0
    exact h0
  · intro h a
    match a with
    | ⟨0, _⟩ =>
      show win1_6.index t (0 : Fin 2) * 8192 ≤ (i 0).val
        ∧ (i 0).val < win1_6.index t (0 : Fin 2) * 8192 + win1_6.xsize (grid1.coords t) 0
      rw [e60, ex0]
      exact h
    | ⟨1, _⟩ =>
      show win1_6.index t (1 : Fin 2) * 128 ≤ (i 1).val
        ∧ (i 1).val < win1_6.index t (1 : Fin 2) * 128 + win1_6.xsize (grid1.coords t) 1
      omega

/-- THE RESULT ARRAY after launch 1: the whole-array combine of the six operands as the launch finds them. -/
theorem final1 (c : Dev nD) :
    (dat1 (F := Ideal) V c).arrAt 6 cfg1.N
      = Cert.Spec.combine 50000 (V c main_v45) (V c main_v49) (V c main_arg0) (V c main_arg4) (V c main_v50) (V c main_arg6) := by
  refine (dat1 (F := Ideal) V c).arrAt_eq_of_cover 6 (G1 V c) (fun t _ => flushed1_eq V c t) fun i => ?_
  have hi : (i 0).val < 50000 := (i 0).isLt
  refine ⟨⟨(i 0).val / 8192, by show (i 0).val / 8192 < 7; omega⟩, flush1_6 _, ?_⟩
  rw [mem_blk1]
  show (i 0).val / 8192 * 8192 ≤ (i 0).val ∧ (i 0).val < min (((i 0).val / 8192 + 1) * 8192) 50000
  omega

end Cert.KernelIdeal.Final

end
-- ==== Proof.KIEntry.lean ====
/-
  What the host operations leave in the arrays the two kernel regions read, as named terms of the launch arguments.
  Four chains are shared by the kernel's host prologue and the reference: the degree-normalised neighbour sum of each
  relation (a scatter-add, over the destination indices, of the rows gathered at the wrapped source indices from the
  input scaled by the inverse square root of the clipped source-degree count) and the clipped destination-degree count
  of each relation. Each is stated once as a plain function of the argument arrays; a scatter or a gather is never
  evaluated, only named.
-/
import proofs.«135838_j85152021611242_1_alg».proof.Proof.Gen.KernelIdeal.Regions
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]

/-! ## The shared chains -/

/-- How many of the million indices name each of 50000 nodes, and at least one: the count is a scatter-add of ones
    into zeros, clipped below at one. -/
def count50 (x : Vec F S1000000 .i32) : Vec F S50000 .f32 :=
  maximumf (broadcastInDim S50000 ![] bcast_S_S50000 (id (constant S_ .f32 0x3F800000#32))) (Host.scatterAdd scatter_S50000_S1000000x1_S1000000_n_0_0_1 (broadcastInDim S50000 ![] bcast_S_S50000 (constant S_ .f32 0x00000000#32)) (broadcastInDim S1000000x1 ![0] bcast_S1000000_S1000000x1_0 x) (broadcastInDim S1000000 ![] bcast_S_S1000000 (constant S_ .f32 0x3F800000#32)))

/-- The same count over 200000 nodes. -/
def count200 (x : Vec F S1000000 .i32) : Vec F S200000 .f32 :=
  maximumf (broadcastInDim S200000 ![] bcast_S_S200000 (id (constant S_ .f32 0x3F800000#32))) (Host.scatterAdd scatter_S200000_S1000000x1_S1000000_n_0_0_1 (broadcastInDim S200000 ![] bcast_S_S200000 (constant S_ .f32 0x00000000#32)) (broadcastInDim S1000000x1 ![0] bcast_S1000000_S1000000x1_0 x) (broadcastInDim S1000000 ![] bcast_S_S1000000 (constant S_ .f32 0x3F800000#32)))

/-- The first relation's neighbour sum: row `x8 e` of the result gathers, over the edges `e`, row `x7 e` (a negative
    index wrapped by 50000) of the input scaled by the inverse square root of its source-degree count. -/
def aggFlow (x0 : Vec F S50000x128 .f32) (x7 x8 : Vec F S1000000 .i32) : Vec F S200000x128 .f32 :=
  Host.scatterAdd scatter_S200000x128_S1000000x1_S1000000x128_1_0_0_1 (broadcastInDim S200000x128 ![] bcast_S_S200000x128 (constant S_ .f32 0x00000000#32)) (broadcastInDim S1000000x1 ![0] bcast_S1000000_S1000000x1_0 x8) (Host.gather gather_S50000x128_S1000000x1_S1000000x128_1_0_n_n_0_1_1128 (mulf x0 (broadcastInDim S50000x128 ![0, 1] bcast_S50000x1_S50000x128_0_1 (broadcastInDim S50000x1 ![0] bcast_S50000_S50000x1_0 (Host.rsqrt (count50 x7))))) (broadcastInDim S1000000x1 ![0] bcast_S1000000_S1000000x1_0 (select (cmpi .slt x7 (broadcastInDim S1000000 ![] bcast_S_S1000000 (constantI S_ 32 0#32))) (addi x7 (broadcastInDim S1000000 ![] bcast_S_S1000000 (constantI S_ 32 50000#32))) x7)))

/-- The first relation's clipped destination-degree count. -/
def degFlow (x8 : Vec F S1000000 .i32) : Vec F S200000 .f32 := count200 x8

/-- The second relation's neighbour sum, from 200000 source nodes into 50000 destination nodes. -/
def aggEp (x1 : Vec F S200000x128 .f32) (x9 x10 : Vec F S1000000 .i32) : Vec F S50000x128 .f32 :=
  Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 x10) (Host.gather gather_S200000x128_S1000000x1_S1000000x128_1_0_n_n_0_1_1128 (mulf x1 (broadcastInDim S200000x128 ![0, 1] bcast_S200000x1_S200000x128_0_1 (broadcastInDim S200000x1 ![0] bcast_S200000_S200000x1_0 (Host.rsqrt (count200 x9))))) (broadcastInDim S1000000x1 ![0] bcast_S1000000_S1000000x1_0 (select (cmpi .slt x9 (broadcastInDim S1000000 ![] bcast_S_S1000000 (constantI S_ 32 0#32))) (addi x9 (broadcastInDim S1000000 ![] bcast_S_S1000000 (constantI S_ 32 200000#32))) x9)))

/-- The second relation's clipped destination-degree count. -/
def degEp (x10 : Vec F S1000000 .i32) : Vec F S50000 .f32 := count50 x10

variable (m : (ℓ : Loc nD τ sig) → Buf (Elt F) ℓ) (outs : Outs (F := F))

/-! ## Each stretch as a function of the contents it starts from -/

section Stretches

variable (W : Valuation τ sig (Elt F))

theorem s0_main_v0 : after hostOps0 W main_v0 = broadcastInDim S1000000 ![] bcast_S_S1000000 (constant S_ .f32 0x3F800000#32) := by
  dsimp only [hostOps0]; after_results
theorem s0_main_v3 : after hostOps0 W main_v3 = Host.scatterAdd scatter_S50000_S1000000x1_S1000000_n_0_0_1 (broadcastInDim S50000 ![] bcast_S_S50000 (constant S_ .f32 0x00000000#32)) (broadcastInDim S1000000x1 ![0] bcast_S1000000_S1000000x1_0 (W main_arg7)) (broadcastInDim S1000000 ![] bcast_S_S1000000 (constant S_ .f32 0x3F800000#32)) := by
  dsimp only [hostOps0]; after_results
theorem s0_main_cst_1 : after hostOps0 W main_cst_1 = constant S_ .f32 0x3F800000#32 := by
  dsimp only [hostOps0]; after_results

theorem s1_main_v4 : after hostOps0_1 W main_v4 = maximumf (broadcastInDim S50000 ![] bcast_S_S50000 (id (W main_cst_1))) (W main_v3) := by
  dsimp only [hostOps0_1]; after_results; rfl

theorem s2_main_v7 : after hostOps0_2 W main_v7 = Host.scatterAdd scatter_S200000_S1000000x1_S1000000_n_0_0_1 (broadcastInDim S200000 ![] bcast_S_S200000 (constant S_ .f32 0x00000000#32)) (broadcastInDim S1000000x1 ![0] bcast_S1000000_S1000000x1_0 (W main_arg8)) (W main_v0) := by
  dsimp only [hostOps0_2]; after_results
theorem s2_main_cst_3 : after hostOps0_2 W main_cst_3 = constant S_ .f32 0x3F800000#32 := by
  dsimp only [hostOps0_2]; after_results

theorem s3_main_v8 : after hostOps0_3 W main_v8 = maximumf (broadcastInDim S200000 ![] bcast_S_S200000 (id (W main_cst_3))) (W main_v7) := by
  dsimp only [hostOps0_3]; after_results; rfl

end Stretches

section Stretches2

variable (W : Valuation τ sig (Elt F))

theorem s4_main_v22 : after hostOps0_4 W main_v22 = Host.scatterAdd scatter_S200000x128_S1000000x1_S1000000x128_1_0_0_1 (broadcastInDim S200000x128 ![] bcast_S_S200000x128 (constant S_ .f32 0x00000000#32)) (broadcastInDim S1000000x1 ![0] bcast_S1000000_S1000000x1_0 (W main_arg8)) (Host.gather gather_S50000x128_S1000000x1_S1000000x128_1_0_n_n_0_1_1128 (mulf (W main_arg0) (broadcastInDim S50000x128 ![0, 1] bcast_S50000x1_S50000x128_0_1 (broadcastInDim S50000x1 ![0] bcast_S50000_S50000x1_0 (Host.rsqrt (W main_v4))))) (broadcastInDim S1000000x1 ![0] bcast_S1000000_S1000000x1_0 (select (cmpi .slt (W main_arg7) (broadcastInDim S1000000 ![] bcast_S_S1000000 (constantI S_ 32 0#32))) (addi (W main_arg7) (broadcastInDim S1000000 ![] bcast_S_S1000000 (constantI S_ 32 50000#32))) (W main_arg7)))) := by
  dsimp only [hostOps0_4]; after_results_simp <;> rfl
theorem s4_main_v23 : after hostOps0_4 W main_v23 = broadcastInDim S1000000 ![] bcast_S_S1000000 (constant S_ .f32 0x3F800000#32) := by
  dsimp only [hostOps0_4]; after_results
theorem s4_main_v26 : after hostOps0_4 W main_v26 = Host.scatterAdd scatter_S200000_S1000000x1_S1000000_n_0_0_1 (broadcastInDim S200000 ![] bcast_S_S200000 (constant S_ .f32 0x00000000#32)) (broadcastInDim S1000000x1 ![0] bcast_S1000000_S1000000x1_0 (W main_arg9)) (broadcastInDim S1000000 ![] bcast_S_S1000000 (constant S_ .f32 0x3F800000#32)) := by
  dsimp only [hostOps0_4]; after_results
theorem s4_main_cst_8 : after hostOps0_4 W main_cst_8 = constant S_ .f32 0x3F800000#32 := by
  dsimp only [hostOps0_4]; after_results

theorem s5_main_v27 : after hostOps0_5 W main_v27 = maximumf (broadcastInDim S200000 ![] bcast_S_S200000 (id (W main_cst_8))) (W main_v26) := by
  dsimp only [hostOps0_5]; after_results; rfl

theorem s6_main_v30 : after hostOps0_6 W main_v30 = Host.scatterAdd scatter_S50000_S1000000x1_S1000000_n_0_0_1 (broadcastInDim S50000 ![] bcast_S_S50000 (constant S_ .f32 0x00000000#32)) (broadcastInDim S1000000x1 ![0] bcast_S1000000_S1000000x1_0 (W main_arg10)) (W main_v23) := by
  dsimp only [hostOps0_6]; after_results
theorem s6_main_cst_10 : after hostOps0_6 W main_cst_10 = constant S_ .f32 0x3F800000#32 := by
  dsimp only [hostOps0_6]; after_results

theorem s7_main_v31 : after hostOps0_7 W main_v31 = maximumf (broadcastInDim S50000 ![] bcast_S_S50000 (id (W main_cst_10))) (W main_v30) := by
  dsimp only [hostOps0_7]; after_results; rfl

theorem s8_main_v45 : after hostOps0_8 W main_v45 = Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (W main_arg10)) (Host.gather gather_S200000x128_S1000000x1_S1000000x128_1_0_n_n_0_1_1128 (mulf (W main_arg1) (broadcastInDim S200000x128 ![0, 1] bcast_S200000x1_S200000x128_0_1 (broadcastInDim S200000x1 ![0] bcast_S200000_S200000x1_0 (Host.rsqrt (W main_v27))))) (broadcastInDim S1000000x1 ![0] bcast_S1000000_S1000000x1_0 (select (cmpi .slt (W main_arg9) (broadcastInDim S1000000 ![] bcast_S_S1000000 (constantI S_ 32 0#32))) (addi (W main_arg9) (broadcastInDim S1000000 ![] bcast_S_S1000000 (constantI S_ 32 200000#32))) (W main_arg9)))) := by
  dsimp only [hostOps0_8]; after_results_simp <;> rfl
theorem s8_main_v46 : after hostOps0_8 W main_v46 = (shapeCast S200000x1 (W main_v8 : Vec F S200000 .f32) shapeCasts_S200000_S200000x1 : Vec F S200000x1 .f32) := by
  dsimp only [hostOps0_8]; after_results; rfl
theorem s8_main_v47 : after hostOps0_8 W main_v47 = (shapeCast S1x128 (W main_arg3 : Vec F S128 .f32) shapeCasts_S128_S1x128 : Vec F S1x128 .f32) := by
  dsimp only [hostOps0_8]; after_results; rfl

theorem s9_main_v49 : after hostOps1 W main_v49 = (shapeCast S50000x1 (W main_v31 : Vec F S50000 .f32) shapeCasts_S50000_S50000x1 : Vec F S50000x1 .f32) := by
  dsimp only [hostOps1]; after_results; rfl
theorem s9_main_v50 : after hostOps1 W main_v50 = (shapeCast S1x128 (W main_arg5 : Vec F S128 .f32) shapeCasts_S128_S1x128 : Vec F S1x128 .f32) := by
  dsimp only [hostOps1]; after_results; rfl

end Stretches2

/-! ## What reaches a later stretch untouched -/

section Keep

variable (c : Dev nD) (r : Ref sig .tc)

theorem V0_arg : V0 m c r = m ((c : Thread nD τ).loc r) := rfl
theorem V2_V0 (h0 : r ∉ hostOps0_W := by decide) (h1 : r ∉ hostOps0_1_W := by decide) : V2 m c r = m ((c : Thread nD τ).loc r) :=
  (V2_of m c r h1).trans (V1_of m c r h0)
theorem V4_V0 (h0 : r ∉ hostOps0_W := by decide) (h1 : r ∉ hostOps0_1_W := by decide) (h2 : r ∉ hostOps0_2_W := by decide)
    (h3 : r ∉ hostOps0_3_W := by decide) : V4 m c r = m ((c : Thread nD τ).loc r) :=
  (V4_of m c r h3).trans <| (V3_of m c r h2).trans (V2_V0 m c r h0 h1)
theorem V6_V0 (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide) :
    V6 m c r = m ((c : Thread nD τ).loc r) :=
  (V6_of m c r h5).trans <| (V5_of m c r h4).trans (V4_V0 m c r h0 h1 h2 h3)
theorem V8_V0 (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide) : V8 m c r = m ((c : Thread nD τ).loc r) :=
  (V8_of m c r h7).trans <| (V7_of m c r h6).trans (V6_V0 m c r h0 h1 h2 h3 h4 h5)
theorem V9_V0 (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide) (h8 : r ∉ hostOps0_8_W := by decide) :
    V9 m c r = m ((c : Thread nD τ).loc r) :=
  (V9_of m c r h8).trans (V8_V0 m c r h0 h1 h2 h3 h4 h5 h6 h7)

end Keep

/-! ## The chains, buffer by buffer -/

section Chains

variable (c : Dev nD)

/-- The first relation's clipped source-degree count, left in `main_v4` by the first call of the clip. -/
theorem V2_main_v4 : V2 m c main_v4 = count50 (m ((c : Thread nD τ).loc main_arg7)) := by
  rw [show V2 m c main_v4 = _ from s1_main_v4 (V1 m c), show V1 m c main_cst_1 = _ from s0_main_cst_1 (V0 m c),
    show V1 m c main_v3 = _ from s0_main_v3 (V0 m c)]
  rfl
theorem V4_main_v4 : V4 m c main_v4 = count50 (m ((c : Thread nD τ).loc main_arg7)) :=
  (V4_of m c main_v4 (by decide)).trans <| (V3_of m c main_v4 (by decide)).trans (V2_main_v4 m c)

/-- The ones over the edges, shared by the first two counts. -/
theorem V2_main_v0 : V2 m c main_v0 = broadcastInDim S1000000 ![] bcast_S_S1000000 (constant S_ .f32 0x3F800000#32) :=
  (V2_of m c main_v0 (by decide)).trans (s0_main_v0 (V0 m c))

/-- The first relation's clipped destination-degree count, left in `main_v8`. -/
theorem V4_main_v8 : V4 m c main_v8 = degFlow (m ((c : Thread nD τ).loc main_arg8)) := by
  rw [show V4 m c main_v8 = _ from s3_main_v8 (V3 m c), show V3 m c main_cst_3 = _ from s2_main_cst_3 (V2 m c),
    show V3 m c main_v7 = _ from s2_main_v7 (V2 m c), V2_main_v0, V2_V0 m c main_arg8]
  rfl
theorem V8_main_v8 : V8 m c main_v8 = degFlow (m ((c : Thread nD τ).loc main_arg8)) :=
  (V8_of m c main_v8 (by decide)).trans <| (V7_of m c main_v8 (by decide)).trans <| (V6_of m c main_v8 (by decide)).trans <|
    (V5_of m c main_v8 (by decide)).trans (V4_main_v8 m c)

/-- The first relation's neighbour sum, left in `main_v22`. -/
theorem V5_main_v22 : V5 m c main_v22 = aggFlow (m ((c : Thread nD τ).loc main_arg0)) (m ((c : Thread nD τ).loc main_arg7))
    (m ((c : Thread nD τ).loc main_arg8)) := by
  rw [show V5 m c main_v22 = _ from s4_main_v22 (V4 m c), V4_main_v4, V4_V0 m c main_arg0, V4_V0 m c main_arg7, V4_V0 m c main_arg8]
  rfl
theorem V9_main_v22 : V9 m c main_v22 = aggFlow (m ((c : Thread nD τ).loc main_arg0)) (m ((c : Thread nD τ).loc main_arg7))
    (m ((c : Thread nD τ).loc main_arg8)) :=
  (V9_of m c main_v22 (by decide)).trans <| (V8_of m c main_v22 (by decide)).trans <| (V7_of m c main_v22 (by decide)).trans <|
    (V6_of m c main_v22 (by decide)).trans (V5_main_v22 m c)

/-- The second relation's clipped source-degree count, left in `main_v27`. -/
theorem V6_main_v27 : V6 m c main_v27 = count200 (m ((c : Thread nD τ).loc main_arg9)) := by
  rw [show V6 m c main_v27 = _ from s5_main_v27 (V5 m c), show V5 m c main_cst_8 = _ from s4_main_cst_8 (V4 m c),
    show V5 m c main_v26 = _ from s4_main_v26 (V4 m c), V4_V0 m c main_arg9]
  rfl
theorem V8_main_v27 : V8 m c main_v27 = count200 (m ((c : Thread nD τ).loc main_arg9)) :=
  (V8_of m c main_v27 (by decide)).trans <| (V7_of m c main_v27 (by decide)).trans (V6_main_v27 m c)

/-- The ones over the edges, shared by the last two counts. -/
theorem V6_main_v23 : V6 m c main_v23 = broadcastInDim S1000000 ![] bcast_S_S1000000 (constant S_ .f32 0x3F800000#32) :=
  (V6_of m c main_v23 (by decide)).trans (s4_main_v23 (V4 m c))

/-- The second relation's clipped destination-degree count, left in `main_v31`. -/
theorem V8_main_v31 : V8 m c main_v31 = degEp (m ((c : Thread nD τ).loc main_arg10)) := by
  rw [show V8 m c main_v31 = _ from s7_main_v31 (V7 m c), show V7 m c main_cst_10 = _ from s6_main_cst_10 (V6 m c),
    show V7 m c main_v30 = _ from s6_main_v30 (V6 m c), V6_main_v23, V6_V0 m c main_arg10]
  rfl
theorem V9_main_v31 : V9 m c main_v31 = degEp (m ((c : Thread nD τ).loc main_arg10)) :=
  (V9_of m c main_v31 (by decide)).trans (V8_main_v31 m c)

/-- The second relation's neighbour sum, left in `main_v45`. -/
theorem V9_main_v45 : V9 m c main_v45 = aggEp (m ((c : Thread nD τ).loc main_arg1)) (m ((c : Thread nD τ).loc main_arg9))
    (m ((c : Thread nD τ).loc main_arg10)) := by
  rw [show V9 m c main_v45 = _ from s8_main_v45 (V8 m c), V8_main_v27, V8_V0 m c main_arg1, V8_V0 m c main_arg9, V8_V0 m c main_arg10]
  rfl

end Chains

/-! ## Region 0's entry -/

section Region0

variable (c : Dev nD)

/-- The degree column region 0 reads: the first relation's destination-degree count, one entry per row. -/
theorem V9_main_v46 : V9 m c main_v46
    = (shapeCast S200000x1 (degFlow (m ((c : Thread nD τ).loc main_arg8))) shapeCasts_S200000_S200000x1 : Vec F S200000x1 .f32) :=
  (s8_main_v46 (V8 m c)).trans (by rw [V8_main_v8])

theorem V9_main_v46_apply (i : S200000x1.Idx) : (V9 m c main_v46 : Vec F S200000x1 .f32) i
    = degFlow (m ((c : Thread nD τ).loc main_arg8)) (ValueIdx.ix1 ⟨(i 0).val, (i 0).isLt⟩) := by
  rw [V9_main_v46]
  refine shapeCast_apply _ _ i _ ?_
  have h1 : (i 1).val < 1 := (i 1).isLt
  rw [Shape.rowMajor_val_one, Shape.rowMajor_val_two]
  show (i 0).val = (i 0).val * 1 + (i 1).val
  omega

/-- The bias row region 0 reads: the first relation's bias, as one row. -/
theorem V9_main_v47 : V9 m c main_v47
    = (shapeCast S1x128 ((m ((c : Thread nD τ).loc main_arg3)) : Vec F S128 .f32) shapeCasts_S128_S1x128 : Vec F S1x128 .f32) :=
  (s8_main_v47 (V8 m c)).trans (by rw [V8_V0 m c main_arg3])

theorem V9_main_v47_apply (i : S1x128.Idx) : (V9 m c main_v47 : Vec F S1x128 .f32) i
    = ((m ((c : Thread nD τ).loc main_arg3)) : Vec F S128 .f32) (ValueIdx.ix1 ⟨(i 1).val, (i 1).isLt⟩) := by
  rw [V9_main_v47]
  refine shapeCast_apply _ _ i _ ?_
  have h0 : (i 0).val < 1 := (i 0).isLt
  show (S128.rowMajor (ValueIdx.ix1 ⟨(i 1).val, (i 1).isLt⟩)).val = (S1x128.rowMajor i).val
  rw [Shape.rowMajor_val_one, Shape.rowMajor_val_two]
  show (i 1).val = (i 0).val * 128 + (i 1).val
  omega

theorem V9_main_arg1 : V9 m c main_arg1 = (m ((c : Thread nD τ).loc main_arg1)) := V9_V0 m c main_arg1
theorem V9_main_arg2 : V9 m c main_arg2 = (m ((c : Thread nD τ).loc main_arg2)) := V9_V0 m c main_arg2
theorem V9_main_arg6 : V9 m c main_arg6 = (m ((c : Thread nD τ).loc main_arg6)) := V9_V0 m c main_arg6

end Region0

/-! ## Region 1's entry

Region 0 may change `main_v48` only, so region 1 is entered, after the two reshapes, from contents `W` that agree with
region 0's entry everywhere else. -/

section Region1

variable (c : Dev nD) (W : Valuation τ sig (Elt F)) (hW : ∀ r : Ref sig .tc, r ≠ main_v48 → W r = V9 m c r)
include hW

theorem E1_keep (r : Ref sig .tc) (h : r ∉ hostOps1_W := by decide) (h' : r ≠ main_v48 := by decide) :
    after hostOps1 W r = V9 m c r :=
  (after_of_writes_sub hostOps1 W hostOps1_writes h).trans (hW r h')

theorem E1_main_v45 : after hostOps1 W main_v45 = aggEp (m ((c : Thread nD τ).loc main_arg1)) (m ((c : Thread nD τ).loc main_arg9)) (m ((c : Thread nD τ).loc main_arg10)) :=
  (E1_keep m c W hW main_v45).trans (V9_main_v45 m c)

/-- The degree column region 1 reads: the second relation's destination-degree count, one entry per row. -/
theorem E1_main_v49 : after hostOps1 W main_v49
    = (shapeCast S50000x1 (degEp (m ((c : Thread nD τ).loc main_arg10))) shapeCasts_S50000_S50000x1 : Vec F S50000x1 .f32) :=
  (s9_main_v49 W).trans (by rw [hW main_v31 (by decide), V9_main_v31])

theorem E1_main_v49_apply (i : S50000x1.Idx) : (after hostOps1 W main_v49 : Vec F S50000x1 .f32) i
    = degEp (m ((c : Thread nD τ).loc main_arg10)) (ValueIdx.ix1 ⟨(i 0).val, (i 0).isLt⟩) := by
  rw [E1_main_v49 m c W hW]
  refine shapeCast_apply _ _ i _ ?_
  have h1 : (i 1).val < 1 := (i 1).isLt
  rw [Shape.rowMajor_val_one, Shape.rowMajor_val_two]
  show (i 0).val = (i 0).val * 1 + (i 1).val
  omega

/-- The bias row region 1 reads: the second relation's bias, as one row. -/
theorem E1_main_v50 : after hostOps1 W main_v50
    = (shapeCast S1x128 ((m ((c : Thread nD τ).loc main_arg5)) : Vec F S128 .f32) shapeCasts_S128_S1x128 : Vec F S1x128 .f32) :=
  (s9_main_v50 W).trans (by rw [hW main_arg5 (by decide), V9_V0 m c main_arg5])

theorem E1_main_v50_apply (i : S1x128.Idx) : (after hostOps1 W main_v50 : Vec F S1x128 .f32) i
    = ((m ((c : Thread nD τ).loc main_arg5)) : Vec F S128 .f32) (ValueIdx.ix1 ⟨(i 1).val, (i 1).isLt⟩) := by
  rw [E1_main_v50 m c W hW]
  refine shapeCast_apply _ _ i _ ?_
  have h0 : (i 0).val < 1 := (i 0).isLt
  show (S128.rowMajor (ValueIdx.ix1 ⟨(i 1).val, (i 1).isLt⟩)).val = (S1x128.rowMajor i).val
  rw [Shape.rowMajor_val_one, Shape.rowMajor_val_two]
  show (i 1).val = (i 0).val * 128 + (i 1).val
  omega

theorem E1_main_arg0 : after hostOps1 W main_arg0 = (m ((c : Thread nD τ).loc main_arg0)) := (E1_keep m c W hW main_arg0).trans (V9_V0 m c main_arg0)
theorem E1_main_arg4 : after hostOps1 W main_arg4 = (m ((c : Thread nD τ).loc main_arg4)) := (E1_keep m c W hW main_arg4).trans (V9_V0 m c main_arg4)
theorem E1_main_arg6 : after hostOps1 W main_arg6 = (m ((c : Thread nD τ).loc main_arg6)) := (E1_keep m c W hW main_arg6).trans (V9_V0 m c main_arg6)

end Region1

/-- The generated valuation after region 0 is such contents. -/
theorem V10_agrees (c : Dev nD) (r : Ref sig .tc) (h : r ≠ main_v48) : V10 m outs c r = V9 m c r :=
  V10_of m outs c r (by simpa using h)

/-! ## The same, at the generated contents after region 0 -/

section Region1Gen

variable (c : Dev nD)

theorem V11_main_v45 : V11 m outs c main_v45 = aggEp (m ((c : Thread nD τ).loc main_arg1)) (m ((c : Thread nD τ).loc main_arg9)) (m ((c : Thread nD τ).loc main_arg10)) :=
  E1_main_v45 m c (V10 m outs c) (V10_agrees m outs c)
theorem V11_main_v49 : V11 m outs c main_v49
    = (shapeCast S50000x1 (degEp (m ((c : Thread nD τ).loc main_arg10))) shapeCasts_S50000_S50000x1 : Vec F S50000x1 .f32) :=
  E1_main_v49 m c (V10 m outs c) (V10_agrees m outs c)
theorem V11_main_v49_apply (i : S50000x1.Idx) : (V11 m outs c main_v49 : Vec F S50000x1 .f32) i
    = degEp (m ((c : Thread nD τ).loc main_arg10)) (ValueIdx.ix1 ⟨(i 0).val, (i 0).isLt⟩) :=
  E1_main_v49_apply m c (V10 m outs c) (V10_agrees m outs c) i
theorem V11_main_v50 : V11 m outs c main_v50
    = (shapeCast S1x128 ((m ((c : Thread nD τ).loc main_arg5)) : Vec F S128 .f32) shapeCasts_S128_S1x128 : Vec F S1x128 .f32) :=
  E1_main_v50 m c (V10 m outs c) (V10_agrees m outs c)
theorem V11_main_v50_apply (i : S1x128.Idx) : (V11 m outs c main_v50 : Vec F S1x128 .f32) i
    = ((m ((c : Thread nD τ).loc main_arg5)) : Vec F S128 .f32) (ValueIdx.ix1 ⟨(i 1).val, (i 1).isLt⟩) :=
  E1_main_v50_apply m c (V10 m outs c) (V10_agrees m outs c) i
theorem V11_main_arg0 : V11 m outs c main_arg0 = (m ((c : Thread nD τ).loc main_arg0)) := E1_main_arg0 m c (V10 m outs c) (V10_agrees m outs c)
theorem V11_main_arg4 : V11 m outs c main_arg4 = (m ((c : Thread nD τ).loc main_arg4)) := E1_main_arg4 m c (V10 m outs c) (V10_agrees m outs c)
theorem V11_main_arg6 : V11 m outs c main_arg6 = (m ((c : Thread nD τ).loc main_arg6)) := E1_main_arg6 m c (V10 m outs c) (V10_agrees m outs c)

end Region1Gen

end Cert.KernelIdeal.Entry

end
-- ==== Proof.KIValue.lean ====
/-
  What the idealized kernel computes, over the extended reals: each result array is ONE whole-array function of the
  arguments — the per-relation combine `(agg · rsqrt deg) ⬝ W + x ⬝ W_self + b` of the aggregate and the clipped
  in-degree the host operations build (carried as named terms, never opened), the self-loop input, the two matrices
  and the bias. The degree reaches the launch reshaped to a column and the bias to a row; `colOf` / `rowOf` read them
  back from the rank-1 arrays.
-/
import proofs.«135838_j85152021611242_1_alg».proof.Proof.KIRun
import proofs.«135838_j85152021611242_1_alg».proof.Proof.KILocal
import proofs.«135838_j85152021611242_1_alg».proof.Proof.KIFinal
import proofs.«135838_j85152021611242_1_alg».proof.Proof.KIEntry
import proofs.«135838_j85152021611242_1_alg».proof.Proof.Spec

noncomputable section

namespace Cert.KernelIdeal.Final

open Cert.KernelIdeal Cert.KernelIdeal.Gen Cert.KernelIdeal.Data Cert.KernelIdeal.Run Cert.KernelIdeal.Entry Cert.KernelIdeal.Local
open Idealize.ShloMosaic Idealize.ShloMosaic.TcCoe Idealize.SL.Sem

/-- A rank-1 array read as an `n × 1` column. -/
abbrev colOf {n : Nat} (d : (⟨1, ![n]⟩ : Shape).Idx → EReal) : (⟨2, ![n, 1]⟩ : Shape).Idx → EReal :=
  fun i => d (ValueIdx.ix1 ⟨(i 0).val, (i 0).isLt⟩)
/-- A rank-1 array of 128 entries read as a `1 × 128` row. -/
abbrev rowOf (b : (⟨1, ![128]⟩ : Shape).Idx → EReal) : (⟨2, ![1, 128]⟩ : Shape).Idx → EReal :=
  fun i => b (ValueIdx.ix1 ⟨(i 1).val, (i 1).isLt⟩)

variable (m : (ℓ : Loc nD τ sig) → Buf (Elt Ideal) ℓ) (ρ : Dev nD → PrngReg)

/-- The flow nodes' result: endpoints aggregated along `links_to`, combined with the flows' own features. -/
def flowOut (c : Dev nD) : (⟨2, ![200000, 128]⟩ : Shape).Idx → EReal :=
  Cert.Spec.combine 200000
    (aggFlow (F := Ideal) (m ((c : Thread nD τ).loc main_arg0)) (m ((c : Thread nD τ).loc main_arg7)) (m ((c : Thread nD τ).loc main_arg8)))
    (colOf (degFlow (F := Ideal) (m ((c : Thread nD τ).loc main_arg8))))
    (m ((c : Thread nD τ).loc main_arg1)) (m ((c : Thread nD τ).loc main_arg2))
    (rowOf (m ((c : Thread nD τ).loc main_arg3))) (m ((c : Thread nD τ).loc main_arg6))

/-- The endpoint nodes' result: flows aggregated along `depends_on`, combined with the endpoints' own features. -/
def epOut (c : Dev nD) : (⟨2, ![50000, 128]⟩ : Shape).Idx → EReal :=
  Cert.Spec.combine 50000
    (aggEp (F := Ideal) (m ((c : Thread nD τ).loc main_arg1)) (m ((c : Thread nD τ).loc main_arg9)) (m ((c : Thread nD τ).loc main_arg10)))
    (colOf (degEp (F := Ideal) (m ((c : Thread nD τ).loc main_arg10))))
    (m ((c : Thread nD τ).loc main_arg0)) (m ((c : Thread nD τ).loc main_arg4))
    (rowOf (m ((c : Thread nD τ).loc main_arg5))) (m ((c : Thread nD τ).loc main_arg6))

/-- The first launch's result array after its write-backs is `flowOut`: the final array is the combine of the entry
    arrays, and the host operations put the shared chains there. -/
theorem flow_eq (c : Dev nD) : (dat0 (F := Ideal) (E0 m) c).arrAt 6 cfg0.N = flowOut m c := by
  rw [final0 (E0 m) c]
  unfold flowOut
  show Cert.Spec.combine 200000 (V9 m c main_v22) (V9 m c main_v46) (V9 m c main_arg1) (V9 m c main_arg2) (V9 m c main_v47) (V9 m c main_arg6) = _
  rw [V9_main_v22, V9_main_arg1, V9_main_arg2, V9_main_arg6,
    show (V9 m c main_v46 : Vec Ideal S200000x1 .f32) = colOf (degFlow (F := Ideal) (m ((c : Thread nD τ).loc main_arg8))) from funext (V9_main_v46_apply m c),
    show (V9 m c main_v47 : Vec Ideal S1x128 .f32) = rowOf (m ((c : Thread nD τ).loc main_arg3)) from funext (V9_main_v47_apply m c)]

/-- The first launch leaves every buffer but its result as the host stretches left it. -/
theorem W10_agrees (c : Dev nD) : ∀ r : Ref sig .tc, r ≠ main_v48 → W10 m c r = V9 m c r := fun r h => W10_keep m c r h

theorem ep_eq (c : Dev nD) : (dat1 (F := Ideal) (E1 m) c).arrAt 6 cfg1.N = epOut m c := by
  rw [final1 (E1 m) c]
  unfold epOut
  show Cert.Spec.combine 50000 (StableHlo.after hostOps1 (W10 m c) main_v45) (StableHlo.after hostOps1 (W10 m c) main_v49)
    (StableHlo.after hostOps1 (W10 m c) main_arg0) (StableHlo.after hostOps1 (W10 m c) main_arg4)
    (StableHlo.after hostOps1 (W10 m c) main_v50) (StableHlo.after hostOps1 (W10 m c) main_arg6) = _
  rw [E1_main_v45 m c (W10 m c) (W10_agrees m c), E1_main_arg0 m c (W10 m c) (W10_agrees m c),
    E1_main_arg4 m c (W10 m c) (W10_agrees m c), E1_main_arg6 m c (W10 m c) (W10_agrees m c),
    show (StableHlo.after hostOps1 (W10 m c) main_v49 : Vec Ideal S50000x1 .f32) = colOf (degEp (F := Ideal) (m ((c : Thread nD τ).loc main_arg10)))
      from funext (E1_main_v49_apply m c (W10 m c) (W10_agrees m c)),
    show (StableHlo.after hostOps1 (W10 m c) main_v50 : Vec Ideal S1x128 .f32) = rowOf (m ((c : Thread nD τ).loc main_arg5))
      from funext (E1_main_v50_apply m c (W10 m c) (W10_agrees m c))]

/-- THE IDEALIZED KERNEL'S RUN WITH ITS VALUES: every weakly fair execution terminates with the two result arrays at
    `flowOut` and `epOut` and the arguments unchanged. -/
theorem kernel_run : θ_run defs (onTc (τ := τ) (main (F := Ideal))) ⟨m, fun _ => 0, ρ⟩ (fun r => ∀ c : Dev nD,
      r.2.mem ((c.tc : Thread nD τ).loc main_v48) = flowOut m c
      ∧ r.2.mem ((c.tc : Thread nD τ).loc main_v51) = epOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (flow_eq m c), (h c).2.1.trans (ep_eq m c), (h c).2.2⟩)
    (Run.run (F := Ideal) m (fun c => local0 (E0 m) c) (fun c => local1 (E1 m) c) ρ)

end Cert.KernelIdeal.Final

end
-- ==== Proof.RefTail.lean ====
/-
  The end of the reference program at the extended reals, entry by entry.
  For each of its two relations the reference finishes with the same eight operations on the relation's aggregate
  agg and in-degree deg:   ((agg · rsqrt deg) ⬝ W + b) + x ⬝ W_self,   the degree (a rank-1 array) made a column
  and spread along the features, the bias (a rank-1 array) made a row and spread along the nodes. Read at the entry
  (p, q) this is   (Σₖ (agg p k · rsqrt (deg p)) · W k q + b q) + Σₖ x p k · W_self k q,   which is the
  specification's entry with the bias added before the self-loop term.
-/
import proofs.«135838_j85152021611242_1_alg».proof.Proof.Gen.ReferenceIdeal.Read
import proofs.«135838_j85152021611242_1_alg».proof.Proof.Spec
import Idealize.ShloMosaic.PureOps.Ideal.Laws
import Idealize.ShloMosaic.Lib.ValueIdx
import Idealize.ShloMosaic.Lib.Pipeline.Value

noncomputable section

namespace Cert.ReferenceIdeal.Tail

open Cert.ReferenceIdeal Cert.ReferenceIdeal.Gen Cert.ReferenceIdeal.Read
open Idealize.ShloMosaic Idealize.ShloMosaic.ValueIdx

/-! ## The two tails, as terms -/

/-- The reference's last eight operations for this relation, over the aggregate, the degree, the self-loop input,
    the two matrices and the bias. -/
def tail200 (agg : Vec Ideal S200000x128 .f32) (deg : Vec Ideal S200000 .f32) (x : Vec Ideal S200000x128 .f32)
    (w : Vec Ideal S128x128 .f32) (b : Vec Ideal S128 .f32) (ws : Vec Ideal S128x128 .f32) : Vec Ideal S200000x128 .f32 :=
  addf (F := Ideal) (φ := .f32) (addf (Host.dotGeneral (φ₁ := .f32) (φ₂ := .f32) dot_S200000x128_S128x128_S200000x128_1_0_0_1_n_n none (mulf (φ := .f32) agg (broadcastInDim S200000x128 ![0, 1] bcast_S200000x1_S200000x128_0_1 (broadcastInDim S200000x1 ![0] bcast_S200000_S200000x1_0 (Host.rsqrt (φ := .f32) deg)))) w) (broadcastInDim S200000x128 ![0, 1] bcast_S1x128_S200000x128_0_1 (broadcastInDim S1x128 ![1] bcast_S128_S1x128_1 b))) (Host.dotGeneral (φ₁ := .f32) (φ₂ := .f32) dot_S200000x128_S128x128_S200000x128_1_0_0_1_n_n none x ws)

/-- The reference's last eight operations for this relation, over the aggregate, the degree, the self-loop input,
    the two matrices and the bias. -/
def tail50 (agg : Vec Ideal S50000x128 .f32) (deg : Vec Ideal S50000 .f32) (x : Vec Ideal S50000x128 .f32)
    (w : Vec Ideal S128x128 .f32) (b : Vec Ideal S128 .f32) (ws : Vec Ideal S128x128 .f32) : Vec Ideal S50000x128 .f32 :=
  addf (F := Ideal) (φ := .f32) (addf (Host.dotGeneral (φ₁ := .f32) (φ₂ := .f32) dot_S50000x128_S128x128_S50000x128_1_0_0_1_n_n none (mulf (φ := .f32) agg (broadcastInDim S50000x128 ![0, 1] bcast_S50000x1_S50000x128_0_1 (broadcastInDim S50000x1 ![0] bcast_S50000_S50000x1_0 (Host.rsqrt (φ := .f32) deg)))) w) (broadcastInDim S50000x128 ![0, 1] bcast_S1x128_S50000x128_0_1 (broadcastInDim S1x128 ![1] bcast_S128_S1x128_1 b))) (Host.dotGeneral (φ₁ := .f32) (φ₂ := .f32) dot_S50000x128_S128x128_S50000x128_1_0_0_1_n_n none x ws)

/-! ## The relation over 200000 nodes -/

/-- A block times a square matrix on the host: at (p, c) the sum over k of y p k · m k c. -/
theorem dot200000_apply (y : FVec Ideal S200000x128 .f32) (m : FVec Ideal S128x128 .f32) (p : Fin 200000) (c : Fin 128) :
    Host.dotGeneral dot_S200000x128_S128x128_S200000x128_1_0_0_1_n_n none y m (ix2 p c) = ∑ k : Fin 128, y (ix2 p k) * m (ix2 k c) := by
  have h := val_main_v62_apply y m (ix2 p c)
  unfold val_main_v62 at h
  rw [h]
  refine Finset.sum_congr rfl fun k _ => ?_
  have el : lidx_main_v62 (ix2 p c) k = ix2 p k := funext fun a => by
    match a with
    | ⟨0, _⟩ => rfl
    | ⟨1, _⟩ => rfl
  have er : ridx_main_v62 (ix2 p c) k = ix2 k c := funext fun a => by
    match a with
    | ⟨0, _⟩ => rfl
    | ⟨1, _⟩ => rfl
  rw [el, er]

/-- A rank-1 array made a column and spread along the features reads, at (p, c), its entry p. -/
theorem col200000_apply {α : Type} (v : S200000.Idx → α) (p : Fin 200000) (c : Fin 128) :
    broadcastInDim S200000x128 ![0, 1] bcast_S200000x1_S200000x128_0_1 (broadcastInDim S200000x1 ![0] bcast_S200000_S200000x1_0 v) (ix2 p c) = v (ix1 p) := by
  rw [broadcastInDim_apply _ bcast_S200000x1_S200000x128_0_1 _ (ix2 p c) (ix2 p (0 : Fin 1)) (fun a => match a with
    | ⟨0, _⟩ => by show p.val = if (200000 : Nat) = 1 then 0 else p.val; rw [if_neg (by decide)]
    | ⟨1, _⟩ => by show 0 = if (1 : Nat) = 1 then 0 else c.val; rw [if_pos rfl])]
  exact broadcastInDim_apply _ bcast_S200000_S200000x1_0 v (ix2 p (0 : Fin 1)) (ix1 p) (fun a => match a with
    | ⟨0, _⟩ => by show p.val = if (200000 : Nat) = 1 then 0 else p.val; rw [if_neg (by decide)])

/-- A rank-1 array made a row and spread along the nodes reads, at (p, c), its entry c. -/
theorem row200000_apply {α : Type} (v : S128.Idx → α) (p : Fin 200000) (c : Fin 128) :
    broadcastInDim S200000x128 ![0, 1] bcast_S1x128_S200000x128_0_1 (broadcastInDim S1x128 ![1] bcast_S128_S1x128_1 v) (ix2 p c) = v (ix1 c) := by
  rw [broadcastInDim_apply _ bcast_S1x128_S200000x128_0_1 _ (ix2 p c) (ix2 (0 : Fin 1) c) (fun a => match a with
    | ⟨0, _⟩ => by show 0 = if (1 : Nat) = 1 then 0 else p.val; rw [if_pos rfl]
    | ⟨1, _⟩ => by show c.val = if (128 : Nat) = 1 then 0 else c.val; rw [if_neg (by decide)])]
  exact broadcastInDim_apply _ bcast_S128_S1x128_1 v (ix2 (0 : Fin 1) c) (ix1 c) (fun a => match a with
    | ⟨0, _⟩ => by show c.val = if (128 : Nat) = 1 then 0 else c.val; rw [if_neg (by decide)])

/-- Its entry (p, q): the scaled aggregate row times W, plus the bias, plus the self-loop row times W_self. -/
theorem tail200_apply (agg : Vec Ideal S200000x128 .f32) (deg : Vec Ideal S200000 .f32) (x : Vec Ideal S200000x128 .f32)
    (w : Vec Ideal S128x128 .f32) (b : Vec Ideal S128 .f32) (ws : Vec Ideal S128x128 .f32) (p : Fin 200000) (q : Fin 128) :
    tail200 agg deg x w b ws (ix2 p q)
      = ((∑ k : Fin 128, (agg (ix2 p k) * Ideal.rsqrt (deg (ix1 p))) * w (ix2 k q)) + b (ix1 q))
        + (∑ k : Fin 128, x (ix2 p k) * ws (ix2 k q)) := by
  unfold tail200
  rw [addf_apply, addf_apply, dot200000_apply, dot200000_apply, row200000_apply]
  congr 2
  refine Finset.sum_congr rfl fun k _ => ?_
  rw [mulf_apply, col200000_apply]
  rfl

theorem tail200_eq (agg : Vec Ideal S200000x128 .f32) (deg : Vec Ideal S200000 .f32) (x : Vec Ideal S200000x128 .f32)
    (w : Vec Ideal S128x128 .f32) (b : Vec Ideal S128 .f32) (ws : Vec Ideal S128x128 .f32) :
    tail200 agg deg x w b ws
      = Cert.Spec.combine 200000 agg (fun i => deg (ValueIdx.ix1 ⟨(i 0).val, (i 0).isLt⟩)) x w
          (fun i => b (ValueIdx.ix1 ⟨(i 1).val, (i 1).isLt⟩)) ws := by
  funext i
  obtain ⟨p, q, rfl⟩ : ∃ (p : Fin 200000) (q : Fin 128), i = ValueIdx.ix2 p q := ⟨i 0, i 1, ValueIdx.eq_ix2 i⟩
  rw [tail200_apply]
  exact Cert.Spec.rowOut_bias_first (fun k => agg (ix2 p k)) (deg (ix1 p)) (fun k => x (ix2 p k))
    (fun k c => w (ix2 k c)) (fun k c => ws (ix2 k c)) (fun c => b (ix1 c)) q

/-! ## The relation over 50000 nodes -/

/-- A block times a square matrix on the host: at (p, c) the sum over k of y p k · m k c. -/
theorem dot50000_apply (y : FVec Ideal S50000x128 .f32) (m : FVec Ideal S128x128 .f32) (p : Fin 50000) (c : Fin 128) :
    Host.dotGeneral dot_S50000x128_S128x128_S50000x128_1_0_0_1_n_n none y m (ix2 p c) = ∑ k : Fin 128, y (ix2 p k) * m (ix2 k c) := by
  have h := val_main_v64_apply y m (ix2 p c)
  unfold val_main_v64 at h
  rw [h]
  refine Finset.sum_congr rfl fun k _ => ?_
  have el : lidx_main_v64 (ix2 p c) k = ix2 p k := funext fun a => by
    match a with
    | ⟨0, _⟩ => rfl
    | ⟨1, _⟩ => rfl
  have er : ridx_main_v64 (ix2 p c) k = ix2 k c := funext fun a => by
    match a with
    | ⟨0, _⟩ => rfl
    | ⟨1, _⟩ => rfl
  rw [el, er]

/-- A rank-1 array made a column and spread along the features reads, at (p, c), its entry p. -/
theorem col50000_apply {α : Type} (v : S50000.Idx → α) (p : Fin 50000) (c : Fin 128) :
    broadcastInDim S50000x128 ![0, 1] bcast_S50000x1_S50000x128_0_1 (broadcastInDim S50000x1 ![0] bcast_S50000_S50000x1_0 v) (ix2 p c) = v (ix1 p) := by
  rw [broadcastInDim_apply _ bcast_S50000x1_S50000x128_0_1 _ (ix2 p c) (ix2 p (0 : Fin 1)) (fun a => match a with
    | ⟨0, _⟩ => by show p.val = if (50000 : Nat) = 1 then 0 else p.val; rw [if_neg (by decide)]
    | ⟨1, _⟩ => by show 0 = if (1 : Nat) = 1 then 0 else c.val; rw [if_pos rfl])]
  exact broadcastInDim_apply _ bcast_S50000_S50000x1_0 v (ix2 p (0 : Fin 1)) (ix1 p) (fun a => match a with
    | ⟨0, _⟩ => by show p.val = if (50000 : Nat) = 1 then 0 else p.val; rw [if_neg (by decide)])

/-- A rank-1 array made a row and spread along the nodes reads, at (p, c), its entry c. -/
theorem row50000_apply {α : Type} (v : S128.Idx → α) (p : Fin 50000) (c : Fin 128) :
    broadcastInDim S50000x128 ![0, 1] bcast_S1x128_S50000x128_0_1 (broadcastInDim S1x128 ![1] bcast_S128_S1x128_1 v) (ix2 p c) = v (ix1 c) := by
  rw [broadcastInDim_apply _ bcast_S1x128_S50000x128_0_1 _ (ix2 p c) (ix2 (0 : Fin 1) c) (fun a => match a with
    | ⟨0, _⟩ => by show 0 = if (1 : Nat) = 1 then 0 else p.val; rw [if_pos rfl]
    | ⟨1, _⟩ => by show c.val = if (128 : Nat) = 1 then 0 else c.val; rw [if_neg (by decide)])]
  exact broadcastInDim_apply _ bcast_S128_S1x128_1 v (ix2 (0 : Fin 1) c) (ix1 c) (fun a => match a with
    | ⟨0, _⟩ => by show c.val = if (128 : Nat) = 1 then 0 else c.val; rw [if_neg (by decide)])

/-- Its entry (p, q): the scaled aggregate row times W, plus the bias, plus the self-loop row times W_self. -/
theorem tail50_apply (agg : Vec Ideal S50000x128 .f32) (deg : Vec Ideal S50000 .f32) (x : Vec Ideal S50000x128 .f32)
    (w : Vec Ideal S128x128 .f32) (b : Vec Ideal S128 .f32) (ws : Vec Ideal S128x128 .f32) (p : Fin 50000) (q : Fin 128) :
    tail50 agg deg x w b ws (ix2 p q)
      = ((∑ k : Fin 128, (agg (ix2 p k) * Ideal.rsqrt (deg (ix1 p))) * w (ix2 k q)) + b (ix1 q))
        + (∑ k : Fin 128, x (ix2 p k) * ws (ix2 k q)) := by
  unfold tail50
  rw [addf_apply, addf_apply, dot50000_apply, dot50000_apply, row50000_apply]
  congr 2
  refine Finset.sum_congr rfl fun k _ => ?_
  rw [mulf_apply, col50000_apply]
  rfl

theorem tail50_eq (agg : Vec Ideal S50000x128 .f32) (deg : Vec Ideal S50000 .f32) (x : Vec Ideal S50000x128 .f32)
    (w : Vec Ideal S128x128 .f32) (b : Vec Ideal S128 .f32) (ws : Vec Ideal S128x128 .f32) :
    tail50 agg deg x w b ws
      = Cert.Spec.combine 50000 agg (fun i => deg (ValueIdx.ix1 ⟨(i 0).val, (i 0).isLt⟩)) x w
          (fun i => b (ValueIdx.ix1 ⟨(i 1).val, (i 1).isLt⟩)) ws := by
  funext i
  obtain ⟨p, q, rfl⟩ : ∃ (p : Fin 50000) (q : Fin 128), i = ValueIdx.ix2 p q := ⟨i 0, i 1, ValueIdx.eq_ix2 i⟩
  rw [tail50_apply]
  exact Cert.Spec.rowOut_bias_first (fun k => agg (ix2 p k)) (deg (ix1 p)) (fun k => x (ix2 p k))
    (fun k c => w (ix2 k c)) (fun k c => ws (ix2 k c)) (fun c => b (ix1 c)) q

end Cert.ReferenceIdeal.Tail

end
-- ==== Proof.RefBridge.lean ====
/-
  The reference's run with its results named by the shared chains: each result is the relation's closing
  combine of the relation's neighbour sum and clipped destination-degree count, which are the same four
  chains of the arguments the kernel's host prologue computes. Nothing is evaluated: the run's composed term and
  the named one are the same text.
-/
import proofs.«135838_j85152021611242_1_alg».proof.Proof.Gen.ReferenceIdeal.Run
import proofs.«135838_j85152021611242_1_alg».proof.Proof.RefTail

noncomputable section

namespace Cert.ReferenceIdeal.Bridge

open Cert.ReferenceIdeal Cert.ReferenceIdeal.Gen
open Idealize.ShloMosaic Idealize.ShloMosaic.TcCoe Idealize.SL.Sem Idealize.ShloMosaic.StableHlo

section Chains

variable {F : FTy → Type} [FloatOps F]

/-! ## The shared chains, over the reference's own records -/

/-- How many of the million indices name each of 50000 nodes, and at least one: the count is a scatter-add of ones
    into zeros, clipped below at one. -/
def count50R (x : Vec F S1000000 .i32) : Vec F S50000 .f32 :=
  maximumf (broadcastInDim S50000 ![] bcast_S_S50000 (id (constant S_ .f32 0x3F800000#32))) (Host.scatterAdd scatter_S50000_S1000000x1_S1000000_n_0_0_1 (broadcastInDim S50000 ![] bcast_S_S50000 (constant S_ .f32 0x00000000#32)) (broadcastInDim S1000000x1 ![0] bcast_S1000000_S1000000x1_0 x) (broadcastInDim S1000000 ![] bcast_S_S1000000 (constant S_ .f32 0x3F800000#32)))

/-- The same count over 200000 nodes. -/
def count200R (x : Vec F S1000000 .i32) : Vec F S200000 .f32 :=
  maximumf (broadcastInDim S200000 ![] bcast_S_S200000 (id (constant S_ .f32 0x3F800000#32))) (Host.scatterAdd scatter_S200000_S1000000x1_S1000000_n_0_0_1 (broadcastInDim S200000 ![] bcast_S_S200000 (constant S_ .f32 0x00000000#32)) (broadcastInDim S1000000x1 ![0] bcast_S1000000_S1000000x1_0 x) (broadcastInDim S1000000 ![] bcast_S_S1000000 (constant S_ .f32 0x3F800000#32)))

/-- The first relation's neighbour sum: row `x8 e` of the result gathers, over the edges `e`, row `x7 e` (a negative
    index wrapped by 50000) of the input scaled by the inverse square root of its source-degree count. -/
def aggFlowR (x0 : Vec F S50000x128 .f32) (x7 x8 : Vec F S1000000 .i32) : Vec F S200000x128 .f32 :=
  Host.scatterAdd scatter_S200000x128_S1000000x1_S1000000x128_1_0_0_1 (broadcastInDim S200000x128 ![] bcast_S_S200000x128 (constant S_ .f32 0x00000000#32)) (broadcastInDim S1000000x1 ![0] bcast_S1000000_S1000000x1_0 x8) (Host.gather gather_S50000x128_S1000000x1_S1000000x128_1_0_n_n_0_1_1128 (mulf x0 (broadcastInDim S50000x128 ![0, 1] bcast_S50000x1_S50000x128_0_1 (broadcastInDim S50000x1 ![0] bcast_S50000_S50000x1_0 (Host.rsqrt (count50R x7))))) (broadcastInDim S1000000x1 ![0] bcast_S1000000_S1000000x1_0 (select (cmpi .slt x7 (broadcastInDim S1000000 ![] bcast_S_S1000000 (constantI S_ 32 0#32))) (addi x7 (broadcastInDim S1000000 ![] bcast_S_S1000000 (constantI S_ 32 50000#32))) x7)))

/-- The first relation's clipped destination-degree count. -/
def degFlowR (x8 : Vec F S1000000 .i32) : Vec F S200000 .f32 := count200R x8

/-- The second relation's neighbour sum, from 200000 source nodes into 50000 destination nodes. -/
def aggEpR (x1 : Vec F S200000x128 .f32) (x9 x10 : Vec F S1000000 .i32) : Vec F S50000x128 .f32 :=
  Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 x10) (Host.gather gather_S200000x128_S1000000x1_S1000000x128_1_0_n_n_0_1_1128 (mulf x1 (broadcastInDim S200000x128 ![0, 1] bcast_S200000x1_S200000x128_0_1 (broadcastInDim S200000x1 ![0] bcast_S200000_S200000x1_0 (Host.rsqrt (count200R x9))))) (broadcastInDim S1000000x1 ![0] bcast_S1000000_S1000000x1_0 (select (cmpi .slt x9 (broadcastInDim S1000000 ![] bcast_S_S1000000 (constantI S_ 32 0#32))) (addi x9 (broadcastInDim S1000000 ![] bcast_S_S1000000 (constantI S_ 32 200000#32))) x9)))

/-- The second relation's clipped destination-degree count. -/
def degEpR (x10 : Vec F S1000000 .i32) : Vec F S50000 .f32 := count50R x10

end Chains

/-! ## The run, named -/

/-- Every weakly fair execution of the reference terminates with each result at its relation's closing combine of the
    named chains of the arguments, the arguments unchanged. -/
theorem run_tail (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v63) = Tail.tail200 (aggFlowR (m ((c.tc : Thread nD τ).loc main_arg0)) (m ((c.tc : Thread nD τ).loc main_arg7)) (m ((c.tc : Thread nD τ).loc main_arg8))) (degFlowR (m ((c.tc : Thread nD τ).loc main_arg8))) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v65) = Tail.tail50 (aggEpR (m ((c.tc : Thread nD τ).loc main_arg1)) (m ((c.tc : Thread nD τ).loc main_arg9)) (m ((c.tc : Thread nD τ).loc main_arg10))) (degEpR (m ((c.tc : Thread nD τ).loc main_arg10))) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run Cert.ReferenceIdeal.defs _ _).mono (fun _ h c => ⟨(h c).1.trans rfl, (h c).2.1.trans rfl, (h c).2.2⟩)
    (Cert.ReferenceIdeal.Value.run (F := Ideal) m ρ)

end Cert.ReferenceIdeal.Bridge

end
-- ==== Proof.KIRefChains.lean ====
/-
  The shared chains are the same functions on the two sides. The kernel's program and the reference each carry their own
  copies of the shapes and of the scatter, gather and broadcast records; the copies are the same literals, so a chain
  stated over one side's copies is, by unfolding, the chain stated over the other's.
-/
import proofs.«135838_j85152021611242_1_alg».proof.Proof.KIEntry
import proofs.«135838_j85152021611242_1_alg».proof.Proof.RefBridge

noncomputable section

namespace Cert.KIRefChains

open Idealize.ShloMosaic

theorem count50_eq (x : Vec Ideal Cert.KernelIdeal.S1000000 .i32) :
    Cert.KernelIdeal.Entry.count50 (F := Ideal) x = Cert.ReferenceIdeal.Bridge.count50R (F := Ideal) x := rfl

theorem count200_eq (x : Vec Ideal Cert.KernelIdeal.S1000000 .i32) :
    Cert.KernelIdeal.Entry.count200 (F := Ideal) x = Cert.ReferenceIdeal.Bridge.count200R (F := Ideal) x := rfl

theorem degFlow_eq (x8 : Vec Ideal Cert.KernelIdeal.S1000000 .i32) :
    Cert.KernelIdeal.Entry.degFlow (F := Ideal) x8 = Cert.ReferenceIdeal.Bridge.degFlowR (F := Ideal) x8 := count200_eq x8

theorem degEp_eq (x10 : Vec Ideal Cert.KernelIdeal.S1000000 .i32) :
    Cert.KernelIdeal.Entry.degEp (F := Ideal) x10 = Cert.ReferenceIdeal.Bridge.degEpR (F := Ideal) x10 := count50_eq x10

theorem aggFlow_eq (x0 : Vec Ideal Cert.KernelIdeal.S50000x128 .f32) (x7 x8 : Vec Ideal Cert.KernelIdeal.S1000000 .i32) :
    Cert.KernelIdeal.Entry.aggFlow (F := Ideal) x0 x7 x8 = Cert.ReferenceIdeal.Bridge.aggFlowR (F := Ideal) x0 x7 x8 := by
  unfold Cert.KernelIdeal.Entry.aggFlow Cert.ReferenceIdeal.Bridge.aggFlowR
  rw [count50_eq]
  rfl

theorem aggEp_eq (x1 : Vec Ideal Cert.KernelIdeal.S200000x128 .f32) (x9 x10 : Vec Ideal Cert.KernelIdeal.S1000000 .i32) :
    Cert.KernelIdeal.Entry.aggEp (F := Ideal) x1 x9 x10 = Cert.ReferenceIdeal.Bridge.aggEpR (F := Ideal) x1 x9 x10 := by
  unfold Cert.KernelIdeal.Entry.aggEp Cert.ReferenceIdeal.Bridge.aggEpR
  rw [count200_eq]
  rfl

end Cert.KIRefChains

end
-- ==== Proof.KIRefEq.lean ====
/-
  Each result of the reference is the specification's combine of the chains as the kernel's side names them: the
  reference's closing operations read entry by entry are the combine, and the chains are the same functions on the two sides.
-/
import proofs.«135838_j85152021611242_1_alg».proof.Proof.KIRefChains
import proofs.«135838_j85152021611242_1_alg».proof.Proof.RefTail
import proofs.«135838_j85152021611242_1_alg».proof.Proof.Spec

noncomputable section

namespace Cert.KIRefChains

open Idealize.ShloMosaic

/-- The reference's first result, as the specification's combine of the kernel side's named chains. -/
theorem ref_flow_eq (x0 : Vec Ideal Cert.KernelIdeal.S50000x128 .f32) (x1 : Vec Ideal Cert.KernelIdeal.S200000x128 .f32)
    (x2 : Vec Ideal Cert.KernelIdeal.S128x128 .f32) (x3 : Vec Ideal Cert.KernelIdeal.S128 .f32)
    (x6 : Vec Ideal Cert.KernelIdeal.S128x128 .f32) (x7 x8 : Vec Ideal Cert.KernelIdeal.S1000000 .i32) :
    Cert.ReferenceIdeal.Tail.tail200 (Cert.ReferenceIdeal.Bridge.aggFlowR (F := Ideal) x0 x7 x8)
        (Cert.ReferenceIdeal.Bridge.degFlowR (F := Ideal) x8) x1 x2 x3 x6
      = Cert.Spec.combine 200000 (Cert.KernelIdeal.Entry.aggFlow (F := Ideal) x0 x7 x8)
          (fun i => Cert.KernelIdeal.Entry.degFlow (F := Ideal) x8 (ValueIdx.ix1 ⟨(i 0).val, (i 0).isLt⟩)) x1 x2
          (fun i => x3 (ValueIdx.ix1 ⟨(i 1).val, (i 1).isLt⟩)) x6 := by
  rw [Cert.ReferenceIdeal.Tail.tail200_eq, ← aggFlow_eq, ← degFlow_eq]

/-- The reference's second result, likewise. -/
theorem ref_ep_eq (x0 : Vec Ideal Cert.KernelIdeal.S50000x128 .f32) (x1 : Vec Ideal Cert.KernelIdeal.S200000x128 .f32)
    (x4 : Vec Ideal Cert.KernelIdeal.S128x128 .f32) (x5 : Vec Ideal Cert.KernelIdeal.S128 .f32)
    (x6 : Vec Ideal Cert.KernelIdeal.S128x128 .f32) (x9 x10 : Vec Ideal Cert.KernelIdeal.S1000000 .i32) :
    Cert.ReferenceIdeal.Tail.tail50 (Cert.ReferenceIdeal.Bridge.aggEpR (F := Ideal) x1 x9 x10)
        (Cert.ReferenceIdeal.Bridge.degEpR (F := Ideal) x10) x0 x4 x5 x6
      = Cert.Spec.combine 50000 (Cert.KernelIdeal.Entry.aggEp (F := Ideal) x1 x9 x10)
          (fun i => Cert.KernelIdeal.Entry.degEp (F := Ideal) x10 (ValueIdx.ix1 ⟨(i 0).val, (i 0).isLt⟩)) x0 x4
          (fun i => x5 (ValueIdx.ix1 ⟨(i 1).val, (i 1).isLt⟩)) x6 := by
  rw [Cert.ReferenceIdeal.Tail.tail50_eq, ← aggEp_eq, ← degEp_eq]

end Cert.KIRefChains

end
-- ==== Proof.lean ====
/-
  The certificate of a two-relation graph convolution layer: for each relation the kernel's fused launch computes
  `(agg · rsqrt deg) ⬝ W + x ⬝ W_self + b` on row blocks, the reference computes `((agg · rsqrt deg) ⬝ W + b) + x ⬝ W_self`
  on the whole arrays, and the aggregate `agg` and clipped in-degree `deg` are built by the same host operations on
  both sides. Over the extended reals the two agree entry by entry: the matrix products are the same finite sums, and
  moving the bias past the self-loop term is commutativity and associativity of addition, which hold at the
  infinities too — so the precondition is never opened.

  The five claims: the word-level program's frame (`Cert.Kernel.BitsFrame.frame`: at the word level a matrix product is
  an unnamed function of its whole operand, so the launches' result blocks are left unnamed there, and the arguments
  are shown untouched); the idealized kernel's run with both result arrays named (`Cert.KernelIdeal.Final.kernel_run`),
  which gives its frame; the reference's run, which gives its frame; `preserves`, which states nothing here (the ideal
  pass rewrote no operation); and `algebraic`: both runs end at the same two whole-array functions of the arguments.
-/
import proofs.«135838_j85152021611242_1_alg».proof.Defs
import proofs.«135838_j85152021611242_1_alg».proof.Proof.Gen.Kernel
import proofs.«135838_j85152021611242_1_alg».proof.Proof.Gen.KernelIdeal
import proofs.«135838_j85152021611242_1_alg».proof.Proof.Gen.ReferenceIdeal
import proofs.«135838_j85152021611242_1_alg».proof.Proof.Gen.Pre_finite_inputs
import proofs.«135838_j85152021611242_1_alg».proof.Proof.KFrame
import proofs.«135838_j85152021611242_1_alg».proof.Proof.KIValue
import proofs.«135838_j85152021611242_1_alg».proof.Proof.RefTail
import proofs.«135838_j85152021611242_1_alg».proof.Proof.RefBridge
import proofs.«135838_j85152021611242_1_alg».proof.Proof.KIRefChains
import proofs.«135838_j85152021611242_1_alg».proof.Proof.KIRefEq
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := Cert.Kernel.BitsFrame.frame

/-- The idealized kernel runs and leaves its arguments as launched: its run with the results named, the results dropped. -/
theorem frame_ki : Cert.frame_KernelIdeal := fun m ρ _ =>
  (θ_run Cert.KernelIdeal.defs _ _).mono (fun _ h c => (h c).2.2) (Cert.KernelIdeal.Final.kernel_run m ρ)

/-- The reference runs and leaves its arguments as launched: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- Both programs end with the flow nodes' array at `flowOut` and the endpoint nodes' at `epOut`: the kernel's run names
    them so; the reference's tail of eight operations per result is the same combine of the same shared chains, the
    bias added before the self-loop term instead of after it. -/
theorem algebraic : Cert.algebraic_KernelIdeal_ReferenceIdeal := by
  intro m ρ m' ρ' _ hagree
  refine ⟨fun c => Cert.KernelIdeal.Final.flowOut m c, fun c => Cert.KernelIdeal.Final.epOut m c,
    Cert.KernelIdeal.Final.kernel_run m ρ, ?_⟩
  refine (θ_run Cert.ReferenceIdeal.defs _ _).mono (fun _ h c => ⟨(h c).1.trans ?_, (h c).2.1.trans ?_, (h c).2.2⟩)
    (Cert.ReferenceIdeal.Bridge.run_tail m' ρ')
  · obtain ⟨h0, h1, h2, h3, h4, h5, h6, h7, h8, h9, h10⟩ := hagree c
    rw [h0, h1, h2, h3, h6, h7, h8]
    exact Cert.KIRefChains.ref_flow_eq _ _ _ _ _ _ _
  · obtain ⟨h0, h1, h2, h3, h4, h5, h6, h7, h8, h9, h10⟩ := hagree c
    rw [h0, h1, h4, h5, h6, h9, h10]
    exact Cert.KIRefChains.ref_ep_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
